-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000x1 : Shape := ⟨2, ![3200000, 1]⟩
abbrev S256x32 : Shape := ⟨2, ![256, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg15 : FVec F S128x10 .f32) (main_arg16 : FVec F S10 .f32) (main_v63 : IVec S_ 1) (main_v67 : IVec S_ 1) : IVec S_ 1 :=
  let main_v68 : IVec S_ 1 := andi main_v63 main_v67
  let main_v69 : FVec F S128x10 .f32 := Host.absf main_arg15
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg16
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg12 : FVec F S64 .f32) (main_arg13 : FVec F S64x128 .f32) (main_arg14 : FVec F S128 .f32) (main_arg15 : FVec F S128x10 .f32) (main_arg16 : FVec F S10 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S32x64 .f32) (main_arg9 : FVec F S64 .f32) (main_arg10 : FVec F S32x64 .f32) (main_arg11 : FVec F S32x64 .f32) (main_arg12 : FVec F S64 .f32) (main_arg13 : FVec F S64x128 .f32) (main_arg14 : FVec F S128 .f32) (main_arg15 : FVec F S128x10 .f32) (main_arg16 : FVec F S10 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32x64 .f32 := Host.absf main_arg11
  let main_cst_18 : FVec F S_ .f32 := constant S_ .f32 0x7F800000#32
  let main_v50 : FVec F S32x64 .f32 := broadcastInDim S32x64 ![] bcast_S_S32x64 main_cst_18
  fn_part3 (F := F) main_arg12 main_arg13 main_arg14 main_arg15 main_arg16 main_v48 main_v49 main_v50

def fn_part1 {F : FTy → Type} [FloatOps F] (main_arg5 : FVec F S256x32 .f32) (main_arg6 : FVec F S256x32 .f32) (main_arg7 : FVec F S32 .f32) (main_arg8 : FVec F S32x64 .f32) (main_arg9 : FVec F S64 .f32) (main_arg10 : FVec F S32x64 .f32) (main_arg11 : FVec F S32x64 .f32) (main_arg12 : FVec F S64 .f32) (main_arg13 : FVec F S64x128 .f32) (main_arg14 : FVec F S128 .f32) (main_arg15 : FVec F S128x10 .f32) (main_arg16 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S256x32 .f32 := Host.absf main_arg5
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x256 .f32) (main_arg1 : IVec S2x3200000 32) (main_arg2 : FVec F S3200000x1 .f32) (main_arg3 : FVec F S256x32 .f32) (main_arg4 : FVec F S32 .f32) (main_arg5 : FVec F S256x32 .f32) (main_arg6 : FVec F S256x32 .f32) (main_arg7 : FVec F S32 .f32) (main_arg8 : FVec F S32x64 .f32) (main_arg9 : FVec F S64 .f32) (main_arg10 : FVec F S32x64 .f32) (main_arg11 : FVec F S32x64 .f32) (main_arg12 : FVec F S64 .f32) (main_arg13 : FVec F S64x128 .f32) (main_arg14 : FVec F S128 .f32) (main_arg15 : FVec F S128x10 .f32) (main_arg16 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S256x32 .f32 := Host.absf main_arg3
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x256 : Shape := ⟨2, ![100000, 256]⟩
abbrev S2x3200000 : Shape := ⟨2, ![2, 3200000]⟩
abbrev S3200000x1 : Shape := ⟨2, ![3200000, 1]⟩
abbrev S256x32 : Shape := ⟨2, ![256, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x3200000 : Shape := ⟨2, ![1, 3200000]⟩
abbrev S3200000 : Shape := ⟨1, ![3200000]⟩
abbrev S1x32 : Shape := ⟨2, ![1, 32]⟩
abbrev S100000x32 : Shape := ⟨2, ![100000, 32]⟩
abbrev S5000x256 : Shape := ⟨2, ![5000, 256]⟩
abbrev S5000x32 : Shape := ⟨2, ![5000, 32]⟩
abbrev S_ : Shape := ⟨0, ![]⟩
abbrev S3200000x32 : Shape := ⟨2, ![3200000, 32]⟩
abbrev S1x64 : Shape := ⟨2, ![1, 64]⟩
abbrev S100000x64 : Shape := ⟨2, ![100000, 64]⟩
abbrev S5000x64 : Shape := ⟨2, ![5000, 64]⟩
abbrev S3200000x64 : Shape := ⟨2, ![3200000, 64]⟩
abbrev S1x128 : Shape := ⟨2, ![1, 128]⟩
abbrev S1x10 : Shape := ⟨2, ![1, 10]⟩
abbrev S100000x10 : Shape := ⟨2, ![100000, 10]⟩
abbrev S5000x10 : Shape := ⟨2, ![5000, 10]⟩
abbrev S5000x128 : Shape := ⟨2, ![5000, 128]⟩
abbrev S5000 : Shape := ⟨1, ![5000]⟩
abbrev S5000x1 : Shape := ⟨2, ![5000, 1]⟩

abbrev nBuf : Space → Nat
  | .hbm => 87
  | .vmem => 38
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000x1, .f32⟩
  | .hbm, ⟨3, _⟩ => ⟨S256x32, .f32⟩
  | .hbm, ⟨4, _⟩ => ⟨S32, .f32⟩
  | .hbm, ⟨5, _⟩ => ⟨S256x32, .f32⟩
  | .hbm, ⟨6, _⟩ => ⟨S256x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S32x64, .f32⟩
  | .hbm, ⟨11, _⟩ => ⟨S32x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S3200000, .f32⟩
  | .hbm, ⟨22, _⟩ => ⟨S1x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S100000x32, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x32, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x32, .f32⟩
  | .hbm, ⟨46, _⟩ => ⟨S3200000x32, .f32⟩
  | .hbm, ⟨47, _⟩ => ⟨S3200000x32, .f32⟩
  | .hbm, ⟨48, _⟩ => ⟨S3200000x32, .f32⟩
  | .hbm, ⟨49, _⟩ => ⟨S_, .f32⟩
  | .hbm, ⟨50, _⟩ => ⟨S100000x32, .f32⟩
  | .hbm, ⟨51, _⟩ => ⟨S3200000x1, .i32⟩
  | .hbm, ⟨52, _⟩ => ⟨S100000x32, .f32⟩
  | .hbm, ⟨53, _⟩ => ⟨S1x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S3200000x1, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x64, .f32⟩
  | .hbm, ⟨68, _⟩ => ⟨S_, .i32⟩
  | .hbm, ⟨69, _⟩ => ⟨S3200000, .i32⟩
  | .hbm, ⟨70, _⟩ => ⟨S3200000, .i1⟩
  | .hbm, ⟨71, _⟩ => ⟨S_, .i32⟩
  | .hbm, ⟨72, _⟩ => ⟨S3200000, .i32⟩
  | .hbm, ⟨73, _⟩ => ⟨S3200000, .i32⟩
  | .hbm, ⟨74, _⟩ => ⟨S3200000, .i32⟩
  | .hbm, ⟨75, _⟩ => ⟨S3200000x1, .i32⟩
  | .hbm, ⟨76, _⟩ => ⟨S3200000x64, .f32⟩
  | .hbm, ⟨77, _⟩ => ⟨S3200000x64, .f32⟩
  | .hbm, ⟨78, _⟩ => ⟨S3200000x64, .f32⟩
  | .hbm, ⟨79, _⟩ => ⟨S3200000x64, .f32⟩
  | .hbm, ⟨80, _⟩ => ⟨S_, .f32⟩
  | .hbm, ⟨81, _⟩ => ⟨S100000x64, .f32⟩
  | .hbm, ⟨82, _⟩ => ⟨S3200000x1, .i32⟩
  | .hbm, ⟨83, _⟩ => ⟨S100000x64, .f32⟩
  | .hbm, ⟨84, _⟩ => ⟨S1x128, .f32⟩
  | .hbm, ⟨85, _⟩ => ⟨S1x10, .f32⟩
  | .hbm, ⟨86, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S1x32, .f32⟩
  | .local _ .vmem, ⟨4, _⟩ => ⟨S256x32, .f32⟩
  | .local _ .vmem, ⟨5, _⟩ => ⟨S256x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S32x64, .f32⟩
  | .local _ .vmem, ⟨18, _⟩ => ⟨S1x64, .f32⟩
  | .local _ .vmem, ⟨19, _⟩ => ⟨S32x64, .f32⟩
  | .local _ .vmem, ⟨20, _⟩ => ⟨S32x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x128, .f32⟩
  | .local _ .vmem, ⟨33, _⟩ => ⟨S1x128, .f32⟩
  | .local _ .vmem, ⟨34, _⟩ => ⟨S128x10, .f32⟩
  | .local _ .vmem, ⟨35, _⟩ => ⟨S1x10, .f32⟩
  | .local _ .vmem, ⟨36, _⟩ => ⟨S5000x10, .f32⟩
  | .local _ .vmem, ⟨37, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31_0 : Ref sig .tc := ⟨.hbm, 55, rfl⟩
abbrev main_v31_1 : Ref sig .tc := ⟨.hbm, 56, rfl⟩
abbrev main_v31_2 : Ref sig .tc := ⟨.hbm, 57, rfl⟩
abbrev main_v32 : Ref sig .tc := ⟨.hbm, 58, rfl⟩
abbrev main_c_3 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x10 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S3200000x1_S3200000 : S3200000x1.ShapeCasts S3200000
  shapeCasts_S32_S1x32 : S32.ShapeCasts S1x32
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S64_S1x64 : S64.ShapeCasts S1x64
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S128_S1x128 : S128.ShapeCasts S1x128
  shapeCasts_S10_S1x10 : S10.ShapeCasts S1x10
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  dot_S5000x256_S256x32_S5000x32_1_0_0_1_n_n_wf : DotDims.WF S5000x256 S256x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x64_S5000x64_1_0_0_1_n_n_wf : DotDims.WF S5000x32 S32x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x128_S5000x128_1_0_0_1_n_n_wf : DotDims.WF S5000x64 S64x128 S5000x128 [1] [0] [0] [1] [] []
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S100000x32.size a
  hwx0_7 : ∀ i : grid0.Coords, EltTy.bits .f32 = 32 ∨ (Rect.block (s := S100000x32) S5000x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S100000x32.size a
  hwx0_8 : ∀ i : grid0.Coords, EltTy.bits .f32 = 32 ∨ (Rect.block (s := S100000x32) S5000x32.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x10.size a ≤ S128x10.size a
  hwx2_4 : ∀ i : grid2.Coords, EltTy.bits .f32 = 32 ∨ (Rect.block (s := S128x10) S128x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x10.size a ≤ S100000x10.size a
  hwx2_6 : ∀ i : grid2.Coords, EltTy.bits .f32 = 32 ∨ (Rect.block (s := S100000x10) S5000x10.size (cc2_transform_6 i) (hinb2_6 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S5000x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S5000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S5000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v31_1) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v31_2) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31_2) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x10.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000x1 : Shape := ⟨2, ![3200000, 1]⟩
abbrev S256x32 : Shape := ⟨2, ![256, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x3200000 : Shape := ⟨2, ![1, 3200000]⟩
abbrev S3200000 : Shape := ⟨1, ![3200000]⟩
abbrev S100000x32 : Shape := ⟨2, ![100000, 32]⟩
abbrev S1x32 : Shape := ⟨2, ![1, 32]⟩
abbrev S_ : Shape := ⟨0, ![]⟩
abbrev S3200000x32 : Shape := ⟨2, ![3200000, 32]⟩
abbrev S100000x64 : Shape := ⟨2, ![100000, 64]⟩
abbrev S1x64 : Shape := ⟨2, ![1, 64]⟩
abbrev S3200000x64 : Shape := ⟨2, ![3200000, 64]⟩
abbrev S100000x128 : Shape := ⟨2, ![100000, 128]⟩
abbrev S1x128 : Shape := ⟨2, ![1, 128]⟩
abbrev S100000x10 : Shape := ⟨2, ![100000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 162
  | .vmem => 0
  | .smem => 0
  | _ => 0

abbrev hbmTy0_0 (i : Nat) : BufTy := match i % 128 with
  | 0 => ⟨S100000x256, .f32⟩
  | 1 => ⟨S2x3200000, .i32⟩
  | 2 => ⟨S3200000x1, .f32⟩
  | 3 => ⟨S256x32, .f32⟩
  | 4 => ⟨S32, .f32⟩
  | 5 => ⟨S256x32, .f32⟩
  | 6 => ⟨S256x32, .f32⟩
  | 7 => ⟨S32, .f32⟩
  | 8 => ⟨S32x64, .f32⟩
  | 9 => ⟨S64, .f32⟩
  | 10 => ⟨S32x64, .f32⟩
  | 11 => ⟨S32x64, .f32⟩
  | 12 => ⟨S64, .f32⟩
  | 13 => ⟨S64x128, .f32⟩
  | 14 => ⟨S128, .f32⟩
  | 15 => ⟨S128x10, .f32⟩
  | 16 => ⟨S10, .f32⟩
  | 17 => ⟨S1x3200000, .i32⟩
  | 18 => ⟨S3200000, .i32⟩
  | 19 => ⟨S1x3200000, .i32⟩
  | 20 => ⟨S3200000, .i32⟩
  | 21 => ⟨S3200000, .f32⟩
  | 22 => ⟨S100000x32, .f32⟩
  | 23 => ⟨S1x32, .f32⟩
  | 24 => ⟨S100000x32, .f32⟩
  | 25 => ⟨S100000x32, .f32⟩
  | 26 => ⟨S100000x32, .f32⟩
  | 27 => ⟨S3200000x1, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x32, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x32, .f32⟩
  | 46 => ⟨S3200000x32, .f32⟩
  | 47 => ⟨S3200000x32, .f32⟩
  | 48 => ⟨S3200000x32, .f32⟩
  | 49 => ⟨S_, .f32⟩
  | 50 => ⟨S100000x32, .f32⟩
  | 51 => ⟨S3200000x1, .i32⟩
  | 52 => ⟨S100000x32, .f32⟩
  | 53 => ⟨S100000x32, .f32⟩
  | 54 => ⟨S100000x32, .f32⟩
  | 55 => ⟨S1x32, .f32⟩
  | 56 => ⟨S100000x32, .f32⟩
  | 57 => ⟨S100000x32, .f32⟩
  | 58 => ⟨S_, .f32⟩
  | 59 => ⟨S100000x32, .f32⟩
  | 60 => ⟨S100000x32, .i1⟩
  | 61 => ⟨S_, .f32⟩
  | 62 => ⟨S100000x32, .f32⟩
  | 63 => ⟨S100000x32, .i1⟩
  | 64 => ⟨S_, .f32⟩
  | 65 => ⟨S_, .f32⟩
  | 66 => ⟨S100000x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x32, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S3200000x1, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x64, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x64, .f32⟩
  | 97 => ⟨S3200000x64, .f32⟩
  | 98 => ⟨S3200000x64, .f32⟩
  | 99 => ⟨S3200000x64, .f32⟩
  | 100 => ⟨S_, .f32⟩
  | 101 => ⟨S100000x64, .f32⟩
  | 102 => ⟨S3200000x1, .i32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .i1⟩
  | 112 => ⟨S_, .f32⟩
  | 113 => ⟨S100000x64, .f32⟩
  | 114 => ⟨S100000x64, .i1⟩
  | 115 => ⟨S_, .f32⟩
  | 116 => ⟨S_, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S100000x128, .f32⟩
  | 125 => ⟨S1x128, .f32⟩
  | 126 => ⟨S100000x128, .f32⟩
  | 127 => ⟨S100000x128, .f32⟩
  | _ => ⟨S100000x256, .f32⟩

abbrev hbmTy0_1 (i : Nat) : BufTy := match i % 128 with
  | 0 => ⟨S_, .f32⟩
  | 1 => ⟨S100000x128, .f32⟩
  | 2 => ⟨S100000x128, .i1⟩
  | 3 => ⟨S_, .f32⟩
  | 4 => ⟨S100000x128, .f32⟩
  | 5 => ⟨S100000x128, .i1⟩
  | 6 => ⟨S_, .f32⟩
  | 7 => ⟨S_, .f32⟩
  | 8 => ⟨S100000x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S100000x10, .f32⟩
  | 16 => ⟨S1x10, .f32⟩
  | 17 => ⟨S100000x10, .f32⟩
  | 18 => ⟨S100000x10, .f32⟩
  | 19 => ⟨S_, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x10, .f32⟩
  | 26 => ⟨S100000x10, .f32⟩
  | 27 => ⟨S100000x10, .f32⟩
  | 28 => ⟨S_, .f32⟩
  | 29 => ⟨S100000, .f32⟩
  | 30 => ⟨S100000x1, .f32⟩
  | 31 => ⟨S100000x1, .f32⟩
  | 32 => ⟨S100000x10, .f32⟩
  | 33 => ⟨S100000x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_cst_1 : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_v4 : Ref sig .tc := ⟨.hbm, 67, rfl⟩
abbrev main_call0_v5 : Ref sig .tc := ⟨.hbm, 68, rfl⟩
abbrev main_call0_cst_2 : Ref sig .tc := ⟨.hbm, 69, rfl⟩
abbrev main_call0_v6 : Ref sig .tc := ⟨.hbm, 70, rfl⟩
abbrev main_call0_v7 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_3 : Ref sig .tc := ⟨.hbm, 79, rfl⟩
abbrev main_v43 : Ref sig .tc := ⟨.hbm, 80, rfl⟩
abbrev main_v44 : Ref sig .tc := ⟨.hbm, 81, rfl⟩
abbrev main_c_4 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_5 : Ref sig .tc := ⟨.hbm, 88, rfl⟩
abbrev main_v50 : Ref sig .tc := ⟨.hbm, 89, rfl⟩
abbrev main_v51 : Ref sig .tc := ⟨.hbm, 90, rfl⟩
abbrev main_c_6 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_7 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_cst_1 : Ref sig .tc := ⟨.hbm, 115, rfl⟩
abbrev main_call1_call0_v0 : Ref sig .tc := ⟨.hbm, 116, rfl⟩
abbrev main_call1_call0_v1 : Ref sig .tc := ⟨.hbm, 117, rfl⟩
abbrev main_call1_v4 : Ref sig .tc := ⟨.hbm, 118, rfl⟩
abbrev main_call1_v5 : Ref sig .tc := ⟨.hbm, 119, rfl⟩
abbrev main_call1_cst_2 : Ref sig .tc := ⟨.hbm, 120, rfl⟩
abbrev main_call1_v6 : Ref sig .tc := ⟨.hbm, 121, rfl⟩
abbrev main_call1_v7 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_cst_0 : Ref sig .tc := ⟨.hbm, 131, rfl⟩
abbrev main_call2_v2 : Ref sig .tc := ⟨.hbm, 132, rfl⟩
abbrev main_call2_v3 : Ref sig .tc := ⟨.hbm, 133, rfl⟩
abbrev main_call2_cst_1 : Ref sig .tc := ⟨.hbm, 134, rfl⟩
abbrev main_call2_call0_v0 : Ref sig .tc := ⟨.hbm, 135, rfl⟩
abbrev main_call2_call0_v1 : Ref sig .tc := ⟨.hbm, 136, rfl⟩
abbrev main_call2_v4 : Ref sig .tc := ⟨.hbm, 137, rfl⟩
abbrev main_call2_v5 : Ref sig .tc := ⟨.hbm, 138, rfl⟩
abbrev main_call2_cst_2 : Ref sig .tc := ⟨.hbm, 139, rfl⟩
abbrev main_call2_v6 : Ref sig .tc := ⟨.hbm, 140, rfl⟩
abbrev main_call2_v7 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_call3_cst : Ref sig .tc := ⟨.hbm, 147, rfl⟩
abbrev main_call3_v0 : Ref sig .tc := ⟨.hbm, 148, rfl⟩
abbrev main_call3_cst_0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_cst_1 : Ref sig .tc := ⟨.hbm, 156, rfl⟩
abbrev main_call3_v7 : Ref sig .tc := ⟨.hbm, 157, rfl⟩
abbrev main_call3_v8 : Ref sig .tc := ⟨.hbm, 158, rfl⟩
abbrev main_call3_v9 : Ref sig .tc := ⟨.hbm, 159, rfl⟩
abbrev main_call3_v10 : Ref sig .tc := ⟨.hbm, 160, rfl⟩
abbrev main_v78 : Ref sig .tc := ⟨.hbm, 161, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S3200000x1_S3200000 : S3200000x1.ShapeCasts S3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x256_S256x32_S100000x32_1_0_0_1_n_n_wf : DotDims.WF S100000x256 S256x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x64_S100000x64_1_0_0_1_n_n_wf : DotDims.WF S100000x32 S32x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x128_S100000x128_1_0_0_1_n_n_wf : DotDims.WF S100000x64 S64x128 S100000x128 [1] [0] [0] [1] [] []
  dot_S100000x128_S128x10_S100000x10_1_0_0_1_n_n_wf : DotDims.WF S100000x128 S128x10 S100000x10 [1] [0] [0] [1] [] []

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.Spec.lean ====
/-
  The network both programs compute, written once as functions of an index over the extended reals.

  A two-layer graph convolution and a two-layer head over N = 100000 nodes and E = 3200000 edges:
    a = X·Wa + ba,  b = X·Wb,  agg_n = Σ_{e : dst e = n} w_e · (a_{src e} − b_{dst e}),
    h = elu (agg + X·Wc + bc)            (twice: 256 → 32 → 64),
    z = elu (h·Wf1 + bf1),  y = z·Wf2 + bf2,  out = log_softmax y  (row by row).
  Everything up to the logits y is ONE function (`logits`) of the argument arrays. The two programs differ in the
  last step only: one computes y − (m + log Σ exp (y − m)), the other (y − m) − log Σ exp (y − m), m the row's
  maximum. On the extended reals these agree where the row is real-valued (they differ at infinite entries),
  which is why the certificate carries real-valuedness from the inputs to the logits.
-/
import Idealize.ShloMosaic.PureOps.Ideal
import Idealize.ShloMosaic.PureOps.Ideal.Laws
import Idealize.ShloMosaic.Lib.ValueIdx
import proofs.«132559_j88553635709227_1_alg».proof.Proof.LibRowOps

noncomputable section

namespace Cert.Spec

open Idealize.ShloMosaic Idealize.ShloMosaic.ValueIdx
open scoped BigOperators

/-- A matrix of extended reals, n rows by m columns. -/
abbrev Mat (n m : Nat) : Type := (⟨2, ![n, m]⟩ : Shape).Idx → EReal
/-- A vector of extended reals. -/
abbrev Vc (n : Nat) : Type := (⟨1, ![n]⟩ : Shape).Idx → EReal

/-- The matrix product: entry (r, q) is Σ_k X(r, k) · W(k, q). -/
def mm {N K C : Nat} (X : Mat N K) (W : Mat K C) : Mat N C :=
  fun i => ∑ k : Fin K, X (ix2 (i 0) k) * W (ix2 k (i 1))

/-- Entrywise sum. -/
def add {N C : Nat} (A B : Mat N C) : Mat N C := fun i => A i + B i

/-- A bias vector added to every row. -/
def addRow {N C : Nat} (Y : Mat N C) (b : Vc C) : Mat N C := fun i => Y i + b (ix1 (i 1))

/-- The same with the bias held as a 1 × C matrix. -/
def addRow1 {N C : Nat} (Y : Mat N C) (b : Mat 1 C) : Mat N C := fun i => Y i + b (ix2 (0 : Fin 1) (i 1))

/-- elu x = x for x > 0, e^x − 1 otherwise. -/
def elu (x : EReal) : EReal := if 0 < x then x else Ideal.exp x - 1

def eluM {N C : Nat} (Y : Mat N C) : Mat N C := fun i => elu (Y i)

/-- The maximum of row a (from −∞). -/
def rowMax {N C : Nat} (Y : Mat N C) (a : Fin N) : EReal :=
  (Finset.univ : Finset (Fin C)).fold max ⊥ (fun k => Y (ix2 a k))

/-- Σ_k exp (Y(a, k) − max of row a). -/
def rowSumExp {N C : Nat} (Y : Mat N C) (a : Fin N) : EReal :=
  ∑ k : Fin C, Ideal.exp (Y (ix2 a k) - rowMax Y a)

/-- log-softmax as y − (m + log Σ exp (y − m)). -/
def lsmK {N C : Nat} (Y : Mat N C) : Mat N C :=
  fun i => Y i - (rowMax Y (i 0) + Ideal.log (rowSumExp Y (i 0)))

/-- log-softmax as (y − m) − log Σ exp (y − m). -/
def lsmR {N C : Nat} (Y : Mat N C) : Mat N C :=
  fun i => (Y i - rowMax Y (i 0)) - Ideal.log (rowSumExp Y (i 0))

/-! ## The edge aggregation, as the chain of array operations both programs apply -/

abbrev SE : Shape := ⟨1, ![3200000]⟩
abbrev S2E : Shape := ⟨2, ![2, 3200000]⟩
abbrev S1E : Shape := ⟨2, ![1, 3200000]⟩
abbrev SE1 : Shape := ⟨2, ![3200000, 1]⟩
abbrev S0 : Shape := ⟨0, ![]⟩

/-- The shape relations the chain's operations take, at C columns. -/
structure AggFacts (C : Nat) : Prop where
  sl0 : S2E.Slices ![0, 0] S1E
  sl1 : S2E.Slices ![1, 0] S1E
  sc : S1E.ShapeCasts SE
  scw : SE1.ShapeCasts SE
  bE : S0.BroadcastsInDim SE (![] : Fin 0 → Fin SE.rank)
  bE1 : SE.BroadcastsInDim SE1 (![0] : Fin 1 → Fin SE1.rank)
  bEC : SE1.BroadcastsInDim (⟨2, ![3200000, C]⟩ : Shape) (![0, 1] : Fin 2 → Fin 2)
  bNC : S0.BroadcastsInDim (⟨2, ![100000, C]⟩ : Shape) (![] : Fin 0 → Fin 2)
  wfG : GatherDims.WF (⟨2, ![100000, C]⟩ : Shape) SE1 (⟨2, ![3200000, C]⟩ : Shape) [1] [0] [] [0] [] 1 ![1, C]
  wfS : ScatterDims.WF (⟨2, ![100000, C]⟩ : Shape) SE1 (⟨2, ![3200000, C]⟩ : Shape) [1] [0] [0] 1

theorem aggFacts32 : AggFacts 32 := ⟨by decide, by decide, by decide, by decide, by decide, by decide, by decide, by decide, by decide, by decide⟩
theorem aggFacts64 : AggFacts 64 := ⟨by decide, by decide, by decide, by decide, by decide, by decide, by decide, by decide, by decide, by decide⟩

/-- A node index as array indexing reads it: a negative index counts from the end; held as an E × 1 column. -/
def wrapIdx {C : Nat} (h : AggFacts C) (v : IVec SE 32) : IVec SE1 32 :=
  broadcastInDim SE1 ![0] h.bE1
    (select (cmpi .slt v (broadcastInDim SE ![] h.bE (constantI S0 32 0#32)))
      (addi v (broadcastInDim SE ![] h.bE (constantI S0 32 100000#32))) v)

/-- Row 0 / row 1 of the edge list, as a vector of E node indices. -/
def edgeRow0 {C : Nat} (h : AggFacts C) (ei : IVec S2E 32) : IVec SE 32 :=
  shapeCast SE (extractStridedSlice S1E ![0, 0] ei h.sl0) h.sc
def edgeRow1 {C : Nat} (h : AggFacts C) (ei : IVec S2E 32) : IVec SE 32 :=
  shapeCast SE (extractStridedSlice S1E ![1, 0] ei h.sl1) h.sc

/-- The message of edge e: w_e · (a_{src e} − b_{dst e}), one row per edge. -/
def msg {C : Nat} (h : AggFacts C) (a b : Mat 100000 C) (ei : IVec S2E 32) (ea : Mat 3200000 1) : Mat 3200000 C :=
  mulf (F := Ideal) (φ := .f32)
    (broadcastInDim (⟨2, ![3200000, C]⟩ : Shape) ![0, 1] h.bEC (broadcastInDim SE1 ![0] h.bE1 (shapeCast SE ea h.scw)))
    (subf (F := Ideal) (φ := .f32)
      (Host.gather (Cert.Lib.RowOps.gath2 100000 C 3200000 h.wfG) a (wrapIdx h (edgeRow0 h ei)))
      (Host.gather (Cert.Lib.RowOps.gath2 100000 C 3200000 h.wfG) b (wrapIdx h (edgeRow1 h ei))))

/-- The messages summed into their destination rows, from zero. -/
def agg {C : Nat} (h : AggFacts C) (a b : Mat 100000 C) (ei : IVec S2E 32) (ea : Mat 3200000 1) : Mat 100000 C :=
  Host.scatterAdd (F := Ideal) (φ := .f32) (Cert.Lib.RowOps.scat2 100000 C 3200000 h.wfS)
    (broadcastInDim (⟨2, ![100000, C]⟩ : Shape) ![] h.bNC (constant (F := Ideal) S0 .f32 0x00000000#32))
    (broadcastInDim SE1 ![0] h.bE1 (edgeRow1 h ei)) (msg h a b ei ea)

/-! ## The network up to the logits -/

/-- One graph-convolution layer followed by elu: elu ((agg + X·Wc) + bc). -/
def conv {K C : Nat} (h : AggFacts C) (X : Mat 100000 K) (ei : IVec S2E 32) (ea : Mat 3200000 1)
    (Wa : Mat K C) (ba : Vc C) (Wb Wc : Mat K C) (bc : Vc C) : Mat 100000 C :=
  eluM (addRow (add (agg h (addRow (mm X Wa) ba) (mm X Wb) ei ea) (mm X Wc)) bc)

/-- The logits: two convolution layers, one dense layer with elu, one dense layer. -/
def logits (x : Mat 100000 256) (ei : IVec S2E 32) (ea : Mat 3200000 1)
    (W1a : Mat 256 32) (b1a : Vc 32) (W1b W1c : Mat 256 32) (b1c : Vc 32)
    (W2a : Mat 32 64) (b2a : Vc 64) (W2b W2c : Mat 32 64) (b2c : Vc 64)
    (Wf1 : Mat 64 128) (bf1 : Vc 128) (Wf2 : Mat 128 10) (bf2 : Vc 10) : Mat 100000 10 :=
  addRow (mm (eluM (addRow (mm
    (conv aggFacts64 (conv aggFacts32 x ei ea W1a b1a W1b W1c b1c) ei ea W2a b2a W2b W2c b2c) Wf1) bf1)) Wf2) bf2

/-- Real-valued (neither infinity) at every index. -/
def IsReal {s : Shape} (v : s.Idx → EReal) : Prop := ∀ i, v i ≠ ⊤ ∧ v i ≠ ⊥

/-- Adding a bias after a sum is adding it to the second summand first. -/
theorem add_addRow {N C : Nat} (A B : Mat N C) (b : Vc C) : add A (addRow B b) = addRow (add A B) b := by
  funext i; simp only [add, addRow, add_assoc]

/-- A 1 × C bias that is the vector b laid out as one row adds as b does. -/
theorem addRow1_of_row {N C : Nat} (Y : Mat N C) (b1 : Mat 1 C) (b : Vc C)
    (hb : ∀ q : Fin C, b1 (ix2 (0 : Fin 1) q) = b (ix1 q)) : addRow1 Y b1 = addRow Y b := by
  funext i; exact congrArg (Y i + ·) (hb (i 1))

end Cert.Spec

end
-- ==== Proof.KRegion0.lean ====
/-
  The first region's three output arrays as whole-array functions of the arrays the region finds.

  The region walks the 100000 input rows in 20 blocks of 5000. At block t it multiplies rows 5000·t … 5000·t + 4999 of
  x (256 columns) by each of three 256 × 32 weight matrices, adds a 1 × 32 bias row to the first and the third product,
  and writes the three 5000 × 32 results back as rows 5000·t … 5000·t + 4999 of three 100000 × 32 arrays. Entry (r, q)
  of a product is Σ_k x(r, k) · W(k, q): the narrowing of the operands before the product is the identity on the
  extended reals, and the product accumulates into zero. The 20 blocks tile the rows (row r is in block r / 5000), so
  each array ends as x·W (+ bias) everywhere.
-/
import proofs.«132559_j88553635709227_1_alg».proof.Proof.KernelIdealFrame
import proofs.«132559_j88553635709227_1_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction record's operand indices, axis by axis -/

theorem lhs_row (j : S5000x32.Idx) (k : dot_S5000x256_S256x32_S5000x32_1_0_0_1_n_n.contr.Idx) :
    ((dot_S5000x256_S256x32_S5000x32_1_0_0_1_n_n.lhsIdx j k) 0).val = (j 0).val := by
  simp [DotDims.lhsIdx, dot_S5000x256_S256x32_S5000x32_1_0_0_1_n_n]; rfl

theorem lhs_col (j : S5000x32.Idx) (k : dot_S5000x256_S256x32_S5000x32_1_0_0_1_n_n.contr.Idx) :
    ((dot_S5000x256_S256x32_S5000x32_1_0_0_1_n_n.lhsIdx j k) 1).val = (k ⟨0, by decide⟩).val :=
  dot_S5000x256_S256x32_S5000x32_1_0_0_1_n_n.lhsIdx_val_of_single (cl := 1) rfl j k

theorem rhs_row (j : S5000x32.Idx) (k : dot_S5000x256_S256x32_S5000x32_1_0_0_1_n_n.contr.Idx) :
    ((dot_S5000x256_S256x32_S5000x32_1_0_0_1_n_n.rhsIdx j k) 0).val = (k ⟨0, by decide⟩).val :=
  dot_S5000x256_S256x32_S5000x32_1_0_0_1_n_n.rhsIdx_val_of_single (cr := 0) rfl j k

theorem rhs_col (j : S5000x32.Idx) (k : dot_S5000x256_S256x32_S5000x32_1_0_0_1_n_n.contr.Idx) :
    ((dot_S5000x256_S256x32_S5000x32_1_0_0_1_n_n.rhsIdx j k) 1).val = (j 1).val := by
  simp [DotDims.rhsIdx, dot_S5000x256_S256x32_S5000x32_1_0_0_1_n_n]; rfl

/-- The product of a block of rows with a weight matrix, entry by entry. -/
theorem proj_apply (x : Vec Ideal S5000x256 .f32) (w : Vec Ideal S256x32 .f32) (p : Fin 5000) (q : Fin 32) :
    k0_pay3 x w (ix2 p q) = ∑ k : Fin 256, x (ix2 p k) * w (ix2 k q) := by
  unfold k0_pay3 k0_pay1
  show FloatOps.matmul (F := Ideal) dot_S5000x256_S256x32_S5000x32_1_0_0_1_n_n none (truncf (F := Ideal) .bf16 x bitsLt_bf16_f32)
      (truncf (F := Ideal) .bf16 w bitsLt_bf16_f32) (constant (F := Ideal) S5000x32 .f32 0x00000000#32) (ix2 p q) = _
  rw [Ideal.matmul_constant_zero_apply,
    ← Equiv.sum_comp (contrEquiv1 dot_S5000x256_S256x32_S5000x32_1_0_0_1_n_n 256 rfl rfl).symm]
  refine Finset.sum_congr rfl fun k _ => ?_
  have c2 := contrEquiv1_symm_val dot_S5000x256_S256x32_S5000x32_1_0_0_1_n_n 256 rfl rfl k
  have l2 : dot_S5000x256_S256x32_S5000x32_1_0_0_1_n_n.lhsIdx (ix2 p q) ((contrEquiv1 _ 256 rfl rfl).symm k) = ix2 p k := by
    funext ax; apply Fin.ext
    match ax with
    | ⟨0, _⟩ => exact lhs_row _ _
    | ⟨1, _⟩ => exact (lhs_col _ _).trans c2
  have r2 : dot_S5000x256_S256x32_S5000x32_1_0_0_1_n_n.rhsIdx (ix2 p q) ((contrEquiv1 _ 256 rfl rfl).symm k) = ix2 k q := by
    funext ax; apply Fin.ext
    match ax with
    | ⟨0, _⟩ => exact (rhs_row _ _).trans c2
    | ⟨1, _⟩ => exact rhs_col _ _
  rw [l2, r2]
  rfl

/-- The product with the bias row added: the bias is cast to its own shape and laid along every row. -/
theorem proj_bias_apply (x : Vec Ideal S5000x256 .f32) (w : Vec Ideal S256x32 .f32) (b : Vec Ideal S1x32 .f32)
    (p : Fin 5000) (q : Fin 32) :
    k0_pay2 x w b (ix2 p q) = (∑ k : Fin 256, x (ix2 p k) * w (ix2 k q)) + b (ix2 (0 : Fin 1) q) := by
  have e : k0_pay2 x w b = addf (F := Ideal) (k0_pay3 x w)
      (broadcastTo S5000x32 (shapeCast S1x32 b shapeCasts_S1x32_S1x32) broadcasts_S1x32_S5000x32) := rfl
  rw [e, addf_apply, proj_apply, shapeCast_self]
  congr 1
  exact broadcastTo_apply b broadcasts_S1x32_S5000x32 (ix2 p q) (ix2 (0 : Fin 1) q) (fun a => by
    match a with
    | ⟨0, _⟩ => rfl
    | ⟨1, _⟩ => rfl)

/-- The third projection's payload is the first's, of its own weights and bias. -/
theorem pay4_eq (x : Vec Ideal S5000x256 .f32) (w : Vec Ideal S256x32 .f32) (b : Vec Ideal S1x32 .f32) :
    k0_pay4 x w b = k0_pay2 x w b := rfl

/-! ## From blocks to arrays -/

theorem zero_offsets : (![0, 0] : Fin 2 → Nat) = fun _ => 0 := funext fun a => by fin_cases a <;> rfl

/-- The printed index maps over the grid: a row window's block index is (t, 0), a weight or bias window's (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The input rows' block at point t is rows 5000·t … 5000·t + 4999 of the array. -/
theorem xblock_apply (c : Dev nD) (t : Fin cfg0.N) (p : Fin 5000) (k : Fin 256) (r : Fin 100000)
    (hr : r.val = 5000 * t.val + p.val) :
    (iblk0 V c 0 t : Vec Ideal S5000x256 .f32) (ix2 p k) = (V c main_arg0 : Spec.Mat 100000 256) (ix2 r k) := by
  obtain ⟨e0, e1, -⟩ := index_maps t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- A weight window's block, at every point, is the whole weight array. -/
theorem wblock1_apply (c : Dev nD) (t : Fin cfg0.N) (k : Fin 256) (q : Fin 32) :
    (iblk0 V c 1 t : Vec Ideal S256x32 .f32) (ix2 k q) = (V c main_arg3 : Spec.Mat 256 32) (ix2 k q) := by
  obtain ⟨-, -, e0, e1, -⟩ := index_maps t
  unfold iblk0
  rw [View.read_apply]
  show V c main_arg3 _ = V c main_arg3 _
  congr 1
  funext a
  apply Fin.ext
  match a with
  | ⟨0, _⟩ => show win0_1.index t (0 : Fin 2) * 256 + 1 * k.val = k.val; rw [e0]; omega
  | ⟨1, _⟩ => show win0_1.index t (1 : Fin 2) * 32 + 1 * q.val = q.val; rw [e1]; omega

theorem wblock3_apply (c : Dev nD) (t : Fin cfg0.N) (k : Fin 256) (q : Fin 32) :
    (iblk0 V c 3 t : Vec Ideal S256x32 .f32) (ix2 k q) = (V c main_arg5 : Spec.Mat 256 32) (ix2 k q) := by
  obtain ⟨-, -, -, -, -, -, e0, e1, -⟩ := index_maps t
  unfold iblk0
  rw [View.read_apply]
  show V c main_arg5 _ = V c main_arg5 _
  congr 1
  funext a
  apply Fin.ext
  match a with
  | ⟨0, _⟩ => show win0_3.index t (0 : Fin 2) * 256 + 1 * k.val = k.val; rw [e0]; omega
  | ⟨1, _⟩ => show win0_3.index t (1 : Fin 2) * 32 + 1 * q.val = q.val; rw [e1]; omega

theorem wblock4_apply (c : Dev nD) (t : Fin cfg0.N) (k : Fin 256) (q : Fin 32) :
    (iblk0 V c 4 t : Vec Ideal S256x32 .f32) (ix2 k q) = (V c main_arg6 : Spec.Mat 256 32) (ix2 k q) := by
  obtain ⟨-, -, -, -, -, -, -, -, e0, e1, -⟩ := index_maps t
  unfold iblk0
  rw [View.read_apply]
  show V c main_arg6 _ = V c main_arg6 _
  congr 1
  funext a
  apply Fin.ext
  match a with
  | ⟨0, _⟩ => show win0_4.index t (0 : Fin 2) * 256 + 1 * k.val = k.val; rw [e0]; omega
  | ⟨1, _⟩ => show win0_4.index t (1 : Fin 2) * 32 + 1 * q.val = q.val; rw [e1]; omega

/-- A bias window's block, at every point, is the whole 1 × 32 bias row. -/
theorem bblock2_apply (c : Dev nD) (t : Fin cfg0.N) (q : Fin 32) :
    (iblk0 V c 2 t : Vec Ideal S1x32 .f32) (ix2 (0 : Fin 1) q) = (V c main_v5 : Spec.Mat 1 32) (ix2 (0 : Fin 1) q) := by
  obtain ⟨-, -, -, -, e0, e1, -⟩ := index_maps t
  unfold iblk0
  rw [View.read_apply]
  show V c main_v5 _ = V c main_v5 _
  congr 1
  funext a
  apply Fin.ext
  match a with
  | ⟨0, _⟩ => show win0_2.index t (0 : Fin 2) * 1 + 1 * 0 = 0; rw [e0]
  | ⟨1, _⟩ => show win0_2.index t (1 : Fin 2) * 32 + 1 * q.val = q.val; rw [e1]; omega

theorem bblock5_apply (c : Dev nD) (t : Fin cfg0.N) (q : Fin 32) :
    (iblk0 V c 5 t : Vec Ideal S1x32 .f32) (ix2 (0 : Fin 1) q) = (V c main_v6 : Spec.Mat 1 32) (ix2 (0 : Fin 1) q) := by
  obtain ⟨-, -, -, -, -, -, -, -, -, -, e0, e1, -⟩ := index_maps t
  unfold iblk0
  rw [View.read_apply]
  show V c main_v6 _ = V c main_v6 _
  congr 1
  funext a
  apply Fin.ext
  match a with
  | ⟨0, _⟩ => show win0_5.index t (0 : Fin 2) * 1 + 1 * 0 = 0; rw [e0]
  | ⟨1, _⟩ => show win0_5.index t (1 : Fin 2) * 32 + 1 * q.val = q.val; rw [e1]; omega

/-! ### What a point writes back, over the blocks as variables

The rows' block times the weights (plus the bias row), read at the array index the block's entry sits at: block entry
(p, q) of point t is array entry (5000·t + p, q). -/

theorem pointB (x : Vec Ideal S5000x256 .f32) (w : Vec Ideal S256x32 .f32) (X : Spec.Mat 100000 256) (W : Spec.Mat 256 32)
    (t : Nat) (hx : ∀ (p : Fin 5000) (k : Fin 256) (r : Fin 100000), r.val = 5000 * t + p.val → x (ix2 p k) = X (ix2 r k))
    (hw : ∀ (k : Fin 256) (q : Fin 32), w (ix2 k q) = W (ix2 k q))
    (j : S5000x32.Idx) (i : S100000x32.Idx) (h0 : (i 0).val = 5000 * t + (j 0).val) (h1 : (i 1).val = (j 1).val) :
    k0_pay3 x w j = Spec.mm X W i := by
  obtain ⟨p, q, rfl⟩ : ∃ (p : Fin 5000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext h1
  subst hs
  rw [proj_apply]
  unfold Spec.mm
  refine Finset.sum_congr rfl fun k _ => ?_
  rw [hx p k r h0, hw k s]

theorem pointA (x : Vec Ideal S5000x256 .f32) (w : Vec Ideal S256x32 .f32) (b : Vec Ideal S1x32 .f32)
    (X : Spec.Mat 100000 256) (W : Spec.Mat 256 32) (B : Spec.Mat 1 32)
    (t : Nat) (hx : ∀ (p : Fin 5000) (k : Fin 256) (r : Fin 100000), r.val = 5000 * t + p.val → x (ix2 p k) = X (ix2 r k))
    (hw : ∀ (k : Fin 256) (q : Fin 32), w (ix2 k q) = W (ix2 k q))
    (hb : ∀ q : Fin 32, b (ix2 (0 : Fin 1) q) = B (ix2 (0 : Fin 1) q))
    (j : S5000x32.Idx) (i : S100000x32.Idx) (h0 : (i 0).val = 5000 * t + (j 0).val) (h1 : (i 1).val = (j 1).val) :
    k0_pay2 x w b j = Spec.addRow1 (Spec.mm X W) B i := by
  obtain ⟨p, q, rfl⟩ : ∃ (p : Fin 5000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext h1
  subst hs
  rw [proj_bias_apply]
  unfold Spec.addRow1 Spec.mm
  show _ = (∑ k : Fin 256, X (ix2 r k) * W (ix2 k s)) + B (ix2 (0 : Fin 1) s)
  rw [hb s]
  congr 1
  refine Finset.sum_congr rfl fun k _ => ?_
  rw [hx p k r h0, hw k s]

theorem pointC (x : Vec Ideal S5000x256 .f32) (w : Vec Ideal S256x32 .f32) (b : Vec Ideal S1x32 .f32)
    (X : Spec.Mat 100000 256) (W : Spec.Mat 256 32) (B : Spec.Mat 1 32)
    (t : Nat) (hx : ∀ (p : Fin 5000) (k : Fin 256) (r : Fin 100000), r.val = 5000 * t + p.val → x (ix2 p k) = X (ix2 r k))
    (hw : ∀ (k : Fin 256) (q : Fin 32), w (ix2 k q) = W (ix2 k q))
    (hb : ∀ q : Fin 32, b (ix2 (0 : Fin 1) q) = B (ix2 (0 : Fin 1) q))
    (j : S5000x32.Idx) (i : S100000x32.Idx) (h0 : (i 0).val = 5000 * t + (j 0).val) (h1 : (i 1).val = (j 1).val) :
    k0_pay4 x w b j = Spec.addRow1 (Spec.mm X W) B i := by
  rw [pay4_eq]
  exact pointA x w b X W B t hx hw hb j i h0 h1

/-! ### What each point writes back is its block of the whole-array function -/

theorem flushedA (c : Dev nD) (t : Fin cfg0.N) :
    (dat0 (F := Ideal) V c).flushed 6 t
      = ((cfg0.win 6).blk t).view.read (Elt Ideal) (Spec.addRow1 (Spec.mm (V c main_arg0) (V c main_arg3)) (V c main_v5)) := by
  show (cfg0.win 6).cut (grid0.coords t) ((dat0 (F := Ideal) V c).after 6 t) = _
  rw [after0_6]
  unfold out0_6
  rw [View.canon_unit_zero zero_offsets]
  simp only [View.ld_unit_zero (S := S5000x256) zero_offsets, View.ld_unit_zero (S := S256x32) zero_offsets,
    View.ld_unit_zero (S := S1x32) zero_offsets]
  obtain ⟨-, -, -, -, -, -, -, -, -, -, -, -, e0, e1, -⟩ := index_maps t
  funext j
  refine pointA (iblk0 V c 0 t) (iblk0 V c 1 t) (iblk0 V c 2 t) (V c main_arg0) (V c main_arg3) (V c main_v5) t.val
    (fun p k r hr => xblock_apply V c t p k r hr) (fun k q => wblock1_apply V c t k q)
    (fun q => bblock2_apply V c t q) j (((cfg0.win 6).blk t).view.emb j) ?_ ?_
  · show win0_6.index t (0 : Fin 2) * 5000 + 1 * (j 0).val = 5000 * t.val + (j 0).val
    rw [e0]; omega
  · show win0_6.index t (1 : Fin 2) * 32 + 1 * (j 1).val = (j 1).val
    rw [e1]; omega

theorem flushedB (c : Dev nD) (t : Fin cfg0.N) :
    (dat0 (F := Ideal) V c).flushed 7 t
      = ((cfg0.win 7).blk t).view.read (Elt Ideal) (Spec.mm (V c main_arg0) (V c main_arg5)) := by
  show (cfg0.win 7).cut (grid0.coords t) ((dat0 (F := Ideal) V c).after 7 t) = _
  rw [after0_7]
  unfold out0_7
  rw [View.canon_unit_zero zero_offsets]
  simp only [View.ld_unit_zero (S := S5000x256) zero_offsets, View.ld_unit_zero (S := S256x32) zero_offsets]
  obtain ⟨-, -, -, -, -, -, -, -, -, -, -, -, -, -, e0, e1, -⟩ := index_maps t
  funext j
  refine pointB (iblk0 V c 0 t) (iblk0 V c 3 t) (V c main_arg0) (V c main_arg5) t.val
    (fun p k r hr => xblock_apply V c t p k r hr) (fun k q => wblock3_apply V c t k q) j
    (((cfg0.win 7).blk t).view.emb j) ?_ ?_
  · show win0_7.index t (0 : Fin 2) * 5000 + 1 * (j 0).val = 5000 * t.val + (j 0).val
    rw [e0]; omega
  · show win0_7.index t (1 : Fin 2) * 32 + 1 * (j 1).val = (j 1).val
    rw [e1]; omega

theorem flushedC (c : Dev nD) (t : Fin cfg0.N) :
    (dat0 (F := Ideal) V c).flushed 8 t
      = ((cfg0.win 8).blk t).view.read (Elt Ideal) (Spec.addRow1 (Spec.mm (V c main_arg0) (V c main_arg6)) (V c main_v6)) := by
  show (cfg0.win 8).cut (grid0.coords t) ((dat0 (F := Ideal) V c).after 8 t) = _
  rw [after0_8]
  unfold out0_8
  rw [View.canon_unit_zero zero_offsets]
  simp only [View.ld_unit_zero (S := S5000x256) zero_offsets, View.ld_unit_zero (S := S256x32) zero_offsets,
    View.ld_unit_zero (S := S1x32) zero_offsets]
  obtain ⟨-, -, -, -, -, -, -, -, -, -, -, -, -, -, -, -, e0, e1⟩ := index_maps t
  funext j
  refine pointC (iblk0 V c 0 t) (iblk0 V c 4 t) (iblk0 V c 5 t) (V c main_arg0) (V c main_arg6) (V c main_v6) t.val
    (fun p k r hr => xblock_apply V c t p k r hr) (fun k q => wblock4_apply V c t k q)
    (fun q => bblock5_apply V c t q) j (((cfg0.win 8).blk t).view.emb j) ?_ ?_
  · show win0_8.index t (0 : Fin 2) * 5000 + 1 * (j 0).val = 5000 * t.val + (j 0).val
    rw [e0]; omega
  · show win0_8.index t (1 : Fin 2) * 32 + 1 * (j 1).val = (j 1).val
    rw [e1]; omega

/-! ### The blocks tile the rows

An index of an output array is in point t's block iff each coordinate is in the block's range on its axis; row r lies in
the block of point r / 5000. -/

theorem mem_block6 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v7_0).slice (win0_6.rect t)).set ↔ _
  rw [View.set_slice_whole, Rect.mem_set_unit]
  exact Iff.rfl

theorem cover6 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_6 _, ?_⟩
  rw [mem_block6]
  obtain ⟨-, -, -, -, -, -, -, -, -, -, -, -, e0, e1, -⟩ := index_maps ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 32 ≤ (i 1).val ∧ (i 1).val < win0_6.index _ (1 : Fin 2) * 32 + 32
    rw [e1]; omega

theorem mem_block7 (t : Fin cfg0.N) (i : S100000x32.Idx) :
    i ∈ ((cfg0.win 7).blk t).view.set ↔ ∀ a : Fin 2, win0_7.index t a * S5000x32.size a ≤ (i a).val ∧ (i a).val < win0_7.index t a * S5000x32.size a + S5000x32.size a := by
  show i ∈ ((View.whole main_v7_1).slice (win0_7.rect t)).set ↔ _
  rw [View.set_slice_whole, Rect.mem_set_unit]
  exact Iff.rfl

theorem cover7 (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_7 _, ?_⟩
  rw [mem_block7]
  obtain ⟨-, -, -, -, -, -, -, -, -, -, -, -, -, -, e0, e1, -⟩ := index_maps ⟨(i 0).val / 5000, by rw [hN]; omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 32 ≤ (i 1).val ∧ (i 1).val < win0_7.index _ (1 : Fin 2) * 32 + 32
    rw [e1]; omega

theorem mem_block8 (t : Fin cfg0.N) (i : S100000x32.Idx) :
    i ∈ ((cfg0.win 8).blk t).view.set ↔ ∀ a : Fin 2, win0_8.index t a * S5000x32.size a ≤ (i a).val ∧ (i a).val < win0_8.index t a * S5000x32.size a + S5000x32.size a := by
  show i ∈ ((View.whole main_v7_2).slice (win0_8.rect t)).set ↔ _
  rw [View.set_slice_whole, Rect.mem_set_unit]
  exact Iff.rfl

theorem cover8 (i : S100000x32.Idx) :
    ∃ t : Fin cfg0.N, (cfg0.win 8).flush t = true ∧ i ∈ ((cfg0.win 8).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_8 _, ?_⟩
  rw [mem_block8]
  obtain ⟨-, -, -, -, -, -, -, -, -, -, -, -, -, -, -, -, e0, e1⟩ := index_maps ⟨(i 0).val / 5000, by rw [hN]; omega⟩
  intro a
  match a with
  | ⟨0, _⟩ =>
    show win0_8.index _ (0 : Fin 2) * 5000 ≤ (i 0).val ∧ (i 0).val < win0_8.index _ (0 : Fin 2) * 5000 + 5000
    rw [e0]; show (i 0).val / 5000 * 5000 ≤ (i 0).val ∧ (i 0).val < (i 0).val / 5000 * 5000 + 5000; omega
  | ⟨1, _⟩ =>
    show win0_8.index _ (1 : Fin 2) * 32 ≤ (i 1).val ∧ (i 1).val < win0_8.index _ (1 : Fin 2) * 32 + 32
    rw [e1]; omega

/-! ### The three arrays after the region -/

/-- The first projection: the input rows times the first weight matrix, plus its bias row. -/
theorem region0_a (c : Dev nD) :
    (dat0 (F := Ideal) V c).arrAt 6 cfg0.N = Spec.addRow1 (Spec.mm (V c main_arg0) (V c main_arg3)) (V c main_v5) :=
  (dat0 (F := Ideal) V c).arrAt_eq_of_cover 6 (Spec.addRow1 (Spec.mm (V c main_arg0) (V c main_arg3)) (V c main_v5))
    (fun t _ => flushedA V c t) cover6

/-- The second projection: the input rows times the second weight matrix. -/
theorem region0_b (c : Dev nD) :
    (dat0 (F := Ideal) V c).arrAt 7 cfg0.N = Spec.mm (V c main_arg0) (V c main_arg5) :=
  (dat0 (F := Ideal) V c).arrAt_eq_of_cover 7 (Spec.mm (V c main_arg0) (V c main_arg5))
    (fun t _ => flushedB V c t) cover7

/-- The third projection: the input rows times the third weight matrix, plus its bias row. -/
theorem region0_c (c : Dev nD) :
    (dat0 (F := Ideal) V c).arrAt 8 cfg0.N = Spec.addRow1 (Spec.mm (V c main_arg0) (V c main_arg6)) (V c main_v6) :=
  (dat0 (F := Ideal) V c).arrAt_eq_of_cover 8 (Spec.addRow1 (Spec.mm (V c main_arg0) (V c main_arg6)) (V c main_v6))
    (fun t _ => flushedC V c t) cover8

end Cert.KernelIdeal.Val

end
-- ==== Proof.KRegion1.lean ====
/-
  The second region's three output arrays as whole-array functions of the arrays the region finds.

  The region walks the 100000 rows in 20 blocks of 5000. At block t it adds rows 5000·t … 5000·t + 4999 of the
  aggregated array (32 columns) to the same rows of the carried array, applies elu entry by entry (s where s > 0,
  e^s − 1 elsewhere), multiplies the 5000 × 32 result by each of three 32 × 64 weight matrices, adds a 1 × 64 bias row to
  the first and the third product, and writes the three 5000 × 64 results back as rows 5000·t … 5000·t + 4999 of three
  100000 × 64 arrays. Entry (r, q) of a product is Σ_k elu(agg + c)(r, k) · W(k, q): the narrowing of the operands before
  the product is the identity on the extended reals, and the product accumulates into zero. The 20 blocks tile the rows
  (row r is in block r / 5000), so each array ends as elu(agg + c)·W (+ bias) everywhere.
-/
import proofs.«132559_j88553635709227_1_alg».proof.Proof.KernelIdealFrame
import proofs.«132559_j88553635709227_1_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

namespace R1

/-! ## The activation: elu of the sum of the two row blocks -/

/-- The word 0x3F800000 denotes the real number 1. -/
theorem ofBits_one_f32 : Ideal.ofBits .f32 0x3F800000#32 = 1 := by
  simp [Ideal.ofBits, Ideal.ieee]
  rw [← EReal.coe_mul, ← EReal.coe_one]
  congr 1
  norm_num

/-- Selecting s where s > 0 and e^s − 1 elsewhere is elu s. -/
theorem select_elu (s : EReal) :
    Scalar.select (FloatOps.cmpf (F := Ideal) (φ := .f32) .ogt s (0 : EReal)) s (Ideal.exp s - 1) = Cert.Spec.elu s := by
  rw [Ideal.cmpf_def]
  unfold Cert.Spec.elu
  by_cases h : (0 : EReal) < s
  · have e : Ideal.cmp .ogt s 0 = 1#1 := by simp [Ideal.cmp, h]
    rw [e, select_one, if_pos h]
  · have e : Ideal.cmp .ogt s 0 = 0#1 := by simp [Ideal.cmp, h]
    rw [e, select_zero, if_neg h]

/-- The activation block at an entry: elu of the sum of the two input blocks there. -/
theorem act_apply (v0 v2 : Vec Ideal S5000x32 .f32) (p : Fin 5000) (k : Fin 32) :
    k1_pay1 v0 v2 (ix2 p k) = Cert.Spec.elu (v0 (ix2 p k) + v2 (ix2 p k)) := by
  unfold k1_pay1
  simp only [shapeCast_self]
  show Scalar.select (FloatOps.cmpf (F := Ideal) (φ := .f32) .ogt (v0 (ix2 p k) + v2 (ix2 p k)) (Ideal.ofBits .f32 0x00000000#32))
      (v0 (ix2 p k) + v2 (ix2 p k)) (Ideal.exp (v0 (ix2 p k) + v2 (ix2 p k)) - Ideal.ofBits .f32 0x3F800000#32) = _
  rw [Ideal.ofBits_zero_f32, ofBits_one_f32]
  exact select_elu _

/-! ## The block product: a contraction over the 32 columns of the activation -/

/-- The operand indices of the block product, axis by axis: the left operand is read at (row of the output, contraction
    position), the right operand at (contraction position, column of the output); the one contraction axis has 32 positions. -/
theorem lhs_axis0 (j : S5000x64.Idx) (k : dot_S5000x32_S32x64_S5000x64_1_0_0_1_n_n.contr.Idx) :
    (dot_S5000x32_S32x64_S5000x64_1_0_0_1_n_n.lhsIdx j k (0 : Fin 2)).val = (j 0).val := by
  simp [DotDims.lhsIdx, dot_S5000x32_S32x64_S5000x64_1_0_0_1_n_n]; rfl
theorem lhs_axis1 (j : S5000x64.Idx) (k : dot_S5000x32_S32x64_S5000x64_1_0_0_1_n_n.contr.Idx) :
    (dot_S5000x32_S32x64_S5000x64_1_0_0_1_n_n.lhsIdx j k (1 : Fin 2)).val = (k ⟨0, by decide⟩).val :=
  dot_S5000x32_S32x64_S5000x64_1_0_0_1_n_n.lhsIdx_val_of_single (cl := (1 : Fin 2)) rfl j k
theorem rhs_axis0 (j : S5000x64.Idx) (k : dot_S5000x32_S32x64_S5000x64_1_0_0_1_n_n.contr.Idx) :
    (dot_S5000x32_S32x64_S5000x64_1_0_0_1_n_n.rhsIdx j k (0 : Fin 2)).val = (k ⟨0, by decide⟩).val :=
  dot_S5000x32_S32x64_S5000x64_1_0_0_1_n_n.rhsIdx_val_of_single (cr := (0 : Fin 2)) rfl j k
theorem rhs_axis1 (j : S5000x64.Idx) (k : dot_S5000x32_S32x64_S5000x64_1_0_0_1_n_n.contr.Idx) :
    (dot_S5000x32_S32x64_S5000x64_1_0_0_1_n_n.rhsIdx j k (1 : Fin 2)).val = (j 1).val := by
  simp [DotDims.rhsIdx, dot_S5000x32_S32x64_S5000x64_1_0_0_1_n_n]; rfl

/-- The product of a 5000 × 32 block and a 32 × 64 matrix into the zero splat, at entry (p, q): Σ_k A(p, k) · B(k, q). -/
theorem blockmm_apply (A : FVec Ideal S5000x32 .bf16) (B : FVec Ideal S32x64 .bf16) (p : Fin 5000) (q : Fin 64) :
    matmul dot_S5000x32_S32x64_S5000x64_1_0_0_1_n_n none A B (constant (F := Ideal) S5000x64 .f32 0x00000000#32) (ix2 p q)
      = ∑ k : Fin 32, A (ix2 p k) * B (ix2 k q) := by
  show FloatOps.matmul _ none A B _ (ix2 p q) = _
  rw [Ideal.matmul_constant_zero_apply,
    ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have l2 : dot_S5000x32_S32x64_S5000x64_1_0_0_1_n_n.lhsIdx (ix2 p q)
      ((contrEquiv1 dot_S5000x32_S32x64_S5000x64_1_0_0_1_n_n 32 rfl rfl).symm k) = ix2 p k := by
    funext ax; apply Fin.ext
    match ax with
    | ⟨0, _⟩ => exact lhs_axis0 _ _
    | ⟨1, _⟩ => exact (lhs_axis1 _ _).trans hk
  have r2 : dot_S5000x32_S32x64_S5000x64_1_0_0_1_n_n.rhsIdx (ix2 p q)
      ((contrEquiv1 dot_S5000x32_S32x64_S5000x64_1_0_0_1_n_n 32 rfl rfl).symm k) = ix2 k q := by
    funext ax; apply Fin.ext
    match ax with
    | ⟨0, _⟩ => exact (rhs_axis0 _ _).trans hk
    | ⟨1, _⟩ => exact rhs_axis1 _ _
  rw [l2, r2]

/-- The second projection's block at entry (p, q): Σ_k elu(v0 + v2)(p, k) · w(k, q). -/
theorem pay3_apply (v0 v2 : Vec Ideal S5000x32 .f32) (w : Vec Ideal S32x64 .f32) (p : Fin 5000) (q : Fin 64) :
    k1_pay3 v0 v2 w (ix2 p q) = ∑ k : Fin 32, Cert.Spec.elu (v0 (ix2 p k) + v2 (ix2 p k)) * w (ix2 k q) := by
  unfold k1_pay3
  refine (blockmm_apply _ _ p q).trans ?_
  refine Finset.sum_congr rfl fun k _ => ?_
  rw [act_apply]
  rfl

/-- A bias row broadcast down the 5000 rows reads, at (p, q), the row's entry q. -/
theorem biasrow_apply (b : Vec Ideal S1x64 .f32) (p : Fin 5000) (q : Fin 64) :
    broadcastTo S5000x64 b broadcasts_S1x64_S5000x64 (ix2 p q) = b (ix2 (0 : Fin 1) q) :=
  broadcastTo_apply b _ (ix2 p q) (ix2 (0 : Fin 1) q) (by
    intro a
    match a with
    | ⟨0, _⟩ => rfl
    | ⟨1, _⟩ => rfl)

/-- The first projection's block at entry (p, q): the product's entry plus the bias entry q. -/
theorem pay2_apply (v0 v2 : Vec Ideal S5000x32 .f32) (w : Vec Ideal S32x64 .f32) (b : Vec Ideal S1x64 .f32) (p : Fin 5000) (q : Fin 64) :
    k1_pay2 v0 v2 w b (ix2 p q)
      = (∑ k : Fin 32, Cert.Spec.elu (v0 (ix2 p k) + v2 (ix2 p k)) * w (ix2 k q)) + b (ix2 (0 : Fin 1) q) := by
  unfold k1_pay2
  simp only [shapeCast_self]
  refine (addf_apply _ _ (ix2 p q)).trans ?_
  rw [biasrow_apply]
  refine congrArg (· + b (ix2 (0 : Fin 1) q)) ?_
  refine (blockmm_apply _ _ p q).trans ?_
  refine Finset.sum_congr rfl fun k _ => ?_
  rw [act_apply]
  rfl

/-- The third projection's block at entry (p, q): the same with its own weights and bias. -/
theorem pay4_apply (v0 v2 : Vec Ideal S5000x32 .f32) (w : Vec Ideal S32x64 .f32) (b : Vec Ideal S1x64 .f32) (p : Fin 5000) (q : Fin 64) :
    k1_pay4 v0 v2 w b (ix2 p q)
      = (∑ k : Fin 32, Cert.Spec.elu (v0 (ix2 p k) + v2 (ix2 p k)) * w (ix2 k q)) + b (ix2 (0 : Fin 1) q) := by
  unfold k1_pay4
  simp only [shapeCast_self]
  refine (addf_apply _ _ (ix2 p q)).trans ?_
  rw [biasrow_apply]
  refine congrArg (· + b (ix2 (0 : Fin 1) q)) ?_
  refine (blockmm_apply _ _ p q).trans ?_
  refine Finset.sum_congr rfl fun k _ => ?_
  rw [act_apply]
  rfl

/-! ## A block's entry as the whole arrays' entry

When row y₀ of the two row blocks is row i₀ of the arrays A and C, and the weight block is W, entry y of the block
product is entry i of elu(A + C)·W (plus the bias row). -/

theorem pay3_rows (x0 x1 : Vec Ideal S5000x32 .f32) (x4 : Vec Ideal S32x64 .f32)
    (A C : Cert.Spec.Mat 100000 32) (W : Cert.Spec.Mat 32 64) (y : S5000x64.Idx) (i : S100000x64.Idx)
    (h0 : ∀ k : Fin 32, x0 (ix2 (y 0) k) = A (ix2 (i 0) k))
    (h1 : ∀ k : Fin 32, x1 (ix2 (y 0) k) = C (ix2 (i 0) k))
    (h4 : ∀ k : Fin 32, x4 (ix2 k (y 1)) = W (ix2 k (i 1))) :
    k1_pay3 x0 x1 x4 y = Cert.Spec.mm (Cert.Spec.eluM (Cert.Spec.add A C)) W i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have h0' : ∀ k : Fin 32, x0 (ix2 p k) = A (ix2 r k) := h0
  have h1' : ∀ k : Fin 32, x1 (ix2 p k) = C (ix2 r k) := h1
  have h4' : ∀ k : Fin 32, x4 (ix2 k q) = W (ix2 k q') := h4
  rw [pay3_apply]
  show _ = ∑ k : Fin 32, Cert.Spec.elu (A (ix2 r k) + C (ix2 r k)) * W (ix2 k q')
  exact Finset.sum_congr rfl fun k _ => by rw [h0', h1', h4']

theorem pay2_rows (x0 x1 : Vec Ideal S5000x32 .f32) (x2 : Vec Ideal S32x64 .f32) (x3 : Vec Ideal S1x64 .f32)
    (A C : Cert.Spec.Mat 100000 32) (W : Cert.Spec.Mat 32 64) (B : Cert.Spec.Mat 1 64) (y : S5000x64.Idx) (i : S100000x64.Idx)
    (h0 : ∀ k : Fin 32, x0 (ix2 (y 0) k) = A (ix2 (i 0) k))
    (h1 : ∀ k : Fin 32, x1 (ix2 (y 0) k) = C (ix2 (i 0) k))
    (h2 : ∀ k : Fin 32, x2 (ix2 k (y 1)) = W (ix2 k (i 1)))
    (h3 : x3 (ix2 (0 : Fin 1) (y 1)) = B (ix2 (0 : Fin 1) (i 1))) :
    k1_pay2 x0 x1 x2 x3 y = Cert.Spec.addRow1 (Cert.Spec.mm (Cert.Spec.eluM (Cert.Spec.add A C)) W) B i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have h0' : ∀ k : Fin 32, x0 (ix2 p k) = A (ix2 r k) := h0
  have h1' : ∀ k : Fin 32, x1 (ix2 p k) = C (ix2 r k) := h1
  have h2' : ∀ k : Fin 32, x2 (ix2 k q) = W (ix2 k q') := h2
  have h3' : x3 (ix2 (0 : Fin 1) q) = B (ix2 (0 : Fin 1) q') := h3
  rw [pay2_apply, h3']
  show _ = (∑ k : Fin 32, Cert.Spec.elu (A (ix2 r k) + C (ix2 r k)) * W (ix2 k q')) + B (ix2 (0 : Fin 1) q')
  exact congrArg (· + B (ix2 (0 : Fin 1) q')) (Finset.sum_congr rfl fun k _ => by rw [h0', h1', h2'])

theorem pay4_rows (x0 x1 : Vec Ideal S5000x32 .f32) (x5 : Vec Ideal S32x64 .f32) (x6 : Vec Ideal S1x64 .f32)
    (A C : Cert.Spec.Mat 100000 32) (W : Cert.Spec.Mat 32 64) (B : Cert.Spec.Mat 1 64) (y : S5000x64.Idx) (i : S100000x64.Idx)
    (h0 : ∀ k : Fin 32, x0 (ix2 (y 0) k) = A (ix2 (i 0) k))
    (h1 : ∀ k : Fin 32, x1 (ix2 (y 0) k) = C (ix2 (i 0) k))
    (h2 : ∀ k : Fin 32, x5 (ix2 k (y 1)) = W (ix2 k (i 1)))
    (h3 : x6 (ix2 (0 : Fin 1) (y 1)) = B (ix2 (0 : Fin 1) (i 1))) :
    k1_pay4 x0 x1 x5 x6 y = Cert.Spec.addRow1 (Cert.Spec.mm (Cert.Spec.eluM (Cert.Spec.add A C)) W) B i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have h0' : ∀ k : Fin 32, x0 (ix2 p k) = A (ix2 r k) := h0
  have h1' : ∀ k : Fin 32, x1 (ix2 p k) = C (ix2 r k) := h1
  have h2' : ∀ k : Fin 32, x5 (ix2 k q) = W (ix2 k q') := h2
  have h3' : x6 (ix2 (0 : Fin 1) q) = B (ix2 (0 : Fin 1) q') := h3
  rw [pay4_apply, h3']
  show _ = (∑ k : Fin 32, Cert.Spec.elu (A (ix2 r k) + C (ix2 r k)) * W (ix2 k q')) + B (ix2 (0 : Fin 1) q')
  exact congrArg (· + B (ix2 (0 : Fin 1) q')) (Finset.sum_congr rfl fun k _ => by rw [h0', h1', h2'])

/-! ## From the 20 row blocks to the whole arrays -/

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them. -/
abbrev aggA (c : Dev nD) : Cert.Spec.Mat 100000 32 := V c main_v28
abbrev cA (c : Dev nD) : Cert.Spec.Mat 100000 32 := V c main_v7_2
abbrev wA (c : Dev nD) : Cert.Spec.Mat 32 64 := V c main_arg8
abbrev bA (c : Dev nD) : Cert.Spec.Mat 1 64 := V c main_v29
abbrev wB (c : Dev nD) : Cert.Spec.Mat 32 64 := V c main_arg10
abbrev wC (c : Dev nD) : Cert.Spec.Mat 32 64 := V c main_arg11
abbrev bC (c : Dev nD) : Cert.Spec.Mat 1 64 := V c main_v30

/-- The index maps over the 20 grid points: a row window's block index is (t, 0); a weight or bias window's is (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- What point t writes back to the second output is block t of elu(agg + c)·Wb. -/
theorem flushed8_eq (c : Dev nD) (t : Fin cfg1.N) :
    (dat1 (F := Ideal) V c).flushed 8 t = ((cfg1.win 8).blk t).view.read (Elt Ideal)
      (Cert.Spec.mm (Cert.Spec.eluM (Cert.Spec.add (aggA V c) (cA V c))) (wB V c)) := by
  show (cfg1.win 8).cut (grid1.coords t) ((dat1 V c).after 8 t) = _
  rw [after1_8]
  unfold out1_8
  rw [View.canon_unit_zero hz]
  simp only [View.ld_unit_zero (S := S5000x32) hz, View.ld_unit_zero (S := S32x64) hz]
  obtain ⟨e00, e01, e10, e11, e20, e21, e30, e31, e40, e41, e50, e51, e60, e61, e70, e71, e80, e81, e90, e91⟩ := idx_facts1 t
  funext j
  show k1_pay3 (iblk1 V c 0 t) (iblk1 V c 1 t) (iblk1 V c 4 t) j
    = Cert.Spec.mm (Cert.Spec.eluM (Cert.Spec.add (aggA V c) (cA V c))) (wB V c) (((cfg1.win 8).blk t).view.emb j)
  refine pay3_rows (iblk1 V c 0 t) (iblk1 V c 1 t) (iblk1 V c 4 t) (aggA V c) (cA V c) (wB V c) j
    (((cfg1.win 8).blk t).view.emb j) (fun k => ?_) (fun k => ?_) (fun k => ?_)
  · show aggA V c (((cfg1.win 0).blk t).view.emb (ix2 (j 0) k)) = aggA V c (ix2 ((((cfg1.win 8).blk t).view.emb j) 0) k)
    refine congrArg (aggA V c) (funext fun a => Fin.ext ?_)
    match a with
    | ⟨0, _⟩ => show win1_0.index t (0 : Fin 2) * 5000 + 1 * (j 0).val = win1_8.index t (0 : Fin 2) * 5000 + 1 * (j 0).val; rw [e00, e80]
    | ⟨1, _⟩ => show win1_0.index t (1 : Fin 2) * 32 + 1 * k.val = k.val; rw [e01]; omega
  · show cA V c (((cfg1.win 1).blk t).view.emb (ix2 (j 0) k)) = cA V c (ix2 ((((cfg1.win 8).blk t).view.emb j) 0) k)
    refine congrArg (cA V c) (funext fun a => Fin.ext ?_)
    match a with
    | ⟨0, _⟩ => show win1_1.index t (0 : Fin 2) * 5000 + 1 * (j 0).val = win1_8.index t (0 : Fin 2) * 5000 + 1 * (j 0).val; rw [e10, e80]
    | ⟨1, _⟩ => show win1_1.index t (1 : Fin 2) * 32 + 1 * k.val = k.val; rw [e11]; omega
  · show wB V c (((cfg1.win 4).blk t).view.emb (ix2 k (j 1))) = wB V c (ix2 k ((((cfg1.win 8).blk t).view.emb j) 1))
    refine congrArg (wB V c) (funext fun a => Fin.ext ?_)
    match a with
    | ⟨0, _⟩ => show win1_4.index t (0 : Fin 2) * 32 + 1 * k.val = k.val; rw [e40]; omega
    | ⟨1, _⟩ => show win1_4.index t (1 : Fin 2) * 64 + 1 * (j 1).val = win1_8.index t (1 : Fin 2) * 64 + 1 * (j 1).val; rw [e41, e81]

/-- What point t writes back to the first output is block t of elu(agg + c)·W plus the bias row. -/
theorem flushed7_eq (c : Dev nD) (t : Fin cfg1.N) :
    (dat1 (F := Ideal) V c).flushed 7 t = ((cfg1.win 7).blk t).view.read (Elt Ideal)
      (Cert.Spec.addRow1 (Cert.Spec.mm (Cert.Spec.eluM (Cert.Spec.add (aggA V c) (cA V c))) (wA V c)) (bA V c)) := by
  show (cfg1.win 7).cut (grid1.coords t) ((dat1 V c).after 7 t) = _
  rw [after1_7]
  unfold out1_7
  rw [View.canon_unit_zero hz]
  simp only [View.ld_unit_zero (S := S5000x32) hz, View.ld_unit_zero (S := S32x64) hz, View.ld_unit_zero (S := S1x64) hz]
  obtain ⟨e00, e01, e10, e11, e20, e21, e30, e31, e40, e41, e50, e51, e60, e61, e70, e71, e80, e81, e90, e91⟩ := idx_facts1 t
  funext j
  show k1_pay2 (iblk1 V c 0 t) (iblk1 V c 1 t) (iblk1 V c 2 t) (iblk1 V c 3 t) j
    = Cert.Spec.addRow1 (Cert.Spec.mm (Cert.Spec.eluM (Cert.Spec.add (aggA V c) (cA V c))) (wA V c)) (bA V c)
        (((cfg1.win 7).blk t).view.emb j)
  refine pay2_rows (iblk1 V c 0 t) (iblk1 V c 1 t) (iblk1 V c 2 t) (iblk1 V c 3 t) (aggA V c) (cA V c) (wA V c) (bA V c) j
    (((cfg1.win 7).blk t).view.emb j) (fun k => ?_) (fun k => ?_) (fun k => ?_) ?_
  · show aggA V c (((cfg1.win 0).blk t).view.emb (ix2 (j 0) k)) = aggA V c (ix2 ((((cfg1.win 7).blk t).view.emb j) 0) k)
    refine congrArg (aggA V c) (funext fun a => Fin.ext ?_)
    match a with
    | ⟨0, _⟩ => show win1_0.index t (0 : Fin 2) * 5000 + 1 * (j 0).val = win1_7.index t (0 : Fin 2) * 5000 + 1 * (j 0).val; rw [e00, e70]
    | ⟨1, _⟩ => show win1_0.index t (1 : Fin 2) * 32 + 1 * k.val = k.val; rw [e01]; omega
  · show cA V c (((cfg1.win 1).blk t).view.emb (ix2 (j 0) k)) = cA V c (ix2 ((((cfg1.win 7).blk t).view.emb j) 0) k)
    refine congrArg (cA V c) (funext fun a => Fin.ext ?_)
    match a with
    | ⟨0, _⟩ => show win1_1.index t (0 : Fin 2) * 5000 + 1 * (j 0).val = win1_7.index t (0 : Fin 2) * 5000 + 1 * (j 0).val; rw [e10, e70]
    | ⟨1, _⟩ => show win1_1.index t (1 : Fin 2) * 32 + 1 * k.val = k.val; rw [e11]; omega
  · show wA V c (((cfg1.win 2).blk t).view.emb (ix2 k (j 1))) = wA V c (ix2 k ((((cfg1.win 7).blk t).view.emb j) 1))
    refine congrArg (wA V c) (funext fun a => Fin.ext ?_)
    match a with
    | ⟨0, _⟩ => show win1_2.index t (0 : Fin 2) * 32 + 1 * k.val = k.val; rw [e20]; omega
    | ⟨1, _⟩ => show win1_2.index t (1 : Fin 2) * 64 + 1 * (j 1).val = win1_7.index t (1 : Fin 2) * 64 + 1 * (j 1).val; rw [e21, e71]
  · show bA V c (((cfg1.win 3).blk t).view.emb (ix2 (0 : Fin 1) (j 1))) = bA V c (ix2 (0 : Fin 1) ((((cfg1.win 7).blk t).view.emb j) 1))
    refine congrArg (bA V c) (funext fun a => Fin.ext ?_)
    match a with
    | ⟨0, _⟩ => show win1_3.index t (0 : Fin 2) * 1 + 1 * 0 = 0; rw [e30]
    | ⟨1, _⟩ => show win1_3.index t (1 : Fin 2) * 64 + 1 * (j 1).val = win1_7.index t (1 : Fin 2) * 64 + 1 * (j 1).val; rw [e31, e71]

/-- What point t writes back to the third output is block t of elu(agg + c)·W plus the bias row. -/
theorem flushed9_eq (c : Dev nD) (t : Fin cfg1.N) :
    (dat1 (F := Ideal) V c).flushed 9 t = ((cfg1.win 9).blk t).view.read (Elt Ideal)
      (Cert.Spec.addRow1 (Cert.Spec.mm (Cert.Spec.eluM (Cert.Spec.add (aggA V c) (cA V c))) (wC V c)) (bC V c)) := by
  show (cfg1.win 9).cut (grid1.coords t) ((dat1 V c).after 9 t) = _
  rw [after1_9]
  unfold out1_9
  rw [View.canon_unit_zero hz]
  simp only [View.ld_unit_zero (S := S5000x32) hz, View.ld_unit_zero (S := S32x64) hz, View.ld_unit_zero (S := S1x64) hz]
  obtain ⟨e00, e01, e10, e11, e20, e21, e30, e31, e40, e41, e50, e51, e60, e61, e70, e71, e80, e81, e90, e91⟩ := idx_facts1 t
  funext j
  show k1_pay4 (iblk1 V c 0 t) (iblk1 V c 1 t) (iblk1 V c 5 t) (iblk1 V c 6 t) j
    = Cert.Spec.addRow1 (Cert.Spec.mm (Cert.Spec.eluM (Cert.Spec.add (aggA V c) (cA V c))) (wC V c)) (bC V c)
        (((cfg1.win 9).blk t).view.emb j)
  refine pay4_rows (iblk1 V c 0 t) (iblk1 V c 1 t) (iblk1 V c 5 t) (iblk1 V c 6 t) (aggA V c) (cA V c) (wC V c) (bC V c) j
    (((cfg1.win 9).blk t).view.emb j) (fun k => ?_) (fun k => ?_) (fun k => ?_) ?_
  · show aggA V c (((cfg1.win 0).blk t).view.emb (ix2 (j 0) k)) = aggA V c (ix2 ((((cfg1.win 9).blk t).view.emb j) 0) k)
    refine congrArg (aggA V c) (funext fun a => Fin.ext ?_)
    match a with
    | ⟨0, _⟩ => show win1_0.index t (0 : Fin 2) * 5000 + 1 * (j 0).val = win1_9.index t (0 : Fin 2) * 5000 + 1 * (j 0).val; rw [e00, e90]
    | ⟨1, _⟩ => show win1_0.index t (1 : Fin 2) * 32 + 1 * k.val = k.val; rw [e01]; omega
  · show cA V c (((cfg1.win 1).blk t).view.emb (ix2 (j 0) k)) = cA V c (ix2 ((((cfg1.win 9).blk t).view.emb j) 0) k)
    refine congrArg (cA V c) (funext fun a => Fin.ext ?_)
    match a with
    | ⟨0, _⟩ => show win1_1.index t (0 : Fin 2) * 5000 + 1 * (j 0).val = win1_9.index t (0 : Fin 2) * 5000 + 1 * (j 0).val; rw [e10, e90]
    | ⟨1, _⟩ => show win1_1.index t (1 : Fin 2) * 32 + 1 * k.val = k.val; rw [e11]; omega
  · show wC V c (((cfg1.win 5).blk t).view.emb (ix2 k (j 1))) = wC V c (ix2 k ((((cfg1.win 9).blk t).view.emb j) 1))
    refine congrArg (wC V c) (funext fun a => Fin.ext ?_)
    match a with
    | ⟨0, _⟩ => show win1_5.index t (0 : Fin 2) * 32 + 1 * k.val = k.val; rw [e50]; omega
    | ⟨1, _⟩ => show win1_5.index t (1 : Fin 2) * 64 + 1 * (j 1).val = win1_9.index t (1 : Fin 2) * 64 + 1 * (j 1).val; rw [e51, e91]
  · show bC V c (((cfg1.win 6).blk t).view.emb (ix2 (0 : Fin 1) (j 1))) = bC V c (ix2 (0 : Fin 1) ((((cfg1.win 9).blk t).view.emb j) 1))
    refine congrArg (bC V c) (funext fun a => Fin.ext ?_)
    match a with
    | ⟨0, _⟩ => show win1_6.index t (0 : Fin 2) * 1 + 1 * 0 = 0; rw [e60]
    | ⟨1, _⟩ => show win1_6.index t (1 : Fin 2) * 64 + 1 * (j 1).val = win1_9.index t (1 : Fin 2) * 64 + 1 * (j 1).val; rw [e61, e91]

/-! ### The blocks tile the rows

An index of an output array is in point t's block iff each coordinate is in the block's range on its axis; row r lies in
the block of point r / 5000. -/

theorem mem_block7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v31_0).slice (win1_7.rect t)).set ↔ _
  rw [View.set_slice_whole, Rect.mem_set_unit]
  exact Iff.rfl

theorem cover7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_7 _, ?_⟩
  rw [mem_block7]
  obtain ⟨e00, e01, e10, e11, e20, e21, e30, e31, e40, e41, e50, e51, e60, e61, e70, e71, e80, e81, e90, e91⟩ := idx_facts1 ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e70]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e71]; omega

theorem mem_block8 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v31_1).slice (win1_8.rect t)).set ↔ _
  rw [View.set_slice_whole, Rect.mem_set_unit]
  exact Iff.rfl

theorem cover8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_8 _, ?_⟩
  rw [mem_block8]
  obtain ⟨e00, e01, e10, e11, e20, e21, e30, e31, e40, e41, e50, e51, e60, e61, e70, e71, e80, e81, e90, e91⟩ := idx_facts1 ⟨(i 0).val / 5000, by rw [hN]; omega⟩
  intro a
  match a with
  | ⟨0, _⟩ =>
    show win1_8.index _ (0 : Fin 2) * 5000 ≤ (i 0).val ∧ (i 0).val < win1_8.index _ (0 : Fin 2) * 5000 + 5000
    rw [e80]; show (i 0).val / 5000 * 5000 ≤ (i 0).val ∧ (i 0).val < (i 0).val / 5000 * 5000 + 5000; omega
  | ⟨1, _⟩ =>
    show win1_8.index _ (1 : Fin 2) * 64 ≤ (i 1).val ∧ (i 1).val < win1_8.index _ (1 : Fin 2) * 64 + 64
    rw [e81]; omega

theorem mem_block9 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v31_2).slice (win1_9.rect t)).set ↔ _
  rw [View.set_slice_whole, Rect.mem_set_unit]
  exact Iff.rfl

theorem cover9 (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_9 _, ?_⟩
  rw [mem_block9]
  obtain ⟨e00, e01, e10, e11, e20, e21, e30, e31, e40, e41, e50, e51, e60, e61, e70, e71, e80, e81, e90, e91⟩ := idx_facts1 ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [e90]; show (i 0).val / 5000 * 5000 ≤ (i 0).val ∧ (i 0).val < (i 0).val / 5000 * 5000 + 5000; omega
  | ⟨1, _⟩ =>
    show win1_9.index _ (1 : Fin 2) * 64 ≤ (i 1).val ∧ (i 1).val < win1_9.index _ (1 : Fin 2) * 64 + 64
    rw [e91]; omega

end R1

variable (V : (c : Dev nD) → (b : Ref sig .tc) → Buf (Elt Ideal) ((c : Thread nD τ).loc b))

/-! ### The three arrays after the region -/

/-- The first projection of the activation: elu(agg + c)·Wa plus its bias row. -/
theorem region1_a (c : Dev nD) :
    (dat1 (F := Ideal) V c).arrAt 7 cfg1.N
      = Spec.addRow1 (Spec.mm (Spec.eluM (Spec.add (V c main_v28) (V c main_v7_2))) (V c main_arg8)) (V c main_v29) :=
  (dat1 (F := Ideal) V c).arrAt_eq_of_cover 7
    (Spec.addRow1 (Spec.mm (Spec.eluM (Spec.add (V c main_v28) (V c main_v7_2))) (V c main_arg8)) (V c main_v29))
    (fun t _ => R1.flushed7_eq V c t) R1.cover7

/-- The second projection of the activation: elu(agg + c)·Wb. -/
theorem region1_b (c : Dev nD) :
    (dat1 (F := Ideal) V c).arrAt 8 cfg1.N
      = Spec.mm (Spec.eluM (Spec.add (V c main_v28) (V c main_v7_2))) (V c main_arg10) :=
  (dat1 (F := Ideal) V c).arrAt_eq_of_cover 8
    (Spec.mm (Spec.eluM (Spec.add (V c main_v28) (V c main_v7_2))) (V c main_arg10))
    (fun t _ => R1.flushed8_eq V c t) R1.cover8

/-- The third projection of the activation: elu(agg + c)·Wc plus its bias row. -/
theorem region1_c (c : Dev nD) :
    (dat1 (F := Ideal) V c).arrAt 9 cfg1.N
      = Spec.addRow1 (Spec.mm (Spec.eluM (Spec.add (V c main_v28) (V c main_v7_2))) (V c main_arg11)) (V c main_v30) :=
  (dat1 (F := Ideal) V c).arrAt_eq_of_cover 9
    (Spec.addRow1 (Spec.mm (Spec.eluM (Spec.add (V c main_v28) (V c main_v7_2))) (V c main_arg11)) (V c main_v30))
    (fun t _ => R1.flushed9_eq V c t) R1.cover9

end Cert.KernelIdeal.Val

end
-- ==== Proof.KRegion2.lean ====
/-
  The last region's output array as a whole-array function of the arrays the region finds.

  The region walks the 100000 rows in 20 blocks of 5000. At block t it adds rows 5000·t … 5000·t + 4999 of the two
  64-column summands, applies elu entry by entry, multiplies by the 64 × 128 weights and adds the 1 × 128 bias row,
  applies elu again, multiplies by the 128 × 10 weights and adds the 1 × 10 bias row: the logits y. For each row it takes
  the maximum m over the 10 columns (from −∞) and the sum Σ exp (y − m), and writes y − (m + log Σ exp (y − m)) back as
  rows 5000·t … 5000·t + 4999 of the 100000 × 10 output. The narrowing of the operands before each product is the
  identity on the extended reals and each product accumulates into zero, so entry (r, q) of a product is
  Σ_k X(r, k) · W(k, q). Every entry of an output row depends on that row of the two summands only, and the 20 blocks
  tile the rows (row r is in block r / 5000), so the array ends as the log-softmax of the logits everywhere.
-/
import proofs.«132559_j88553635709227_1_alg».proof.Proof.KernelIdealFrame
import proofs.«132559_j88553635709227_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

namespace R2

/-! ## Scalars: the three float words of the body, and elu -/

/-- The word 0x3F800000 is the real number one. -/
theorem one_f32 : Ideal.ofBits .f32 0x3F800000#32 = 1 := by
  simp [Ideal.ofBits, Ideal.ieee]
  rw [← EReal.coe_mul, ← EReal.coe_one]
  exact congrArg _ (by norm_num)

/-- The word 0xFF800000 is minus infinity. -/
theorem neginf_f32 : Ideal.ofBits .f32 0xFF800000#32 = ⊥ := by
  simp [Ideal.ofBits, Ideal.ieee]

/-- Choosing s where s > 0 and exp s − 1 elsewhere is elu s. -/
theorem select_elu (s : EReal) :
    Scalar.select (Ideal.cmp .ogt s 0) s (Ideal.exp s - 1) = Cert.Spec.elu s := by
  unfold Cert.Spec.elu Ideal.cmp Scalar.select
  by_cases h : (0 : EReal) < s <;> simp [h]

/-! ## Two column layouts -/

/-- A length-a vector cast to an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A rows-by-columns product into zero, read at an entry -/

section Product
variable {M K N : Nat} {φ₁ φ₂ : FTy}

/-- The left operand's row coordinate is the output's row. -/
theorem lhs_axis0 (d : DotDims ⟨2, ![M, K]⟩ ⟨2, ![K, N]⟩ ⟨2, ![M, N]⟩) (hlb : d.lhsBatch = [])
    (hln : d.lhsNonContracting = [(0 : Fin 2)]) (j : (⟨2, ![M, N]⟩ : Shape).Idx) (k : d.contr.Idx) :
    (d.lhsIdx j k (0 : Fin 2)).val = (j (0 : Fin 2)).val := by
  unfold DotDims.lhsIdx
  rw [dif_neg (by rw [hlb]; simp), dif_pos (by rw [hln]; simp)]
  simp only [Fin.val_cast]
  have key : ∀ (p q : Nat) (hp : p < (⟨2, ![M, N]⟩ : Shape).rank) (hq : q < (⟨2, ![M, N]⟩ : Shape).rank),
      p = q → (j ⟨p, hp⟩).val = (j ⟨q, hq⟩).val := fun p q hp hq h => by subst h; rfl
  exact key _ _ _ _ (by simp [hlb, hln])

/-- The left operand's column coordinate is the contraction position. -/
theorem lhs_axis1 (d : DotDims ⟨2, ![M, K]⟩ ⟨2, ![K, N]⟩ ⟨2, ![M, N]⟩)
    (hlc : d.lhsContracting = [(1 : Fin 2)]) (hr : d.contr.rank = 1) (j : (⟨2, ![M, N]⟩ : Shape).Idx) (k : d.contr.Idx) :
    (d.lhsIdx j k (1 : Fin 2)).val = (k ⟨0, by omega⟩).val :=
  d.lhsIdx_val_of_single hlc j k

/-- The right operand's row coordinate is the contraction position. -/
theorem rhs_axis0 (d : DotDims ⟨2, ![M, K]⟩ ⟨2, ![K, N]⟩ ⟨2, ![M, N]⟩)
    (hrc : d.rhsContracting = [(0 : Fin 2)]) (hr : d.contr.rank = 1) (j : (⟨2, ![M, N]⟩ : Shape).Idx) (k : d.contr.Idx) :
    (d.rhsIdx j k (0 : Fin 2)).val = (k ⟨0, by omega⟩).val :=
  d.rhsIdx_val_of_single hrc j k

/-- The right operand's column coordinate is the output's column. -/
theorem rhs_axis1 (d : DotDims ⟨2, ![M, K]⟩ ⟨2, ![K, N]⟩ ⟨2, ![M, N]⟩) (hlb : d.lhsBatch = [])
    (hln : d.lhsNonContracting = [(0 : Fin 2)]) (hrb : d.rhsBatch = []) (hrn : d.rhsNonContracting = [(1 : Fin 2)])
    (j : (⟨2, ![M, N]⟩ : Shape).Idx) (k : d.contr.Idx) :
    (d.rhsIdx j k (1 : Fin 2)).val = (j (1 : Fin 2)).val := by
  unfold DotDims.rhsIdx
  rw [dif_neg (by rw [hrb]; simp), dif_pos (by rw [hrn]; simp)]
  simp only [Fin.val_cast]
  have key : ∀ (p q : Nat) (hp : p < (⟨2, ![M, N]⟩ : Shape).rank) (hq : q < (⟨2, ![M, N]⟩ : Shape).rank),
      p = q → (j ⟨p, hp⟩).val = (j ⟨q, hq⟩).val := fun p q hp hq h => by subst h; rfl
  exact key _ _ _ _ (by simp [hlb, hln, hrn])

/-- A product of an M × K by a K × N matrix accumulated into the zero splat is, at (p, q), Σ_k A(p, k) · B(k, q). -/
theorem matmul_zero_ix2 (d : DotDims ⟨2, ![M, K]⟩ ⟨2, ![K, N]⟩ ⟨2, ![M, N]⟩)
    (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    (hr : d.contr.rank = 1) (hs : d.contr.size ⟨0, by omega⟩ = K)
    (A : FVec Ideal ⟨2, ![M, K]⟩ φ₁) (B : FVec Ideal ⟨2, ![K, N]⟩ φ₂) (p : Fin M) (q : Fin N) :
    matmul d none A B (constant (F := Ideal) ⟨2, ![M, N]⟩ .f32 0x00000000#32) (ix2 p q)
      = ∑ k : Fin K, A (ix2 p k) * B (ix2 k q) := by
  show FloatOps.matmul d none A B _ (ix2 p q) = _
  rw [Ideal.matmul_constant_zero_apply, ← Equiv.sum_comp (contrEquiv1 d K hr hs).symm]
  refine Finset.sum_congr rfl fun c _ => ?_
  have c2 := contrEquiv1_symm_val d K hr hs c
  have l2 : d.lhsIdx (ix2 p q) ((contrEquiv1 d K hr hs).symm c) = ix2 p c := by
    funext ax; apply Fin.ext
    match ax with
    | ⟨0, _⟩ => exact lhs_axis0 d hlb hln _ _
    | ⟨1, _⟩ => exact (lhs_axis1 d hlc hr _ _).trans c2
  have r2 : d.rhsIdx (ix2 p q) ((contrEquiv1 d K hr hs).symm c) = ix2 c q := by
    funext ax; apply Fin.ext
    match ax with
    | ⟨0, _⟩ => exact (rhs_axis0 d hrc hr _ _).trans c2
    | ⟨1, _⟩ => exact rhs_axis1 d hlb hln hrb hrn _ _
  rw [l2, r2]

end Product

/-! ## The body's values on one block

x0, x1 are the block's 5000 rows of the two summands; w1, b1, w2, b2 the two dense layers' weights and bias rows. -/

theorem hz : (![0, 0] : Fin 2 → Nat) = fun _ => 0 := funext fun a => by fin_cases a <;> rfl

/-- The elementwise choice "v where v > 0, exp v − 1 elsewhere" over a whole vector is elu entry by entry. -/
theorem select_elu_vec {s : Shape} (v : FVec Ideal s .f32) :
    select (cmpf .ogt v (broadcast s (Scalar.ofBits .f32 0x00000000#32 : Ideal .f32))) v
        (subf (exp v) (broadcast s (Scalar.ofBits .f32 0x3F800000#32 : Ideal .f32)))
      = fun i => Cert.Spec.elu (v i) := by
  funext i
  show Scalar.select (Ideal.cmp .ogt (v i) (Ideal.ofBits .f32 0x00000000#32)) (v i)
      (Ideal.exp (v i) - Ideal.ofBits .f32 0x3F800000#32) = _
  rw [Ideal.ofBits_zero_f32, one_f32]
  exact select_elu (v i)

/-- The first dense layer: the product into zero plus the bias row is X·W + b. -/
theorem dense1_eq (h : FVec Ideal S5000x64 .f32) (w : Vec Ideal S64x128 .f32) (b : Vec Ideal S1x128 .f32) :
    addf (matmul dot_S5000x64_S64x128_S5000x128_1_0_0_1_n_n none (truncf .bf16 h bitsLt_bf16_f32) (truncf .bf16 w bitsLt_bf16_f32)
          (constant (F := Ideal) S5000x128 .f32 0x00000000#32))
        (broadcastTo S5000x128 (shapeCast S1x128 b shapeCasts_S1x128_S1x128) broadcasts_S1x128_S5000x128)
      = Cert.Spec.addRow1 (N := 5000) (C := 128) (Cert.Spec.mm (N := 5000) (K := 64) (C := 128) h w) b := by
  funext i
  obtain ⟨p, q, rfl⟩ : ∃ (p : Fin 5000) (q : Fin 128), i = ix2 p q := ⟨i 0, i 1, eq_ix2 i⟩
  show matmul dot_S5000x64_S64x128_S5000x128_1_0_0_1_n_n none _ _ _ (ix2 p q) + broadcastTo S5000x128 _ _ (ix2 p q) = _
  rw [matmul_zero_ix2 dot_S5000x64_S64x128_S5000x128_1_0_0_1_n_n rfl rfl rfl rfl rfl rfl rfl rfl, shapeCast_self,
    broadcastTo_1b_ab_apply]
  rfl

/-- The second dense layer likewise. -/
theorem dense2_eq (h : FVec Ideal S5000x128 .f32) (w : Vec Ideal S128x10 .f32) (b : Vec Ideal S1x10 .f32) :
    addf (matmul dot_S5000x128_S128x10_S5000x10_1_0_0_1_n_n none (truncf .bf16 h bitsLt_bf16_f32) (truncf .bf16 w bitsLt_bf16_f32)
          (constant (F := Ideal) S5000x10 .f32 0x00000000#32))
        (broadcastTo S5000x10 (shapeCast S1x10 b shapeCasts_S1x10_S1x10) broadcasts_S1x10_S5000x10)
      = Cert.Spec.addRow1 (N := 5000) (C := 10) (Cert.Spec.mm (N := 5000) (K := 128) (C := 10) h w) b := by
  funext i
  obtain ⟨p, q, rfl⟩ : ∃ (p : Fin 5000) (q : Fin 10), i = ix2 p q := ⟨i 0, i 1, eq_ix2 i⟩
  show matmul dot_S5000x128_S128x10_S5000x10_1_0_0_1_n_n none _ _ _ (ix2 p q) + broadcastTo S5000x10 _ _ (ix2 p q) = _
  rw [matmul_zero_ix2 dot_S5000x128_S128x10_S5000x10_1_0_0_1_n_n rfl rfl rfl rfl rfl rfl rfl rfl, shapeCast_self,
    broadcastTo_1b_ab_apply]
  rfl

section Block
variable (x0 x1 : Vec Ideal S5000x64 .f32) (w1 : Vec Ideal S64x128 .f32) (b1 : Vec Ideal S1x128 .f32)
  (w2 : Vec Ideal S128x10 .f32) (b2 : Vec Ideal S1x10 .f32)

/-- The logits of the block's 5000 rows: elu (x0 + x1) through the two dense layers, elu between them. -/
abbrev blockLogits : Cert.Spec.Mat 5000 10 :=
  Cert.Spec.addRow1 (Cert.Spec.mm (Cert.Spec.eluM (Cert.Spec.addRow1 (Cert.Spec.mm (Cert.Spec.eluM
    (Cert.Spec.add (N := 5000) (C := 64) x0 x1)) w1) b1)) w2) b2

/-- The body's logits value is the block's logits. -/
theorem pay2_eq : k2_pay2 (F := Ideal) x0 x1 w1 b1 w2 b2 = blockLogits x0 x1 w1 b1 w2 b2 := by
  unfold k2_pay2
  dsimp only
  rw [shapeCast_self, shapeCast_self, select_elu_vec, dense1_eq, select_elu_vec, dense2_eq]
  rfl

/-- The index of a [5000,10] block over row p with column k inserted is (p, k). -/
theorem lift_row (p : Fin 5000) (k : Fin 10) :
    reduces_S5000x10_S5000.lift (ix1 p) k = (ix2 p k : S5000x10.Idx) := by
  funext a; apply Fin.ext
  match a with
  | ⟨0, _⟩ => rfl
  | ⟨1, _⟩ => rfl

/-- The maximum over the columns from the word of minus infinity is the row's maximum. -/
theorem rowMax_read (Y : FVec Ideal S5000x10 .f32) (p : Fin 5000) :
    multiReduction (F := Ideal) .maximumf [1] S5000 Y 0xFF800000#32 reduces_S5000x10_S5000 (.inl rfl) rfl (ix1 p)
      = Cert.Spec.rowMax (N := 5000) (C := 10) Y p := by
  refine (Ideal.multiReduction_maximumf_single Y _ reduces_S5000x10_S5000 (.inl rfl) rfl (ix1 p)).trans ?_
  show (Finset.univ : Finset (Fin 10)).fold max (Ideal.ofBits .f32 0xFF800000#32)
      (fun k => Y (reduces_S5000x10_S5000.lift (ix1 p) k)) = _
  rw [neginf_f32]
  unfold Cert.Spec.rowMax
  exact congrArg (fun f => Finset.fold max ⊥ f Finset.univ) (funext fun k => congrArg Y (lift_row p k))

/-- The body's row-maximum value, a 5000 × 1 column, holds at (p, ·) the maximum of row p of the block's logits. -/
theorem pay3_apply (p : Fin 5000) (u : Fin 1) :
    k2_pay3 (F := Ideal) x0 x1 w1 b1 w2 b2 (ix2 p u) = Cert.Spec.rowMax (blockLogits x0 x1 w1 b1 w2 b2) p := by
  unfold k2_pay3
  dsimp only
  refine (shapeCast_a_a1_apply _ _ p u).trans ?_
  rw [pay2_eq]
  exact rowMax_read _ p

/-- The body's row-sum value holds at p the sum over row p of exp (logit − the row's maximum). -/
theorem pay4_apply (p : Fin 5000) :
    k2_pay4 (F := Ideal) x0 x1 w1 b1 w2 b2 (ix1 p) = Cert.Spec.rowSumExp (blockLogits x0 x1 w1 b1 w2 b2) p := by
  unfold k2_pay4
  dsimp only
  refine (Ideal.multiReduction_add_single _ _ reduces_S5000x10_S5000 (.inl rfl) rfl (ix1 p)).trans ?_
  show ∑ k : Fin 10, _ = ∑ k : Fin 10, _
  refine Finset.sum_congr rfl fun k _ => ?_
  rw [lift_row p k]
  show Ideal.exp (k2_pay2 (F := Ideal) x0 x1 w1 b1 w2 b2 (ix2 p k)
      - broadcastTo S5000x10 (k2_pay3 (F := Ideal) x0 x1 w1 b1 w2 b2) broadcasts_S5000x1_S5000x10 (ix2 p k)) = _
  rw [broadcastTo_a1_ab_apply, pay3_apply, pay2_eq]

/-- The stored value: logits − (row maximum + log of the row sum), which is log-softmax of the block's logits. -/
theorem pay1_eq :
    k2_pay1 (F := Ideal) (k2_pay2 x0 x1 w1 b1 w2 b2) (k2_pay3 x0 x1 w1 b1 w2 b2) (k2_pay4 x0 x1 w1 b1 w2 b2)
      = Cert.Spec.lsmK (blockLogits x0 x1 w1 b1 w2 b2) := by
  funext i
  obtain ⟨p, q, rfl⟩ : ∃ (p : Fin 5000) (q : Fin 10), i = ix2 p q := ⟨i 0, i 1, eq_ix2 i⟩
  unfold k2_pay1
  show k2_pay2 (F := Ideal) x0 x1 w1 b1 w2 b2 (ix2 p q)
      - broadcastTo S5000x10 (addf (k2_pay3 (F := Ideal) x0 x1 w1 b1 w2 b2)
          (log (shapeCast S5000x1 (k2_pay4 (F := Ideal) x0 x1 w1 b1 w2 b2) shapeCasts_S5000_S5000x1)))
          broadcasts_S5000x1_S5000x10 (ix2 p q) = _
  rw [broadcastTo_a1_ab_apply]
  show _ - (k2_pay3 (F := Ideal) x0 x1 w1 b1 w2 b2 (ix2 p (0 : Fin 1))
      + Ideal.log (shapeCast S5000x1 (k2_pay4 (F := Ideal) x0 x1 w1 b1 w2 b2) shapeCasts_S5000_S5000x1 (ix2 p (0 : Fin 1)))) = _
  rw [shapeCast_a_a1_apply, pay3_apply, pay4_apply, pay2_eq]
  rfl

/-- What the body leaves in the output window's buffer is log-softmax of the block's logits. -/
theorem out_block_eq : out2_6 (F := Ideal) x0 x1 w1 b1 w2 b2 = Cert.Spec.lsmK (blockLogits x0 x1 w1 b1 w2 b2) := by
  unfold out2_6
  rw [View.canon_unit_zero hz]
  simp only [View.ld_unit_zero (S := S5000x64) hz, View.ld_unit_zero (S := S64x128) hz, View.ld_unit_zero (S := S1x128) hz,
    View.ld_unit_zero (S := S128x10) hz, View.ld_unit_zero (S := S1x10) hz]
  exact pay1_eq x0 x1 w1 b1 w2 b2

end Block

/-! ## From blocks to the array

Point t of the grid works on rows 5000·t … 5000·t + 4999: its two row windows hold those rows of the two summands, its
weight and bias windows the whole arrays, and what it writes back lands on the same rows of the output. Every entry of
an output row depends on that row of the two summands only, so the rows of the whole-array function are the function of
the rows. -/

/-- Row 5000·t + p. -/
def rowOf (t : Fin cfg2.N) (p : Fin 5000) : Fin 100000 :=
  ⟨5000 * t.val + p.val, by have h : t.val < 20 := lt_of_lt_of_eq t.isLt N_2; have := p.isLt; omega⟩

/-- Rows 5000·t … 5000·t + 4999 of an array of 100000 rows. -/
def rowsAt {C : Nat} (t : Fin cfg2.N) (A : Cert.Spec.Mat 100000 C) : Cert.Spec.Mat 5000 C :=
  fun i => A (ix2 (rowOf t (i 0)) (i 1))

theorem rowsAt_add {C : Nat} (t : Fin cfg2.N) (A B : Cert.Spec.Mat 100000 C) :
    rowsAt t (Cert.Spec.add A B) = Cert.Spec.add (rowsAt t A) (rowsAt t B) := rfl
theorem rowsAt_eluM {C : Nat} (t : Fin cfg2.N) (A : Cert.Spec.Mat 100000 C) :
    rowsAt t (Cert.Spec.eluM A) = Cert.Spec.eluM (rowsAt t A) := rfl
theorem rowsAt_addRow1 {C : Nat} (t : Fin cfg2.N) (A : Cert.Spec.Mat 100000 C) (b : Cert.Spec.Mat 1 C) :
    rowsAt t (Cert.Spec.addRow1 A b) = Cert.Spec.addRow1 (rowsAt t A) b := rfl
theorem rowsAt_mm {K C : Nat} (t : Fin cfg2.N) (X : Cert.Spec.Mat 100000 K) (W : Cert.Spec.Mat K C) :
    rowsAt t (Cert.Spec.mm X W) = Cert.Spec.mm (rowsAt t X) W := rfl
theorem rowsAt_lsmK {C : Nat} (t : Fin cfg2.N) (Y : Cert.Spec.Mat 100000 C) :
    rowsAt t (Cert.Spec.lsmK Y) = Cert.Spec.lsmK (rowsAt t Y) := rfl

/-- The region's output as one function of the arrays it reads. -/
abbrev netOut (A0 A1 : Cert.Spec.Mat 100000 64) (W1 : Cert.Spec.Mat 64 128) (B1 : Cert.Spec.Mat 1 128)
    (W2 : Cert.Spec.Mat 128 10) (B2 : Cert.Spec.Mat 1 10) : Cert.Spec.Mat 100000 10 :=
  Cert.Spec.lsmK (Cert.Spec.addRow1 (Cert.Spec.mm (Cert.Spec.eluM (Cert.Spec.addRow1 (Cert.Spec.mm (Cert.Spec.eluM
    (Cert.Spec.add A0 A1)) W1) B1)) W2) B2)

/-- Its rows 5000·t … are the same function of those rows of the two summands. -/
theorem rowsAt_netOut (t : Fin cfg2.N) (A0 A1 : Cert.Spec.Mat 100000 64) (W1 : Cert.Spec.Mat 64 128)
    (B1 : Cert.Spec.Mat 1 128) (W2 : Cert.Spec.Mat 128 10) (B2 : Cert.Spec.Mat 1 10) :
    rowsAt t (netOut A0 A1 W1 B1 W2 B2) = Cert.Spec.lsmK (blockLogits (rowsAt t A0) (rowsAt t A1) W1 B1 W2 B2) := by
  rw [rowsAt_lsmK, rowsAt_addRow1, rowsAt_mm, rowsAt_eluM, rowsAt_addRow1, rowsAt_mm, rowsAt_eluM, rowsAt_add]

/-- What a point writes back, over the blocks as variables: at block entry j, the whole-array function at the entry
    5000·t rows further down. -/
theorem point_eq (x0 x1 : Vec Ideal S5000x64 .f32) (w1 : Vec Ideal S64x128 .f32) (b1 : Vec Ideal S1x128 .f32)
    (w2 : Vec Ideal S128x10 .f32) (b2 : Vec Ideal S1x10 .f32)
    (A0 A1 : Cert.Spec.Mat 100000 64) (W1 : Cert.Spec.Mat 64 128) (B1 : Cert.Spec.Mat 1 128)
    (W2 : Cert.Spec.Mat 128 10) (B2 : Cert.Spec.Mat 1 10) (t : Fin cfg2.N)
    (h0 : x0 = rowsAt t A0) (h1 : x1 = rowsAt t A1) (hw1 : w1 = W1) (hb1 : b1 = B1) (hw2 : w2 = W2) (hb2 : b2 = B2)
    (j : S5000x10.Idx) (i : S100000x10.Idx) (hi0 : (i 0).val = 5000 * t.val + (j 0).val) (hi1 : (i 1).val = (j 1).val) :
    out2_6 (F := Ideal) x0 x1 w1 b1 w2 b2 j = netOut A0 A1 W1 B1 W2 B2 i := by
  subst h0 h1 hw1 hb1 hw2 hb2
  have hi : i = ix2 (rowOf t (j 0)) (j 1) := by
    funext a; apply Fin.ext
    match a with
    | ⟨0, _⟩ => exact hi0
    | ⟨1, _⟩ => exact hi1
  rw [out_block_eq, ← rowsAt_netOut, hi]
  rfl

section Run
variable (V : (c : Dev nD) → (b : Ref sig .tc) → Buf (Elt Ideal) ((c : Thread nD τ).loc b))

/-- The printed index maps over the grid: a row window's block index is (t, 0), a weight or bias window's (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The first summand's block at point t is its rows 5000·t … 5000·t + 4999. -/
theorem rows0 (c : Dev nD) (t : Fin cfg2.N) :
    (iblk2 V c 0 t : Vec Ideal S5000x64 .f32) = rowsAt t (V c main_v52 : Cert.Spec.Mat 100000 64) := by
  funext j
  obtain ⟨p, k, rfl⟩ : ∃ (p : Fin 5000) (k : Fin 64), j = ix2 p k := ⟨j 0, j 1, eq_ix2 j⟩
  obtain ⟨e0, e1, -⟩ := index_maps t
  unfold iblk2 rowsAt
  rw [View.read_apply]
  show V c main_v52 _ = V c main_v52 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- The second summand's block likewise. -/
theorem rows1 (c : Dev nD) (t : Fin cfg2.N) :
    (iblk2 V c 1 t : Vec Ideal S5000x64 .f32) = rowsAt t (V c main_v31_2 : Cert.Spec.Mat 100000 64) := by
  funext j
  obtain ⟨p, k, rfl⟩ : ∃ (p : Fin 5000) (k : Fin 64), j = ix2 p k := ⟨j 0, j 1, eq_ix2 j⟩
  obtain ⟨-, -, e0, e1, -⟩ := index_maps t
  unfold iblk2 rowsAt
  rw [View.read_apply]
  show V c main_v31_2 _ = V c main_v31_2 _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 64 + 1 * k.val = k.val; rw [e1]; omega

/-- A weight or bias window's block, at every point, is the whole array. -/
theorem whole2 (c : Dev nD) (t : Fin cfg2.N) :
    (iblk2 V c 2 t : Vec Ideal S64x128 .f32) = (V c main_arg13 : Cert.Spec.Mat 64 128) := by
  funext j
  obtain ⟨p, k, rfl⟩ : ∃ (p : Fin 64) (k : Fin 128), j = ix2 p k := ⟨j 0, j 1, eq_ix2 j⟩
  obtain ⟨-, -, -, -, e0, e1, -⟩ := index_maps t
  unfold iblk2
  rw [View.read_apply]
  show V c main_arg13 _ = V c main_arg13 _
  congr 1
  funext a
  apply Fin.ext
  match a with
  | ⟨0, _⟩ => show win2_2.index t (0 : Fin 2) * 64 + 1 * p.val = p.val; rw [e0]; omega
  | ⟨1, _⟩ => show win2_2.index t (1 : Fin 2) * 128 + 1 * k.val = k.val; rw [e1]; omega

theorem whole3 (c : Dev nD) (t : Fin cfg2.N) :
    (iblk2 V c 3 t : Vec Ideal S1x128 .f32) = (V c main_v53 : Cert.Spec.Mat 1 128) := by
  funext j
  obtain ⟨p, k, rfl⟩ : ∃ (p : Fin 1) (k : Fin 128), j = ix2 p k := ⟨j 0, j 1, eq_ix2 j⟩
  obtain ⟨-, -, -, -, -, -, e0, e1, -⟩ := index_maps t
  unfold iblk2
  rw [View.read_apply]
  show V c main_v53 _ = V c main_v53 _
  congr 1
  funext a
  apply Fin.ext
  match a with
  | ⟨0, _⟩ => show win2_3.index t (0 : Fin 2) * 1 + 1 * p.val = p.val; rw [e0]; omega
  | ⟨1, _⟩ => show win2_3.index t (1 : Fin 2) * 128 + 1 * k.val = k.val; rw [e1]; omega

theorem whole4 (c : Dev nD) (t : Fin cfg2.N) :
    (iblk2 V c 4 t : Vec Ideal S128x10 .f32) = (V c main_arg15 : Cert.Spec.Mat 128 10) := by
  funext j
  obtain ⟨p, k, rfl⟩ : ∃ (p : Fin 128) (k : Fin 10), j = ix2 p k := ⟨j 0, j 1, eq_ix2 j⟩
  obtain ⟨-, -, -, -, -, -, -, -, e0, e1, -⟩ := index_maps t
  unfold iblk2
  rw [View.read_apply]
  show V c main_arg15 _ = V c main_arg15 _
  congr 1
  funext a
  apply Fin.ext
  match a with
  | ⟨0, _⟩ => show win2_4.index t (0 : Fin 2) * 128 + 1 * p.val = p.val; rw [e0]; omega
  | ⟨1, _⟩ => show win2_4.index t (1 : Fin 2) * 10 + 1 * k.val = k.val; rw [e1]; omega

theorem whole5 (c : Dev nD) (t : Fin cfg2.N) :
    (iblk2 V c 5 t : Vec Ideal S1x10 .f32) = (V c main_v54 : Cert.Spec.Mat 1 10) := by
  funext j
  obtain ⟨p, k, rfl⟩ : ∃ (p : Fin 1) (k : Fin 10), j = ix2 p k := ⟨j 0, j 1, eq_ix2 j⟩
  obtain ⟨-, -, -, -, -, -, -, -, -, -, e0, e1, -⟩ := index_maps t
  unfold iblk2
  rw [View.read_apply]
  show V c main_v54 _ = V c main_v54 _
  congr 1
  funext a
  apply Fin.ext
  match a with
  | ⟨0, _⟩ => show win2_5.index t (0 : Fin 2) * 1 + 1 * p.val = p.val; rw [e0]; omega
  | ⟨1, _⟩ => show win2_5.index t (1 : Fin 2) * 10 + 1 * k.val = k.val; rw [e1]; omega

/-- What point t writes back is its block of the whole-array function. -/
theorem flushed_eq (c : Dev nD) (t : Fin cfg2.N) :
    (dat2 (F := Ideal) V c).flushed 6 t
      = ((cfg2.win 6).blk t).view.read (Elt Ideal)
          (netOut (V c main_v52) (V c main_v31_2) (V c main_arg13) (V c main_v53) (V c main_arg15) (V c main_v54)) := by
  show (cfg2.win 6).cut (grid2.coords t) ((dat2 (F := Ideal) V c).after 6 t) = _
  rw [after2_6]
  obtain ⟨-, -, -, -, -, -, -, -, -, -, -, -, e0, e1⟩ := index_maps t
  funext j
  refine point_eq (iblk2 V c 0 t) (iblk2 V c 1 t) (iblk2 V c 2 t) (iblk2 V c 3 t) (iblk2 V c 4 t) (iblk2 V c 5 t)
    (V c main_v52) (V c main_v31_2) (V c main_arg13) (V c main_v53) (V c main_arg15) (V c main_v54) t
    (rows0 V c t) (rows1 V c t) (whole2 V c t) (whole3 V c t) (whole4 V c t) (whole5 V c t)
    j (((cfg2.win 6).blk t).view.emb j) ?_ ?_
  · show win2_6.index t (0 : Fin 2) * 5000 + 1 * (j 0).val = 5000 * t.val + (j 0).val
    rw [e0]; omega
  · show win2_6.index t (1 : Fin 2) * 10 + 1 * (j 1).val = (j 1).val
    rw [e1]; omega

/-- An index of the output is in point t's block iff each coordinate is in the block's range on its axis. -/
theorem mem_block (t : Fin cfg2.N) (i : S100000x10.Idx) :
    i ∈ ((cfg2.win 6).blk t).view.set ↔ ∀ a : Fin 2, win2_6.index t a * S5000x10.size a ≤ (i a).val ∧ (i a).val < win2_6.index t a * S5000x10.size a + S5000x10.size a := by
  show i ∈ ((View.whole main_v55).slice (win2_6.rect t)).set ↔ _
  rw [View.set_slice_whole, Rect.mem_set_unit]
  exact Iff.rfl

/-- The blocks tile the rows: row r lies in the block of point r / 5000. -/
theorem cover (i : S100000x10.Idx) :
    ∃ t : Fin cfg2.N, (cfg2.win 6).flush t = true ∧ i ∈ ((cfg2.win 6).blk t).view.set := by
  have hi0 : (i 0).val < 100000 := (i 0).isLt
  have hi1 : (i 1).val < 10 := (i 1).isLt
  have hN : cfg2.N = 20 := N_2
  refine ⟨⟨(i 0).val / 5000, by rw [hN]; omega⟩, flush2_6 _, ?_⟩
  rw [mem_block]
  obtain ⟨-, -, -, -, -, -, -, -, -, -, -, -, e0, e1⟩ := index_maps ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 10 ≤ (i 1).val ∧ (i 1).val < win2_6.index _ (1 : Fin 2) * 10 + 10
    rw [e1]; omega

end Run

end R2

variable (V : (c : Dev nD) → (b : Ref sig .tc) → Buf (Elt Ideal) ((c : Thread nD τ).loc b))

/-- The last region's output array: log-softmax, row by row, of the logits of elu (agg2 + c2) through the two dense
    layers, as a function of the arrays the region finds. -/
theorem region2_out (c : Dev nD) : (dat2 (F := Ideal) V c).arrAt 6 cfg2.N
      = Cert.Spec.lsmK (Cert.Spec.addRow1 (Cert.Spec.mm (Cert.Spec.eluM (Cert.Spec.addRow1 (Cert.Spec.mm (Cert.Spec.eluM
          (Cert.Spec.add (V c main_v52) (V c main_v31_2))) (V c main_arg13)) (V c main_v53))) (V c main_arg15)) (V c main_v54)) :=
  (dat2 (F := Ideal) V c).arrAt_eq_of_cover 6
    (R2.netOut (V c main_v52) (V c main_v31_2) (V c main_arg13) (V c main_v53) (V c main_arg15) (V c main_v54))
    (fun t _ => R2.flushed_eq V c t) R2.cover

end Cert.KernelIdeal.Val

end
-- ==== Proof.KHost.lean ====
/-
  What the host stretches of the program leave in the arrays its three regions read.

  Between the launch and region 0, between region 0 and region 1, and between region 1 and region 2 the program
  applies array operations only: slices and reshapes of the edge list and of the edge weights, reshapes of the bias
  vectors to one-row matrices, and the edge aggregation (two row gathers, a difference, a product by the edge
  weight, a row scatter-add from zero). Here each array a region reads is written in terms of the launch memory and
  of the arrays the previous region left:
    • an argument array no operation writes is the launch memory's;
    • a bias reshaped to one row reads, at (0, q), the bias vector at q;
    • the aggregated array is Spec.agg of the previous region's first two outputs, the edge list and the edge
      weights: the program's operations are, one by one, the operations Spec.agg is made of;
    • the previous region's third output is untouched.
-/
import proofs.«132559_j88553635709227_1_alg».proof.Proof.KernelIdealFrame
import proofs.«132559_j88553635709227_1_alg».proof.Proof.Spec
import Idealize.ShloMosaic.Lib.StableHlo.Run
import Idealize.ShloMosaic.Lib.ValueLayout

set_option maxRecDepth 16384

noncomputable section

namespace Cert.KernelIdeal.Val

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

/-! ## The launch memory's arrays that no operation and no earlier region writes -/

section Untouched
variable (b : Ref sig .tc)

/-- The first stretch leaves b alone. -/
theorem W1_keep (c : Dev nD) (h : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h

/-- The second stretch leaves b alone. -/
theorem W3_keep (c : Dev nD) (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h

/-- The third stretch leaves b alone. -/
theorem W5_keep (c : Dev nD) (h : ∀ op ∈ (hostOps2 : List (HloOp τ sig (Elt Ideal))), Proc.devRef .tc b ∉ op.writes) :
    W5 m ρ c (Proc.devRef .tc b) = W4 m ρ c (Proc.devRef .tc b) :=
  StableHlo.after_of_forall_not_mem (b := Proc.devRef .tc b) _ _ h

end Untouched

/-- None of the listed operations writes the buffer: each writes one buffer, another one. -/
local macro "no_write" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ### Up to region 0 -/

theorem W1_arg0 (c : Dev nD) : W1 m ρ c (Proc.devRef .tc main_arg0) = m ((c : Thread nD τ).loc main_arg0) :=
  W1_keep m ρ main_arg0 c (by no_write hostOps0)
theorem W1_arg3 (c : Dev nD) : W1 m ρ c (Proc.devRef .tc main_arg3) = m ((c : Thread nD τ).loc main_arg3) :=
  W1_keep m ρ main_arg3 c (by no_write hostOps0)
theorem W1_arg5 (c : Dev nD) : W1 m ρ c (Proc.devRef .tc main_arg5) = m ((c : Thread nD τ).loc main_arg5) :=
  W1_keep m ρ main_arg5 c (by no_write hostOps0)
theorem W1_arg6 (c : Dev nD) : W1 m ρ c (Proc.devRef .tc main_arg6) = m ((c : Thread nD τ).loc main_arg6) :=
  W1_keep m ρ main_arg6 c (by no_write hostOps0)

theorem V1_arg0 (c : Dev nD) : V1 m ρ c main_arg0 = m ((c : Thread nD τ).loc main_arg0) := W1_arg0 m ρ c
theorem V1_arg3 (c : Dev nD) : V1 m ρ c main_arg3 = m ((c : Thread nD τ).loc main_arg3) := W1_arg3 m ρ c
theorem V1_arg5 (c : Dev nD) : V1 m ρ c main_arg5 = m ((c : Thread nD τ).loc main_arg5) := W1_arg5 m ρ c
theorem V1_arg6 (c : Dev nD) : V1 m ρ c main_arg6 = m ((c : Thread nD τ).loc main_arg6) := W1_arg6 m ρ c

/-! ### Up to region 1: the first stretch, region 0 (which neither reads nor writes them), the second stretch -/

theorem W3_arg8 (c : Dev nD) : W3 m ρ c (Proc.devRef .tc main_arg8) = m ((c : Thread nD τ).loc main_arg8) :=
  (W3_keep m ρ main_arg8 c (by no_write hostOps1)).trans
    ((W2_of_ne m ρ c main_arg8 (by decide)).trans (W1_keep m ρ main_arg8 c (by no_write hostOps0)))
theorem W3_arg9 (c : Dev nD) : W3 m ρ c (Proc.devRef .tc main_arg9) = m ((c : Thread nD τ).loc main_arg9) :=
  (W3_keep m ρ main_arg9 c (by no_write hostOps1)).trans
    ((W2_of_ne m ρ c main_arg9 (by decide)).trans (W1_keep m ρ main_arg9 c (by no_write hostOps0)))
theorem W3_arg10 (c : Dev nD) : W3 m ρ c (Proc.devRef .tc main_arg10) = m ((c : Thread nD τ).loc main_arg10) :=
  (W3_keep m ρ main_arg10 c (by no_write hostOps1)).trans
    ((W2_of_ne m ρ c main_arg10 (by decide)).trans (W1_keep m ρ main_arg10 c (by no_write hostOps0)))
theorem W3_arg11 (c : Dev nD) : W3 m ρ c (Proc.devRef .tc main_arg11) = m ((c : Thread nD τ).loc main_arg11) :=
  (W3_keep m ρ main_arg11 c (by no_write hostOps1)).trans
    ((W2_of_ne m ρ c main_arg11 (by decide)).trans (W1_keep m ρ main_arg11 c (by no_write hostOps0)))
theorem W3_arg12 (c : Dev nD) : W3 m ρ c (Proc.devRef .tc main_arg12) = m ((c : Thread nD τ).loc main_arg12) :=
  (W3_keep m ρ main_arg12 c (by no_write hostOps1)).trans
    ((W2_of_ne m ρ c main_arg12 (by decide)).trans (W1_keep m ρ main_arg12 c (by no_write hostOps0)))

theorem V3_arg8 (c : Dev nD) : V3 m ρ c main_arg8 = m ((c : Thread nD τ).loc main_arg8) := W3_arg8 m ρ c
theorem V3_arg10 (c : Dev nD) : V3 m ρ c main_arg10 = m ((c : Thread nD τ).loc main_arg10) := W3_arg10 m ρ c
theorem V3_arg11 (c : Dev nD) : V3 m ρ c main_arg11 = m ((c : Thread nD τ).loc main_arg11) := W3_arg11 m ρ c

/-- Region 0's third output goes through the second stretch untouched. -/
theorem V3_v7_2 (c : Dev nD) : V3 m ρ c main_v7_2 = V2 m ρ c main_v7_2 :=
  W3_keep m ρ main_v7_2 c (by no_write hostOps1)

/-! ### Up to region 2: two more steps -/

theorem W5_arg13 (c : Dev nD) : W5 m ρ c (Proc.devRef .tc main_arg13) = m ((c : Thread nD τ).loc main_arg13) :=
  (W5_keep m ρ main_arg13 c (by no_write hostOps2)).trans ((W4_of_ne m ρ c main_arg13 (by decide)).trans
    ((W3_keep m ρ main_arg13 c (by no_write hostOps1)).trans
      ((W2_of_ne m ρ c main_arg13 (by decide)).trans (W1_keep m ρ main_arg13 c (by no_write hostOps0)))))
theorem W5_arg14 (c : Dev nD) : W5 m ρ c (Proc.devRef .tc main_arg14) = m ((c : Thread nD τ).loc main_arg14) :=
  (W5_keep m ρ main_arg14 c (by no_write hostOps2)).trans ((W4_of_ne m ρ c main_arg14 (by decide)).trans
    ((W3_keep m ρ main_arg14 c (by no_write hostOps1)).trans
      ((W2_of_ne m ρ c main_arg14 (by decide)).trans (W1_keep m ρ main_arg14 c (by no_write hostOps0)))))
theorem W5_arg15 (c : Dev nD) : W5 m ρ c (Proc.devRef .tc main_arg15) = m ((c : Thread nD τ).loc main_arg15) :=
  (W5_keep m ρ main_arg15 c (by no_write hostOps2)).trans ((W4_of_ne m ρ c main_arg15 (by decide)).trans
    ((W3_keep m ρ main_arg15 c (by no_write hostOps1)).trans
      ((W2_of_ne m ρ c main_arg15 (by decide)).trans (W1_keep m ρ main_arg15 c (by no_write hostOps0)))))
theorem W5_arg16 (c : Dev nD) : W5 m ρ c (Proc.devRef .tc main_arg16) = m ((c : Thread nD τ).loc main_arg16) :=
  (W5_keep m ρ main_arg16 c (by no_write hostOps2)).trans ((W4_of_ne m ρ c main_arg16 (by decide)).trans
    ((W3_keep m ρ main_arg16 c (by no_write hostOps1)).trans
      ((W2_of_ne m ρ c main_arg16 (by decide)).trans (W1_keep m ρ main_arg16 c (by no_write hostOps0)))))

theorem V5_arg13 (c : Dev nD) : V5 m ρ c main_arg13 = m ((c : Thread nD τ).loc main_arg13) := W5_arg13 m ρ c
theorem V5_arg15 (c : Dev nD) : V5 m ρ c main_arg15 = m ((c : Thread nD τ).loc main_arg15) := W5_arg15 m ρ c

/-- Region 1's third output goes through the third stretch untouched. -/
theorem V5_v31_2 (c : Dev nD) : V5 m ρ c main_v31_2 = V4 m ρ c main_v31_2 :=
  W5_keep m ρ main_v31_2 c (by no_write hostOps2)

/-! ## The biases as one-row matrices

A vector [C] reshaped to [1, C] reads at (0, q) the vector at q. -/

theorem W1_v5 (c : Dev nD) : (W1 m ρ c (Proc.devRef .tc main_v5) : Spec.Mat 1 32)
    = shapeCast S1x32 (m ((c : Thread nD τ).loc main_arg4) : Spec.Vc 32) shapeCasts_S32_S1x32 := by
  show StableHlo.after hostOps0 (W0 m ρ c) (Proc.devRef .tc main_v5) = _
  after_results
  rfl
theorem W1_v6 (c : Dev nD) : (W1 m ρ c (Proc.devRef .tc main_v6) : Spec.Mat 1 32)
    = shapeCast S1x32 (m ((c : Thread nD τ).loc main_arg7) : Spec.Vc 32) shapeCasts_S32_S1x32 := by
  show StableHlo.after hostOps0 (W0 m ρ c) (Proc.devRef .tc main_v6) = _
  after_results
  rfl

theorem V1_v5 (c : Dev nD) (q : Fin 32) :
    (V1 m ρ c main_v5 : Spec.Mat 1 32) (ix2 (0 : Fin 1) q) = (m ((c : Thread nD τ).loc main_arg4) : Spec.Vc 32) (ix1 q) :=
  (congrFun (W1_v5 m ρ c) _).trans (shapeCast_a_1a_apply _ _ _ _)
theorem V1_v6 (c : Dev nD) (q : Fin 32) :
    (V1 m ρ c main_v6 : Spec.Mat 1 32) (ix2 (0 : Fin 1) q) = (m ((c : Thread nD τ).loc main_arg7) : Spec.Vc 32) (ix1 q) :=
  (congrFun (W1_v6 m ρ c) _).trans (shapeCast_a_1a_apply _ _ _ _)

theorem W3_v29 (c : Dev nD) : (W3 m ρ c (Proc.devRef .tc main_v29) : Spec.Mat 1 64)
    = shapeCast S1x64 (W2 m ρ c (Proc.devRef .tc main_arg9) : Spec.Vc 64) shapeCasts_S64_S1x64 := by
  show StableHlo.after hostOps1 (W2 m ρ c) (Proc.devRef .tc main_v29) = _
  after_results_simp
  rfl
theorem W3_v30 (c : Dev nD) : (W3 m ρ c (Proc.devRef .tc main_v30) : Spec.Mat 1 64)
    = shapeCast S1x64 (W2 m ρ c (Proc.devRef .tc main_arg12) : Spec.Vc 64) shapeCasts_S64_S1x64 := by
  show StableHlo.after hostOps1 (W2 m ρ c) (Proc.devRef .tc main_v30) = _
  after_results_simp
  rfl

theorem W2_arg9 (c : Dev nD) : W2 m ρ c (Proc.devRef .tc main_arg9) = m ((c : Thread nD τ).loc main_arg9) :=
  (W2_of_ne m ρ c main_arg9 (by decide)).trans (W1_keep m ρ main_arg9 c (by no_write hostOps0))
theorem W2_arg12 (c : Dev nD) : W2 m ρ c (Proc.devRef .tc main_arg12) = m ((c : Thread nD τ).loc main_arg12) :=
  (W2_of_ne m ρ c main_arg12 (by decide)).trans (W1_keep m ρ main_arg12 c (by no_write hostOps0))

theorem V3_v29 (c : Dev nD) (q : Fin 64) :
    (V3 m ρ c main_v29 : Spec.Mat 1 64) (ix2 (0 : Fin 1) q) = (m ((c : Thread nD τ).loc main_arg9) : Spec.Vc 64) (ix1 q) :=
  (congrFun (W3_v29 m ρ c) _).trans ((shapeCast_a_1a_apply _ _ _ _).trans (congrFun (W2_arg9 m ρ c) _))
theorem V3_v30 (c : Dev nD) (q : Fin 64) :
    (V3 m ρ c main_v30 : Spec.Mat 1 64) (ix2 (0 : Fin 1) q) = (m ((c : Thread nD τ).loc main_arg12) : Spec.Vc 64) (ix1 q) :=
  (congrFun (W3_v30 m ρ c) _).trans ((shapeCast_a_1a_apply _ _ _ _).trans (congrFun (W2_arg12 m ρ c) _))

theorem W5_v53 (c : Dev nD) : (W5 m ρ c (Proc.devRef .tc main_v53) : Spec.Mat 1 128)
    = shapeCast S1x128 (W4 m ρ c (Proc.devRef .tc main_arg14) : Spec.Vc 128) shapeCasts_S128_S1x128 := by
  show StableHlo.after hostOps2 (W4 m ρ c) (Proc.devRef .tc main_v53) = _
  after_results_simp
  rfl
theorem W5_v54 (c : Dev nD) : (W5 m ρ c (Proc.devRef .tc main_v54) : Spec.Mat 1 10)
    = shapeCast S1x10 (W4 m ρ c (Proc.devRef .tc main_arg16) : Spec.Vc 10) shapeCasts_S10_S1x10 := by
  show StableHlo.after hostOps2 (W4 m ρ c) (Proc.devRef .tc main_v54) = _
  after_results_simp
  rfl

theorem W4_arg14 (c : Dev nD) : W4 m ρ c (Proc.devRef .tc main_arg14) = m ((c : Thread nD τ).loc main_arg14) :=
  (W4_of_ne m ρ c main_arg14 (by decide)).trans ((W3_keep m ρ main_arg14 c (by no_write hostOps1)).trans
    ((W2_of_ne m ρ c main_arg14 (by decide)).trans (W1_keep m ρ main_arg14 c (by no_write hostOps0))))
theorem W4_arg16 (c : Dev nD) : W4 m ρ c (Proc.devRef .tc main_arg16) = m ((c : Thread nD τ).loc main_arg16) :=
  (W4_of_ne m ρ c main_arg16 (by decide)).trans ((W3_keep m ρ main_arg16 c (by no_write hostOps1)).trans
    ((W2_of_ne m ρ c main_arg16 (by decide)).trans (W1_keep m ρ main_arg16 c (by no_write hostOps0))))

theorem V5_v53 (c : Dev nD) (q : Fin 128) :
    (V5 m ρ c main_v53 : Spec.Mat 1 128) (ix2 (0 : Fin 1) q) = (m ((c : Thread nD τ).loc main_arg14) : Spec.Vc 128) (ix1 q) :=
  (congrFun (W5_v53 m ρ c) _).trans ((shapeCast_a_1a_apply _ _ _ _).trans (congrFun (W4_arg14 m ρ c) _))
theorem V5_v54 (c : Dev nD) (q : Fin 10) :
    (V5 m ρ c main_v54 : Spec.Mat 1 10) (ix2 (0 : Fin 1) q) = (m ((c : Thread nD τ).loc main_arg16) : Spec.Vc 10) (ix1 q) :=
  (congrFun (W5_v54 m ρ c) _).trans ((shapeCast_a_1a_apply _ _ _ _).trans (congrFun (W4_arg16 m ρ c) _))

/-! ## The edge list's two rows and the edge weights

The first stretch cuts the edge list [2, E] into its rows, each reshaped to a vector [E], and reshapes the edge
weights [E, 1] to a vector [E]. No later operation and no region writes these three vectors. -/

section Edges
variable {C : Nat} (h : Spec.AggFacts C)

theorem W1_v1 (c : Dev nD) : (W1 m ρ c (Proc.devRef .tc main_v1) : IVec Spec.SE 32)
    = Spec.edgeRow0 h (m ((c : Thread nD τ).loc main_arg1)) := by
  show StableHlo.after hostOps0 (W0 m ρ c) (Proc.devRef .tc main_v1) = _
  after_results
  rfl
theorem W1_v3 (c : Dev nD) : (W1 m ρ c (Proc.devRef .tc main_v3) : IVec Spec.SE 32)
    = Spec.edgeRow1 h (m ((c : Thread nD τ).loc main_arg1)) := by
  show StableHlo.after hostOps0 (W0 m ρ c) (Proc.devRef .tc main_v3) = _
  after_results
  rfl
theorem W1_v4 (c : Dev nD) : (W1 m ρ c (Proc.devRef .tc main_v4) : Spec.SE.Idx → EReal)
    = shapeCast Spec.SE (m ((c : Thread nD τ).loc main_arg2) : Spec.Mat 3200000 1) h.scw := by
  show StableHlo.after hostOps0 (W0 m ρ c) (Proc.devRef .tc main_v4) = _
  after_results
  rfl

/-- At region 0's exit: region 0 has no window on them. -/
theorem W2_v1 (c : Dev nD) : (W2 m ρ c (Proc.devRef .tc main_v1) : IVec Spec.SE 32)
    = Spec.edgeRow0 h (m ((c : Thread nD τ).loc main_arg1)) :=
  (W2_of_ne m ρ c main_v1 (by decide)).trans (W1_v1 m ρ h c)
theorem W2_v3 (c : Dev nD) : (W2 m ρ c (Proc.devRef .tc main_v3) : IVec Spec.SE 32)
    = Spec.edgeRow1 h (m ((c : Thread nD τ).loc main_arg1)) :=
  (W2_of_ne m ρ c main_v3 (by decide)).trans (W1_v3 m ρ h c)
theorem W2_v4 (c : Dev nD) : (W2 m ρ c (Proc.devRef .tc main_v4) : Spec.SE.Idx → EReal)
    = shapeCast Spec.SE (m ((c : Thread nD τ).loc main_arg2) : Spec.Mat 3200000 1) h.scw :=
  (W2_of_ne m ρ c main_v4 (by decide)).trans (W1_v4 m ρ h c)

/-- At region 1's exit: the second stretch reads them only, region 1 has no window on them. -/
theorem W4_v1 (c : Dev nD) : (W4 m ρ c (Proc.devRef .tc main_v1) : IVec Spec.SE 32)
    = Spec.edgeRow0 h (m ((c : Thread nD τ).loc main_arg1)) :=
  (W4_of_ne m ρ c main_v1 (by decide)).trans ((W3_keep m ρ main_v1 c (by no_write hostOps1)).trans (W2_v1 m ρ h c))
theorem W4_v3 (c : Dev nD) : (W4 m ρ c (Proc.devRef .tc main_v3) : IVec Spec.SE 32)
    = Spec.edgeRow1 h (m ((c : Thread nD τ).loc main_arg1)) :=
  (W4_of_ne m ρ c main_v3 (by decide)).trans ((W3_keep m ρ main_v3 c (by no_write hostOps1)).trans (W2_v3 m ρ h c))
theorem W4_v4 (c : Dev nD) : (W4 m ρ c (Proc.devRef .tc main_v4) : Spec.SE.Idx → EReal)
    = shapeCast Spec.SE (m ((c : Thread nD τ).loc main_arg2) : Spec.Mat 3200000 1) h.scw :=
  (W4_of_ne m ρ c main_v4 (by decide)).trans ((W3_keep m ρ main_v4 c (by no_write hostOps1)).trans (W2_v4 m ρ h c))

end Edges

/-! ## The aggregated arrays

The second stretch, read at the buffer its scatter-add writes, is the chain: node indices wrapped and laid as a
column, two row gathers, their difference, the product by the edge weights laid along the rows, the scatter-add
into zero by the destination column. That is Spec.agg operation by operation; the shape relations each operation
carries are propositions. The third stretch is the same chain at 64 columns. -/

theorem V3_v28 (c : Dev nD) : (V3 m ρ c main_v28 : Spec.Mat 100000 32)
    = Spec.agg Spec.aggFacts32 (V2 m ρ c main_v7_0) (V2 m ρ c main_v7_1)
        (m ((c : Thread nD τ).loc main_arg1)) (m ((c : Thread nD τ).loc main_arg2)) := by
  show StableHlo.after hostOps1 (W2 m ρ c) (Proc.devRef .tc main_v28) = _
  after_results_simp
  rw [W2_v1 m ρ Spec.aggFacts32, W2_v3 m ρ Spec.aggFacts32, W2_v4 m ρ Spec.aggFacts32]
  rfl

theorem V5_v52 (c : Dev nD) : (V5 m ρ c main_v52 : Spec.Mat 100000 64)
    = Spec.agg Spec.aggFacts64 (V4 m ρ c main_v31_0) (V4 m ρ c main_v31_1)
        (m ((c : Thread nD τ).loc main_arg1)) (m ((c : Thread nD τ).loc main_arg2)) := by
  show StableHlo.after hostOps2 (W4 m ρ c) (Proc.devRef .tc main_v52) = _
  after_results_simp
  rw [W4_v1 m ρ Spec.aggFacts64, W4_v3 m ρ Spec.aggFacts64, W4_v4 m ρ Spec.aggFacts64]
  rfl

end Cert.KernelIdeal.Val

end
-- ==== Proof.KValue.lean ====
/-
  The idealized kernel program's result as a function of its arguments.

  The run leaves the result array at region 2's write-backs. Region 2's array is log-softmax (in the form
  y − (m + log Σ exp (y − m))) of the logits computed from agg2 and c2; agg2 is the edge aggregation of region 1's
  a2 and b2; region 1's arrays are dense layers of elu (agg1 + c1); agg1 the aggregation of region 0's a1, b1; region 0's
  arrays are x·W + b. Substituting from the inside out, and moving each bias past the sum it follows
  (agg + (X·Wc + bc) = (agg + X·Wc) + bc), the result is lsmK (logits …) of the launch memory's argument arrays.
-/
import proofs.«132559_j88553635709227_1_alg».proof.Proof.KRegion0
import proofs.«132559_j88553635709227_1_alg».proof.Proof.KRegion1
import proofs.«132559_j88553635709227_1_alg».proof.Proof.KRegion2
import proofs.«132559_j88553635709227_1_alg».proof.Proof.KHost

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Region 0's three arrays at its exit: a1 = x·W1a + b1a, b1 = x·W1b, c1 = x·W1c + b1c. -/
theorem a1_eq (c : Dev nD) : V2 m ρ c main_v7_0
    = Spec.addRow (Spec.mm (m ((c : Thread nD τ).loc main_arg0)) (m ((c : Thread nD τ).loc main_arg3))) (m ((c : Thread nD τ).loc main_arg4)) := by
  have h : V2 m ρ c main_v7_0 = (dat0 (V1 m ρ) c).arrAt 6 cfg0.N := W2_arr m ρ c 6
  rw [h, region0_a (V1 m ρ) c, V1_arg0, V1_arg3]
  exact Spec.addRow1_of_row _ _ _ (V1_v5 m ρ c)

theorem b1_eq (c : Dev nD) : V2 m ρ c main_v7_1
    = Spec.mm (m ((c : Thread nD τ).loc main_arg0)) (m ((c : Thread nD τ).loc main_arg5)) := by
  have h : V2 m ρ c main_v7_1 = (dat0 (V1 m ρ) c).arrAt 7 cfg0.N := W2_arr m ρ c 7
  rw [h, region0_b (V1 m ρ) c, V1_arg0, V1_arg5]

theorem c1_eq (c : Dev nD) : V2 m ρ c main_v7_2
    = Spec.addRow (Spec.mm (m ((c : Thread nD τ).loc main_arg0)) (m ((c : Thread nD τ).loc main_arg6))) (m ((c : Thread nD τ).loc main_arg7)) := by
  have h : V2 m ρ c main_v7_2 = (dat0 (V1 m ρ) c).arrAt 8 cfg0.N := W2_arr m ρ c 8
  rw [h, region0_c (V1 m ρ) c, V1_arg0, V1_arg6]
  exact Spec.addRow1_of_row _ _ _ (V1_v6 m ρ c)

/-- The first layer's output h1 = elu ((agg1 + x·W1c) + b1c), as region 1 reads it. -/
theorem h1_eq (c : Dev nD) : Spec.eluM (Spec.add (V3 m ρ c main_v28) (V3 m ρ c main_v7_2))
    = Spec.conv Spec.aggFacts32 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [V3_v28, V3_v7_2, a1_eq, b1_eq, c1_eq, Spec.add_addRow]
  rfl

/-- Region 1's three arrays at its exit, over h1. -/
theorem a2_eq (c : Dev nD) : V4 m ρ c main_v31_0
    = Spec.addRow (Spec.mm (Spec.eluM (Spec.add (V3 m ρ c main_v28) (V3 m ρ c main_v7_2))) (m ((c : Thread nD τ).loc main_arg8))) (m ((c : Thread nD τ).loc main_arg9)) := by
  have h : V4 m ρ c main_v31_0 = (dat1 (V3 m ρ) c).arrAt 7 cfg1.N := W4_arr m ρ c 7
  rw [h, region1_a (V3 m ρ) c, V3_arg8]
  exact Spec.addRow1_of_row _ _ _ (V3_v29 m ρ c)

theorem b2_eq (c : Dev nD) : V4 m ρ c main_v31_1
    = Spec.mm (Spec.eluM (Spec.add (V3 m ρ c main_v28) (V3 m ρ c main_v7_2))) (m ((c : Thread nD τ).loc main_arg10)) := by
  have h : V4 m ρ c main_v31_1 = (dat1 (V3 m ρ) c).arrAt 8 cfg1.N := W4_arr m ρ c 8
  rw [h, region1_b (V3 m ρ) c, V3_arg10]

theorem c2_eq (c : Dev nD) : V4 m ρ c main_v31_2
    = Spec.addRow (Spec.mm (Spec.eluM (Spec.add (V3 m ρ c main_v28) (V3 m ρ c main_v7_2))) (m ((c : Thread nD τ).loc main_arg11))) (m ((c : Thread nD τ).loc main_arg12)) := by
  have h : V4 m ρ c main_v31_2 = (dat1 (V3 m ρ) c).arrAt 9 cfg1.N := W4_arr m ρ c 9
  rw [h, region1_c (V3 m ρ) c, V3_arg11]
  exact Spec.addRow1_of_row _ _ _ (V3_v30 m ρ c)

/-- The result array: log-softmax, in the kernel's form, of the logits of the launch memory's arguments. -/
theorem value (c : Dev nD) : W6 m ρ c (Proc.devRef .tc main_v55)
    = Spec.lsmK (Spec.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  have h : W6 m ρ c (Proc.devRef .tc main_v55) = (dat2 (V5 m ρ) c).arrAt 6 cfg2.N := W6_arr m ρ c 6
  rw [h, region2_out (V5 m ρ) c, V5_v52, V5_v31_2, V5_arg13, V5_arg15,
    Spec.addRow1_of_row _ _ _ (V5_v53 m ρ c), Spec.addRow1_of_row _ _ _ (V5_v54 m ρ c),
    a2_eq, b2_eq, c2_eq, Spec.add_addRow, h1_eq]
  rfl

end Cert.KernelIdeal.Val

end
-- ==== Proof.RefOut.lean ====
/-
  The reference network's result as one pure function of its seventeen argument arrays, staged through named
  definitions that follow the reference program's operations in order, at the extended reals.

  Layer k (k = 1 at 32 columns over the 256 input features, k = 2 at 64 columns over layer 1's 32):
    a = X·Wa + ba,  b = X·Wb,  agg = scatter-add over destination rows of  w_e · (a[src e] − b[dst e]),
    h = elu ((agg + X·Wc) + bc);
  then z = elu (h·Wf1 + bf1), y = z·Wf2 + bf2, out = (y − m) − log Σ exp (y − m), m = max (−∞, row maximum).
-/
import proofs.«132559_j88553635709227_1_alg».proof.ReferenceIdeal
import proofs.«132559_j88553635709227_1_alg».proof.Proof.Gen.ReferenceIdeal
import Idealize.ShloMosaic.PureOps.Ideal

noncomputable section

namespace Cert.ReferenceIdeal.Val

open Idealize.ShloMosaic
open Cert.ReferenceIdeal Cert.ReferenceIdeal.Facts₀

variable [Cert.ReferenceIdeal.Facts]

/-! ## The edge list -/

/-- Row 0 of the edge index: each edge's source node. -/
def eSrc (ei : IVec S2x3200000 32) : IVec S3200000 32 :=
  shapeCast S3200000 (extractStridedSlice S1x3200000 ![0, 0] ei slices_S2x3200000_S1x3200000_0_0) shapeCasts_S1x3200000_S3200000

/-- Row 1 of the edge index: each edge's destination node. -/
def eDst (ei : IVec S2x3200000 32) : IVec S3200000 32 :=
  shapeCast S3200000 (extractStridedSlice S1x3200000 ![1, 0] ei slices_S2x3200000_S1x3200000_1_0) shapeCasts_S1x3200000_S3200000

/-- The edge weights as a vector. -/
def eW (ea : FVec Ideal S3200000x1 .f32) : FVec Ideal S3200000 .f32 :=
  shapeCast S3200000 ea shapeCasts_S3200000x1_S3200000

/-- A negative index counts from the end: i < 0 ↦ i + 100000. -/
def wrapE (i : IVec S3200000 32) : IVec S3200000 32 :=
  select (cmpi .slt i (broadcastInDim S3200000 ![] bcast_S_S3200000 (constantI S_ 32 0#32)))
    (addi i (broadcastInDim S3200000 ![] bcast_S_S3200000 (constantI S_ 32 100000#32))) i

/-- An edge vector as a one-column matrix. -/
def colI (i : IVec S3200000 32) : IVec S3200000x1 32 :=
  broadcastInDim S3200000x1 ![0] bcast_S3200000_S3200000x1_0 i

def colF (w : FVec Ideal S3200000 .f32) : FVec Ideal S3200000x1 .f32 :=
  broadcastInDim S3200000x1 ![0] bcast_S3200000_S3200000x1_0 w

/-! ## Layer 1 (32 columns) -/

/-- X·W + b over the 256 input features. -/
def dense1a (x : FVec Ideal S100000x256 .f32) (W : FVec Ideal S256x32 .f32) (b : FVec Ideal S32 .f32) : FVec Ideal S100000x32 .f32 :=
  addf (Host.dotGeneral (F := Ideal) dot_S100000x256_S256x32_S100000x32_1_0_0_1_n_n none x W)
    (broadcastInDim S100000x32 ![0, 1] bcast_S1x32_S100000x32_0_1 (broadcastInDim S1x32 ![1] bcast_S32_S1x32_1 b))

/-- X·W over the 256 input features. -/
def mm1 (x : FVec Ideal S100000x256 .f32) (W : FVec Ideal S256x32 .f32) : FVec Ideal S100000x32 .f32 :=
  Host.dotGeneral (F := Ideal) dot_S100000x256_S256x32_S100000x32_1_0_0_1_n_n none x W

/-- The per-edge message w_e · (a[src e] − b[dst e]) at 32 columns. -/
def msgR32 (a b : FVec Ideal S100000x32 .f32) (ei : IVec S2x3200000 32) (ea : FVec Ideal S3200000x1 .f32) : FVec Ideal S3200000x32 .f32 :=
  mulf (broadcastInDim S3200000x32 ![0, 1] bcast_S3200000x1_S3200000x32_0_1 (colF (eW ea)))
    (subf (Host.gather gather_S100000x32_S3200000x1_S3200000x32_1_0_n_n_0_1_132 a (colI (wrapE (eSrc ei))))
      (Host.gather gather_S100000x32_S3200000x1_S3200000x32_1_0_n_n_0_1_132 b (colI (wrapE (eDst ei)))))

/-- The messages summed into their destination rows, from zeros. -/
def aggR32 (a b : FVec Ideal S100000x32 .f32) (ei : IVec S2x3200000 32) (ea : FVec Ideal S3200000x1 .f32) : FVec Ideal S100000x32 .f32 :=
  Host.scatterAdd (F := Ideal) scatter_S100000x32_S3200000x1_S3200000x32_1_0_0_1
    (broadcastInDim S100000x32 ![] bcast_S_S100000x32 (constant (F := Ideal) S_ .f32 0x00000000#32))
    (colI (eDst ei)) (msgR32 a b ei ea)

/-- (agg + X·Wc) + bc. -/
def post32 (g c : FVec Ideal S100000x32 .f32) (b : FVec Ideal S32 .f32) : FVec Ideal S100000x32 .f32 :=
  addf (addf g c) (broadcastInDim S100000x32 ![0, 1] bcast_S1x32_S100000x32_0_1 (broadcastInDim S1x32 ![1] bcast_S32_S1x32_1 b))

/-- elu x = x where x > 0, else 1 · expm1 (x where x ≤ 0, else 0). -/
def eluR32 (x : FVec Ideal S100000x32 .f32) : FVec Ideal S100000x32 .f32 :=
  select (cmpf .ogt x (broadcastInDim S100000x32 ![] bcast_S_S100000x32 (constant (F := Ideal) S_ .f32 0x00000000#32))) x
    (mulf (broadcastInDim S100000x32 ![] bcast_S_S100000x32 (constant (F := Ideal) S_ .f32 0x3F800000#32))
      (Host.expm1 (F := Ideal)
        (select (cmpf .ogt x (broadcastInDim S100000x32 ![] bcast_S_S100000x32 (constant (F := Ideal) S_ .f32 0x00000000#32)))
          (broadcastInDim S100000x32 ![] bcast_S_S100000x32 (constant (F := Ideal) S_ .f32 0x00000000#32)) x)))

/-! ## Layer 2 (64 columns) -/

def dense2a (x : FVec Ideal S100000x32 .f32) (W : FVec Ideal S32x64 .f32) (b : FVec Ideal S64 .f32) : FVec Ideal S100000x64 .f32 :=
  addf (Host.dotGeneral (F := Ideal) dot_S100000x32_S32x64_S100000x64_1_0_0_1_n_n none x W)
    (broadcastInDim S100000x64 ![0, 1] bcast_S1x64_S100000x64_0_1 (broadcastInDim S1x64 ![1] bcast_S64_S1x64_1 b))

def mm2 (x : FVec Ideal S100000x32 .f32) (W : FVec Ideal S32x64 .f32) : FVec Ideal S100000x64 .f32 :=
  Host.dotGeneral (F := Ideal) dot_S100000x32_S32x64_S100000x64_1_0_0_1_n_n none x W

def msgR64 (a b : FVec Ideal S100000x64 .f32) (ei : IVec S2x3200000 32) (ea : FVec Ideal S3200000x1 .f32) : FVec Ideal S3200000x64 .f32 :=
  mulf (broadcastInDim S3200000x64 ![0, 1] bcast_S3200000x1_S3200000x64_0_1 (colF (eW ea)))
    (subf (Host.gather gather_S100000x64_S3200000x1_S3200000x64_1_0_n_n_0_1_164 a (colI (wrapE (eSrc ei))))
      (Host.gather gather_S100000x64_S3200000x1_S3200000x64_1_0_n_n_0_1_164 b (colI (wrapE (eDst ei)))))

def aggR64 (a b : FVec Ideal S100000x64 .f32) (ei : IVec S2x3200000 32) (ea : FVec Ideal S3200000x1 .f32) : FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (colI (eDst ei)) (msgR64 a b ei ea)

def post64 (g c : FVec Ideal S100000x64 .f32) (b : FVec Ideal S64 .f32) : FVec Ideal S100000x64 .f32 :=
  addf (addf g c) (broadcastInDim S100000x64 ![0, 1] bcast_S1x64_S100000x64_0_1 (broadcastInDim S1x64 ![1] bcast_S64_S1x64_1 b))

def eluR64 (x : FVec Ideal S100000x64 .f32) : FVec Ideal S100000x64 .f32 :=
  select (cmpf .ogt x (broadcastInDim S100000x64 ![] bcast_S_S100000x64 (constant (F := Ideal) S_ .f32 0x00000000#32))) x
    (mulf (broadcastInDim S100000x64 ![] bcast_S_S100000x64 (constant (F := Ideal) S_ .f32 0x3F800000#32))
      (Host.expm1 (F := Ideal)
        (select (cmpf .ogt x (broadcastInDim S100000x64 ![] bcast_S_S100000x64 (constant (F := Ideal) S_ .f32 0x00000000#32)))
          (broadcastInDim S100000x64 ![] bcast_S_S100000x64 (constant (F := Ideal) S_ .f32 0x00000000#32)) x)))

/-! ## The head -/

def denseF1 (x : FVec Ideal S100000x64 .f32) (W : FVec Ideal S64x128 .f32) (b : FVec Ideal S128 .f32) : FVec Ideal S100000x128 .f32 :=
  addf (Host.dotGeneral (F := Ideal) dot_S100000x64_S64x128_S100000x128_1_0_0_1_n_n none x W)
    (broadcastInDim S100000x128 ![0, 1] bcast_S1x128_S100000x128_0_1 (broadcastInDim S1x128 ![1] bcast_S128_S1x128_1 b))

def eluR128 (x : FVec Ideal S100000x128 .f32) : FVec Ideal S100000x128 .f32 :=
  select (cmpf .ogt x (broadcastInDim S100000x128 ![] bcast_S_S100000x128 (constant (F := Ideal) S_ .f32 0x00000000#32))) x
    (mulf (broadcastInDim S100000x128 ![] bcast_S_S100000x128 (constant (F := Ideal) S_ .f32 0x3F800000#32))
      (Host.expm1 (F := Ideal)
        (select (cmpf .ogt x (broadcastInDim S100000x128 ![] bcast_S_S100000x128 (constant (F := Ideal) S_ .f32 0x00000000#32)))
          (broadcastInDim S100000x128 ![] bcast_S_S100000x128 (constant (F := Ideal) S_ .f32 0x00000000#32)) x)))

def denseF2 (x : FVec Ideal S100000x128 .f32) (W : FVec Ideal S128x10 .f32) (b : FVec Ideal S10 .f32) : FVec Ideal S100000x10 .f32 :=
  addf (Host.dotGeneral (F := Ideal) dot_S100000x128_S128x10_S100000x10_1_0_0_1_n_n none x W)
    (broadcastInDim S100000x10 ![0, 1] bcast_S1x10_S100000x10_0_1 (broadcastInDim S1x10 ![1] bcast_S10_S1x10_1 b))

/-- m = max (−∞, the row maximum from −∞), one per row. -/
def lsmMax (y : FVec Ideal S100000x10 .f32) : FVec Ideal S100000 .f32 :=
  maximumf (broadcastInDim S100000 ![] bcast_S_S100000 (constant (F := Ideal) S_ .f32 0xFF800000#32))
    (Host.reduce (FloatOps.maximumf (F := Ideal) (φ := .f32)) y (constant (F := Ideal) S_ .f32 0xFF800000#32) reducesTo_S100000x10_S100000_d1 h_S_)

/-- y − m, m broadcast along each row. -/
def lsmShift (y : FVec Ideal S100000x10 .f32) : FVec Ideal S100000x10 .f32 :=
  subf y (broadcastInDim S100000x10 ![0, 1] bcast_S100000x1_S100000x10_0_1
    (broadcastInDim S100000x1 ![0] bcast_S100000_S100000x1_0 (lsmMax y)))

/-- log-softmax as (y − m) − log Σ exp (y − m). -/
def lsmRef (y : FVec Ideal S100000x10 .f32) : FVec Ideal S100000x10 .f32 :=
  subf (lsmShift y) (broadcastInDim S100000x10 ![0, 1] bcast_S100000x1_S100000x10_0_1
    (Host.log (F := Ideal) (broadcastInDim S100000x1 ![0] bcast_S100000_S100000x1_0
      (Host.reduceAdd (F := Ideal) (Host.exp (F := Ideal) (lsmShift y)) (constant (F := Ideal) S_ .f32 0x00000000#32)
        reducesTo_S100000x10_S100000_d1 h_S_))))

/-! ## The network -/

/-- Layer 1's output h₁. -/
def h1 (x : FVec Ideal S100000x256 .f32) (ei : IVec S2x3200000 32) (ea : FVec Ideal S3200000x1 .f32)
    (W1a : FVec Ideal S256x32 .f32) (b1a : FVec Ideal S32 .f32) (W1b W1c : FVec Ideal S256x32 .f32) (b1c : FVec Ideal S32 .f32) :
    FVec Ideal S100000x32 .f32 :=
  eluR32 (post32 (aggR32 (dense1a x W1a b1a) (mm1 x W1b) ei ea) (mm1 x W1c) b1c)

/-- Layer 2's output h₂ from h₁. -/
def h2 (h : FVec Ideal S100000x32 .f32) (ei : IVec S2x3200000 32) (ea : FVec Ideal S3200000x1 .f32)
    (W2a : FVec Ideal S32x64 .f32) (b2a : FVec Ideal S64 .f32) (W2b W2c : FVec Ideal S32x64 .f32) (b2c : FVec Ideal S64 .f32) :
    FVec Ideal S100000x64 .f32 :=
  eluR64 (post64 (aggR64 (dense2a h W2a b2a) (mm2 h W2b) ei ea) (mm2 h W2c) b2c)

/-- The logits y from h₂. -/
def logitsR (h : FVec Ideal S100000x64 .f32) (Wf1 : FVec Ideal S64x128 .f32) (bf1 : FVec Ideal S128 .f32)
    (Wf2 : FVec Ideal S128x10 .f32) (bf2 : FVec Ideal S10 .f32) : FVec Ideal S100000x10 .f32 :=
  denseF2 (eluR128 (denseF1 h Wf1 bf1)) Wf2 bf2

/-- The reference's result. -/
def out (x : FVec Ideal S100000x256 .f32) (ei : IVec S2x3200000 32) (ea : FVec Ideal S3200000x1 .f32)
    (W1a : FVec Ideal S256x32 .f32) (b1a : FVec Ideal S32 .f32) (W1b W1c : FVec Ideal S256x32 .f32) (b1c : FVec Ideal S32 .f32)
    (W2a : FVec Ideal S32x64 .f32) (b2a : FVec Ideal S64 .f32) (W2b W2c : FVec Ideal S32x64 .f32) (b2c : FVec Ideal S64 .f32)
    (Wf1 : FVec Ideal S64x128 .f32) (bf1 : FVec Ideal S128 .f32) (Wf2 : FVec Ideal S128x10 .f32) (bf2 : FVec Ideal S10 .f32) :
    FVec Ideal S100000x10 .f32 :=
  lsmRef (logitsR (h2 (h1 x ei ea W1a b1a W1b W1c b1c) ei ea W2a b2a W2b W2c b2c) Wf1 bf1 Wf2 bf2)

end Cert.ReferenceIdeal.Val

end
-- ==== Proof.RefRun.lean ====
/-
  The reference program's run, read back: its operations as a list, cut into stretches that follow the network's
  stages, each stretch's result named by the stage function it computes, and the whole run assembled from them.
-/
import proofs.«132559_j88553635709227_1_alg».proof.Proof.RefOut
import Idealize.ShloMosaic.Lib.StableHlo.Run
import Idealize.ShloMosaic.Lib.Pipeline.Regions

noncomputable section

namespace Cert.ReferenceIdeal.Val

open Idealize.ShloMosaic Idealize.ShloMosaic.TcCoe Idealize.SL.Sem Idealize.ShloMosaic.StableHlo
open Cert.ReferenceIdeal Cert.ReferenceIdeal.Facts₀

variable [Cert.ReferenceIdeal.Facts]
variable {F : FTy → Type} [FloatOps F]

/-! ## Small facts about lists of operations -/

/-- A single written buffer lies in the set of a list that names it. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A property of every operation of two lists holds of every operation of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The contents after two lists in a row. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The operations, stretch by stretch -/

/-- Layer 1 up to its pre-activation: the edge list's rows and weights, X·W1a + b1a, X·W1b, the wrapped gathers, the weighted difference, the scatter-add from zeros, + X·W1c + b1c. -/
abbrev opsA : List (HloOp τ sig (Elt F)) :=
  [
    StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.reshape main_arg2 main_v4 rfl shapeCasts_S3200000x1_S3200000,
    StableHlo.binary main_arg0 main_arg3 main_v5 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    StableHlo.unary main_arg4 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S100000x32 ![0, 1] bcast_S1x32_S100000x32_0_1 : (⟨S1x32, .f32⟩ : BufTy).Contents (Elt F) → (⟨S100000x32, .f32⟩ : BufTy).Contents (Elt F)),
    StableHlo.binary main_v5 main_v7 main_v8 (addf : (⟨S100000x32, .f32⟩ : BufTy).Contents (Elt F) → (⟨S100000x32, .f32⟩ : BufTy).Contents (Elt F) → (⟨S100000x32, .f32⟩ : BufTy).Contents (Elt F)),
    StableHlo.binary main_arg0 main_arg5 main_v9 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    StableHlo.unary main_v4 main_v10 (broadcastInDim S3200000x1 ![0] bcast_S3200000_S3200000x1_0 : (⟨S3200000, .f32⟩ : BufTy).Contents (Elt F) → (⟨S3200000x1, .f32⟩ : BufTy).Contents (Elt F)),
    StableHlo.nullary main_c (constantI S_ 32 0#32),
    StableHlo.unary main_c main_v11 (broadcastInDim S3200000 ![] bcast_S_S3200000 : (⟨S_, .i32⟩ : BufTy).Contents (Elt F) → (⟨S3200000, .i32⟩ : BufTy).Contents (Elt F)),
    StableHlo.binary main_v1 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v13 (broadcastInDim S3200000 ![] bcast_S_S3200000 : (⟨S_, .i32⟩ : BufTy).Contents (Elt F) → (⟨S3200000, .i32⟩ : BufTy).Contents (Elt F)),
    StableHlo.binary main_v1 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_v8 main_v16 main_v17 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_c_1 (constantI S_ 32 0#32),
    StableHlo.unary main_c_1 main_v18 (broadcastInDim S3200000 ![] bcast_S_S3200000 : (⟨S_, .i32⟩ : BufTy).Contents (Elt F) → (⟨S3200000, .i32⟩ : BufTy).Contents (Elt F)),
    StableHlo.binary main_v3 main_v18 main_v19 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v20 (broadcastInDim S3200000 ![] bcast_S_S3200000 : (⟨S_, .i32⟩ : BufTy).Contents (Elt F) → (⟨S3200000, .i32⟩ : BufTy).Contents (Elt F)),
    StableHlo.binary main_v3 main_v20 main_v21 (addi : (⟨S3200000, .i32⟩ : BufTy).Contents (Elt F) → (⟨S3200000, .i32⟩ : BufTy).Contents (Elt F) → (⟨S3200000, .i32⟩ : BufTy).Contents (Elt F)),
    StableHlo.ternary main_v19 main_v21 main_v3 main_v22 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v22 main_v23 (broadcastInDim S3200000x1 ![0] bcast_S3200000_S3200000x1_0 : (⟨S3200000, .i32⟩ : BufTy).Contents (Elt F) → (⟨S3200000x1, .i32⟩ : BufTy).Contents (Elt F)),
    StableHlo.binary main_v9 main_v23 main_v24 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.binary main_v17 main_v24 main_v25 (subf : (⟨S3200000x32, .f32⟩ : BufTy).Contents (Elt F) → (⟨S3200000x32, .f32⟩ : BufTy).Contents (Elt F) → (⟨S3200000x32, .f32⟩ : BufTy).Contents (Elt F)),
    StableHlo.unary main_v10 main_v26 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v26 main_v25 main_v27 (mulf : (⟨S3200000x32, .f32⟩ : BufTy).Contents (Elt F) → (⟨S3200000x32, .f32⟩ : BufTy).Contents (Elt F) → (⟨S3200000x32, .f32⟩ : BufTy).Contents (Elt F)),
    StableHlo.nullary main_cst (constant S_ .f32 0x00000000#32),
    StableHlo.unary main_cst main_v28 (broadcastInDim S100000x32 ![] bcast_S_S100000x32 : (⟨S_, .f32⟩ : BufTy).Contents (Elt F) → (⟨S100000x32, .f32⟩ : BufTy).Contents (Elt F)),
    StableHlo.unary main_v3 main_v29 (broadcastInDim S3200000x1 ![0] bcast_S3200000_S3200000x1_0 : (⟨S3200000, .i32⟩ : BufTy).Contents (Elt F) → (⟨S3200000x1, .i32⟩ : BufTy).Contents (Elt F)),
    StableHlo.ternary main_v28 main_v29 main_v27 main_v30 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_arg0 main_arg6 main_v31 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    StableHlo.binary main_v30 main_v31 main_v32 (addf : (⟨S100000x32, .f32⟩ : BufTy).Contents (Elt F) → (⟨S100000x32, .f32⟩ : BufTy).Contents (Elt F) → (⟨S100000x32, .f32⟩ : BufTy).Contents (Elt F)),
    StableHlo.unary main_arg7 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S100000x32 ![0, 1] bcast_S1x32_S100000x32_0_1 : (⟨S1x32, .f32⟩ : BufTy).Contents (Elt F) → (⟨S100000x32, .f32⟩ : BufTy).Contents (Elt F)),
    StableHlo.binary main_v32 main_v34 main_v35 (addf : (⟨S100000x32, .f32⟩ : BufTy).Contents (Elt F) → (⟨S100000x32, .f32⟩ : BufTy).Contents (Elt F) → (⟨S100000x32, .f32⟩ : BufTy).Contents (Elt F)) ]

/-- The buffers those operations write, in order. -/
abbrev WA : List (Ref sig .tc) :=
  [
    main_v0, main_v1, main_v2, main_v3, main_v4, main_v5, main_v6, main_v7,
    main_v8, main_v9, main_v10, main_c, main_v11, main_v12, main_c_0, main_v13,
    main_v14, main_v15, main_v16, main_v17, main_c_1, main_v18, main_v19, main_c_2,
    main_v20, main_v21, main_v22, main_v23, main_v24, main_v25, main_v26, main_v27,
    main_cst, main_v28, main_v29, main_v30, main_v31, main_v32, main_v33, main_v34,
    main_v35 ]

theorem subA : (opsA : List (HloOp τ sig (Elt F))).Forall fun op => op.bufs ⊆ tcRefs τ sig :=
  ⟨
    unary_bufs_sub .., reshape_bufs_sub .., unary_bufs_sub .., reshape_bufs_sub .., reshape_bufs_sub .., binary_bufs_sub ..,
    unary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub ..⟩

theorem freshA : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer none of them writes keeps its contents. -/
theorem frameA (V : Valuation τ sig (Elt F)) {r : Ref sig .tc} (hr : r ∉ WA) :
    after opsA V (no_index (Proc.devRef .tc r)) = V (Proc.devRef .tc r) :=
  after_of_writes_sub (W := WA) opsA V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide)⟩ hr

/-- elu at 32 columns (the call's operations in line, over its record of buffers). -/
abbrev opsB : List (HloOp τ sig (Elt F)) :=
  [
    StableHlo.nullary main_call0_cst (constant S_ .f32 0x00000000#32),
    StableHlo.unary main_call0_cst main_call0_v0 (broadcastInDim S100000x32 ![] bcast_S_S100000x32),
    StableHlo.binary main_v35 main_call0_v0 main_call0_v1 (cmpf .ogt),
    StableHlo.nullary main_call0_cst_0 (constant S_ .f32 0x00000000#32),
    StableHlo.unary main_call0_cst_0 main_call0_v2 (broadcastInDim S100000x32 ![] bcast_S_S100000x32),
    StableHlo.binary main_v35 main_call0_v2 main_call0_v3 (cmpf .ogt),
    StableHlo.nullary main_call0_cst_1 (constant S_ .f32 0x00000000#32),
    StableHlo.unary main_call0_cst_1 main_call0_call0_v0 id,
    StableHlo.unary main_call0_call0_v0 main_call0_call0_v1 (broadcastInDim S100000x32 ![] bcast_S_S100000x32),
    StableHlo.ternary main_call0_v3 main_call0_call0_v1 main_v35 main_call0_v4 select,
    StableHlo.unary main_call0_v4 main_call0_v5 Host.expm1,
    StableHlo.nullary main_call0_cst_2 (constant S_ .f32 0x3F800000#32),
    StableHlo.unary main_call0_cst_2 main_call0_v6 (broadcastInDim S100000x32 ![] bcast_S_S100000x32),
    StableHlo.binary main_call0_v6 main_call0_v5 main_call0_v7 mulf,
    StableHlo.ternary main_call0_v1 main_v35 main_call0_v7 main_v36 select ]

/-- The buffers those operations write, in order. -/
abbrev WB : List (Ref sig .tc) :=
  [
    main_call0_cst, main_call0_v0, main_call0_v1, main_call0_cst_0, main_call0_v2, main_call0_v3, main_call0_cst_1, main_call0_call0_v0,
    main_call0_call0_v1, main_call0_v4, main_call0_v5, main_call0_cst_2, main_call0_v6, main_call0_v7, main_v36 ]

theorem subB : (opsB : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem freshB : (opsB : List (HloOp τ sig (Elt F))).Forall fun op => op.fresh = ∅ :=
  ⟨rfl, rfl, rfl, rfl, rfl, rfl, rfl, rfl, rfl, rfl, rfl, rfl, rfl, rfl, rfl⟩

/-- A buffer none of them writes keeps its contents. -/
theorem frameB (V : Valuation τ sig (Elt F)) {r : Ref sig .tc} (hr : r ∉ WB) :
    after opsB V (no_index (Proc.devRef .tc r)) = V (Proc.devRef .tc r) :=
  after_of_writes_sub (W := WB) opsB V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide)⟩ hr

/-- Layer 2, first half: h₁·W2a + b2a, h₁·W2b, the weights' column, the wrapped source indices and their gather, the destination indices' sign test. -/
abbrev opsC0 : List (HloOp τ sig (Elt F)) :=
  [
    StableHlo.binary main_v36 main_arg8 main_v37 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg9 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v39 main_v40 (addf : (⟨S100000x64, .f32⟩ : BufTy).Contents (Elt F) → (⟨S100000x64, .f32⟩ : BufTy).Contents (Elt F) → (⟨S100000x64, .f32⟩ : BufTy).Contents (Elt F)),
    StableHlo.binary main_v36 main_arg10 main_v41 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_v4 main_v42 (broadcastInDim S3200000x1 ![0] bcast_S3200000_S3200000x1_0 : (⟨S3200000, .f32⟩ : BufTy).Contents (Elt F) → (⟨S3200000x1, .f32⟩ : BufTy).Contents (Elt F)),
    StableHlo.nullary main_c_3 (constantI S_ 32 0#32),
    StableHlo.unary main_c_3 main_v43 (broadcastInDim S3200000 ![] bcast_S_S3200000 : (⟨S_, .i32⟩ : BufTy).Contents (Elt F) → (⟨S3200000, .i32⟩ : BufTy).Contents (Elt F)),
    StableHlo.binary main_v1 main_v43 main_v44 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v45 (broadcastInDim S3200000 ![] bcast_S_S3200000 : (⟨S_, .i32⟩ : BufTy).Contents (Elt F) → (⟨S3200000, .i32⟩ : BufTy).Contents (Elt F)),
    StableHlo.binary main_v1 main_v45 main_v46 (addi : (⟨S3200000, .i32⟩ : BufTy).Contents (Elt F) → (⟨S3200000, .i32⟩ : BufTy).Contents (Elt F) → (⟨S3200000, .i32⟩ : BufTy).Contents (Elt F)),
    StableHlo.ternary main_v44 main_v46 main_v1 main_v47 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v47 main_v48 (broadcastInDim S3200000x1 ![0] bcast_S3200000_S3200000x1_0 : (⟨S3200000, .i32⟩ : BufTy).Contents (Elt F) → (⟨S3200000x1, .i32⟩ : BufTy).Contents (Elt F)),
    StableHlo.binary main_v40 main_v48 main_v49 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_c_5 (constantI S_ 32 0#32),
    StableHlo.unary main_c_5 main_v50 (broadcastInDim S3200000 ![] bcast_S_S3200000 : (⟨S_, .i32⟩ : BufTy).Contents (Elt F) → (⟨S3200000, .i32⟩ : BufTy).Contents (Elt F)),
    StableHlo.binary main_v3 main_v50 main_v51 (cmpi .slt : (⟨S3200000, .i32⟩ : BufTy).Contents (Elt F) → (⟨S3200000, .i32⟩ : BufTy).Contents (Elt F) → (⟨S3200000, .i1⟩ : BufTy).Contents (Elt F)) ]

/-- The buffers those operations write, in order. -/
abbrev WC0 : List (Ref sig .tc) :=
  [
    main_v37, main_v38, main_v39, main_v40, main_v41, main_v42, main_c_3, main_v43,
    main_v44, main_c_4, main_v45, main_v46, main_v47, main_v48, main_v49, main_c_5,
    main_v50, main_v51 ]

theorem subC0 : (opsC0 : List (HloOp τ sig (Elt F))).Forall fun op => op.bufs ⊆ tcRefs τ sig :=
  ⟨
    binary_bufs_sub .., unary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..⟩

theorem freshC0 : (opsC0 : List (HloOp τ sig (Elt F))).Forall fun op => op.fresh = ∅ :=
  ⟨rfl, rfl, rfl, rfl, rfl, rfl, rfl, rfl, rfl, rfl, rfl, rfl, rfl, rfl, rfl, rfl, rfl, rfl⟩

/-- A buffer none of them writes keeps its contents. -/
theorem frameC0 (V : Valuation τ sig (Elt F)) {r : Ref sig .tc} (hr : r ∉ WC0) :
    after opsC0 V (no_index (Proc.devRef .tc r)) = V (Proc.devRef .tc r) :=
  after_of_writes_sub (W := WC0) opsC0 V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide)⟩ hr

/-- Layer 2, second half: the wrapped destination indices and their gather, the weighted difference, the scatter-add from zeros, + h₁·W2c + b2c. -/
abbrev opsC1 : List (HloOp τ sig (Elt F)) :=
  [
    StableHlo.nullary main_c_6 (constantI S_ 32 100000#32),
    StableHlo.unary main_c_6 main_v52 (broadcastInDim S3200000 ![] bcast_S_S3200000 : (⟨S_, .i32⟩ : BufTy).Contents (Elt F) → (⟨S3200000, .i32⟩ : BufTy).Contents (Elt F)),
    StableHlo.binary main_v3 main_v52 main_v53 (addi : (⟨S3200000, .i32⟩ : BufTy).Contents (Elt F) → (⟨S3200000, .i32⟩ : BufTy).Contents (Elt F) → (⟨S3200000, .i32⟩ : BufTy).Contents (Elt F)),
    StableHlo.ternary main_v51 main_v53 main_v3 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v54 main_v55 (broadcastInDim S3200000x1 ![0] bcast_S3200000_S3200000x1_0 : (⟨S3200000, .i32⟩ : BufTy).Contents (Elt F) → (⟨S3200000x1, .i32⟩ : BufTy).Contents (Elt F)),
    StableHlo.binary main_v41 main_v55 main_v56 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.binary main_v49 main_v56 main_v57 (subf : (⟨S3200000x64, .f32⟩ : BufTy).Contents (Elt F) → (⟨S3200000x64, .f32⟩ : BufTy).Contents (Elt F) → (⟨S3200000x64, .f32⟩ : BufTy).Contents (Elt F)),
    StableHlo.unary main_v42 main_v58 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v58 main_v57 main_v59 (mulf : (⟨S3200000x64, .f32⟩ : BufTy).Contents (Elt F) → (⟨S3200000x64, .f32⟩ : BufTy).Contents (Elt F) → (⟨S3200000x64, .f32⟩ : BufTy).Contents (Elt F)),
    StableHlo.nullary main_cst_7 (constant S_ .f32 0x00000000#32),
    StableHlo.unary main_cst_7 main_v60 (broadcastInDim S100000x64 ![] bcast_S_S100000x64 : (⟨S_, .f32⟩ : BufTy).Contents (Elt F) → (⟨S100000x64, .f32⟩ : BufTy).Contents (Elt F)),
    StableHlo.unary main_v3 main_v61 (broadcastInDim S3200000x1 ![0] bcast_S3200000_S3200000x1_0 : (⟨S3200000, .i32⟩ : BufTy).Contents (Elt F) → (⟨S3200000x1, .i32⟩ : BufTy).Contents (Elt F)),
    StableHlo.ternary main_v60 main_v61 main_v59 main_v62 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_v36 main_arg11 main_v63 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v62 main_v63 main_v64 (addf : (⟨S100000x64, .f32⟩ : BufTy).Contents (Elt F) → (⟨S100000x64, .f32⟩ : BufTy).Contents (Elt F) → (⟨S100000x64, .f32⟩ : BufTy).Contents (Elt F)),
    StableHlo.unary main_arg12 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)) ]

/-- The buffers those operations write, in order. -/
abbrev WC1 : List (Ref sig .tc) :=
  [
    main_c_6, main_v52, main_v53, main_v54, main_v55, main_v56, main_v57, main_v58,
    main_v59, main_cst_7, main_v60, main_v61, main_v62, main_v63, main_v64, main_v65,
    main_v66, main_v67 ]

theorem subC1 : (opsC1 : List (HloOp τ sig (Elt F))).Forall fun op => op.bufs ⊆ tcRefs τ sig :=
  ⟨
    nullary_bufs_sub .., unary_bufs_sub .., binary_bufs_sub .., ternary_bufs_sub .., unary_bufs_sub .., binary_bufs_sub ..,
    binary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..⟩

theorem freshC1 : (opsC1 : List (HloOp τ sig (Elt F))).Forall fun op => op.fresh = ∅ :=
  ⟨rfl, rfl, rfl, rfl, rfl, rfl, rfl, rfl, rfl, rfl, rfl, rfl, rfl, rfl, rfl, rfl, rfl, rfl⟩

/-- A buffer none of them writes keeps its contents. -/
theorem frameC1 (V : Valuation τ sig (Elt F)) {r : Ref sig .tc} (hr : r ∉ WC1) :
    after opsC1 V (no_index (Proc.devRef .tc r)) = V (Proc.devRef .tc r) :=
  after_of_writes_sub (W := WC1) opsC1 V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide)⟩ hr

/-- elu at 64 columns, then h₂·Wf1 + bf1. -/
abbrev opsDE : List (HloOp τ sig (Elt F)) :=
  [
    StableHlo.nullary main_call1_cst (constant S_ .f32 0x00000000#32),
    StableHlo.unary main_call1_cst main_call1_v0 (broadcastInDim S100000x64 ![] bcast_S_S100000x64),
    StableHlo.binary main_v67 main_call1_v0 main_call1_v1 (cmpf .ogt),
    StableHlo.nullary main_call1_cst_0 (constant S_ .f32 0x00000000#32),
    StableHlo.unary main_call1_cst_0 main_call1_v2 (broadcastInDim S100000x64 ![] bcast_S_S100000x64),
    StableHlo.binary main_v67 main_call1_v2 main_call1_v3 (cmpf .ogt),
    StableHlo.nullary main_call1_cst_1 (constant S_ .f32 0x00000000#32),
    StableHlo.unary main_call1_cst_1 main_call1_call0_v0 id,
    StableHlo.unary main_call1_call0_v0 main_call1_call0_v1 (broadcastInDim S100000x64 ![] bcast_S_S100000x64),
    StableHlo.ternary main_call1_v3 main_call1_call0_v1 main_v67 main_call1_v4 select,
    StableHlo.unary main_call1_v4 main_call1_v5 Host.expm1,
    StableHlo.nullary main_call1_cst_2 (constant S_ .f32 0x3F800000#32),
    StableHlo.unary main_call1_cst_2 main_call1_v6 (broadcastInDim S100000x64 ![] bcast_S_S100000x64),
    StableHlo.binary main_call1_v6 main_call1_v5 main_call1_v7 mulf,
    StableHlo.ternary main_call1_v1 main_v67 main_call1_v7 main_v68 select,
    StableHlo.binary main_v68 main_arg13 main_v69 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg14 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v71 main_v72 (addf : (⟨S100000x128, .f32⟩ : BufTy).Contents (Elt F) → (⟨S100000x128, .f32⟩ : BufTy).Contents (Elt F) → (⟨S100000x128, .f32⟩ : BufTy).Contents (Elt F)) ]

/-- The buffers those operations write, in order. -/
abbrev WDE : List (Ref sig .tc) :=
  [
    main_call1_cst, main_call1_v0, main_call1_v1, main_call1_cst_0, main_call1_v2, main_call1_v3, main_call1_cst_1, main_call1_call0_v0,
    main_call1_call0_v1, main_call1_v4, main_call1_v5, main_call1_cst_2, main_call1_v6, main_call1_v7, main_v68, main_v69,
    main_v70, main_v71, main_v72 ]

theorem subDE : (opsDE : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub ..⟩

theorem freshDE : (opsDE : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- A buffer none of them writes keeps its contents. -/
theorem frameDE (V : Valuation τ sig (Elt F)) {r : Ref sig .tc} (hr : r ∉ WDE) :
    after opsDE V (no_index (Proc.devRef .tc r)) = V (Proc.devRef .tc r) :=
  after_of_writes_sub (W := WDE) opsDE V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide)⟩ hr

/-- elu at 128 columns, then z·Wf2 + bf2. -/
abbrev opsFG : List (HloOp τ sig (Elt F)) :=
  [
    StableHlo.nullary main_call2_cst (constant S_ .f32 0x00000000#32),
    StableHlo.unary main_call2_cst main_call2_v0 (broadcastInDim S100000x128 ![] bcast_S_S100000x128),
    StableHlo.binary main_v72 main_call2_v0 main_call2_v1 (cmpf .ogt),
    StableHlo.nullary main_call2_cst_0 (constant S_ .f32 0x00000000#32),
    StableHlo.unary main_call2_cst_0 main_call2_v2 (broadcastInDim S100000x128 ![] bcast_S_S100000x128),
    StableHlo.binary main_v72 main_call2_v2 main_call2_v3 (cmpf .ogt),
    StableHlo.nullary main_call2_cst_1 (constant S_ .f32 0x00000000#32),
    StableHlo.unary main_call2_cst_1 main_call2_call0_v0 id,
    StableHlo.unary main_call2_call0_v0 main_call2_call0_v1 (broadcastInDim S100000x128 ![] bcast_S_S100000x128),
    StableHlo.ternary main_call2_v3 main_call2_call0_v1 main_v72 main_call2_v4 select,
    StableHlo.unary main_call2_v4 main_call2_v5 Host.expm1,
    StableHlo.nullary main_call2_cst_2 (constant S_ .f32 0x3F800000#32),
    StableHlo.unary main_call2_cst_2 main_call2_v6 (broadcastInDim S100000x128 ![] bcast_S_S100000x128),
    StableHlo.binary main_call2_v6 main_call2_v5 main_call2_v7 mulf,
    StableHlo.ternary main_call2_v1 main_v72 main_call2_v7 main_v73 select,
    StableHlo.binary main_v73 main_arg15 main_v74 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    StableHlo.unary main_arg16 main_v75 (broadcastInDim S1x10 ![1] bcast_S10_S1x10_1 : (⟨S10, .f32⟩ : BufTy).Contents (Elt F) → (⟨S1x10, .f32⟩ : BufTy).Contents (Elt F)),
    StableHlo.unary main_v75 main_v76 (broadcastInDim S100000x10 ![0, 1] bcast_S1x10_S100000x10_0_1 : (⟨S1x10, .f32⟩ : BufTy).Contents (Elt F) → (⟨S100000x10, .f32⟩ : BufTy).Contents (Elt F)),
    StableHlo.binary main_v74 main_v76 main_v77 (addf : (⟨S100000x10, .f32⟩ : BufTy).Contents (Elt F) → (⟨S100000x10, .f32⟩ : BufTy).Contents (Elt F) → (⟨S100000x10, .f32⟩ : BufTy).Contents (Elt F)) ]

/-- The buffers those operations write, in order. -/
abbrev WFG : List (Ref sig .tc) :=
  [
    main_call2_cst, main_call2_v0, main_call2_v1, main_call2_cst_0, main_call2_v2, main_call2_v3, main_call2_cst_1, main_call2_call0_v0,
    main_call2_call0_v1, main_call2_v4, main_call2_v5, main_call2_cst_2, main_call2_v6, main_call2_v7, main_v73, main_v74,
    main_v75, main_v76, main_v77 ]

theorem subFG : (opsFG : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub ..⟩

theorem freshFG : (opsFG : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- A buffer none of them writes keeps its contents. -/
theorem frameFG (V : Valuation τ sig (Elt F)) {r : Ref sig .tc} (hr : r ∉ WFG) :
    after opsFG V (no_index (Proc.devRef .tc r)) = V (Proc.devRef .tc r) :=
  after_of_writes_sub (W := WFG) opsFG V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide), wsub (by decide), wsub (by decide), wsub (by decide),
    wsub (by decide)⟩ hr

/-- log-softmax: the row maximum from −∞, the shift, the exponentials' row sum, its logarithm, the difference. -/
abbrev opsH : List (HloOp τ sig (Elt F)) :=
  [
    StableHlo.nullary main_call3_cst (constant S_ .f32 0xFF800000#32),
    StableHlo.binary main_v77 main_call3_cst main_call3_v0 (fun x v => Host.reduce FloatOps.maximumf x v reducesTo_S100000x10_S100000_d1 h_S_),
    StableHlo.nullary main_call3_cst_0 (constant S_ .f32 0xFF800000#32),
    StableHlo.unary main_call3_cst_0 main_call3_v1 (broadcastInDim S100000 ![] bcast_S_S100000),
    StableHlo.binary main_call3_v1 main_call3_v0 main_call3_v2 maximumf,
    StableHlo.unary main_call3_v2 main_call3_v3 (broadcastInDim S100000x1 ![0] bcast_S100000_S100000x1_0),
    StableHlo.unary main_call3_v3 main_call3_v4 (broadcastInDim S100000x10 ![0, 1] bcast_S100000x1_S100000x10_0_1),
    StableHlo.binary main_v77 main_call3_v4 main_call3_v5 subf,
    StableHlo.unary main_call3_v5 main_call3_v6 Host.exp,
    StableHlo.nullary main_call3_cst_1 (constant S_ .f32 0x00000000#32),
    StableHlo.binary main_call3_v6 main_call3_cst_1 main_call3_v7 (fun x v => Host.reduceAdd x v reducesTo_S100000x10_S100000_d1 h_S_),
    StableHlo.unary main_call3_v7 main_call3_v8 (broadcastInDim S100000x1 ![0] bcast_S100000_S100000x1_0),
    StableHlo.unary main_call3_v8 main_call3_v9 Host.log,
    StableHlo.unary main_call3_v9 main_call3_v10 (broadcastInDim S100000x10 ![0, 1] bcast_S100000x1_S100000x10_0_1),
    StableHlo.binary main_call3_v5 main_call3_v10 main_v78 subf ]

/-- The buffers those operations write, in order. -/
abbrev WH : List (Ref sig .tc) :=
  [
    main_call3_cst, main_call3_v0, main_call3_cst_0, main_call3_v1, main_call3_v2, main_call3_v3, main_call3_v4, main_call3_v5,
    main_call3_v6, main_call3_cst_1, main_call3_v7, main_call3_v8, main_call3_v9, main_call3_v10, main_v78 ]

theorem subH : (opsH : List (HloOp τ sig (Elt F))).Forall fun op => op.bufs ⊆ tcRefs τ sig :=
  ⟨
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem freshH : (opsH : List (HloOp τ sig (Elt F))).Forall fun op => op.fresh = ∅ :=
  ⟨rfl, rfl, rfl, rfl, rfl, rfl, rfl, rfl, rfl, rfl, rfl, rfl, rfl, rfl, rfl⟩

/-- A buffer none of them writes keeps its contents. -/
theorem frameH (V : Valuation τ sig (Elt F)) {r : Ref sig .tc} (hr : r ∉ WH) :
    after opsH V (no_index (Proc.devRef .tc r)) = V (Proc.devRef .tc r) :=
  after_of_writes_sub (W := WH) opsH V
    ⟨
    wsub (by decide), wsub (by decide), wsub (by decide), wsub (by decide), wsub (by decide), wsub (by decide),
    wsub (by decide), wsub (by decide), wsub (by decide), wsub (by decide), wsub (by decide), wsub (by decide),
    wsub (by decide), wsub (by decide), wsub (by decide)⟩ hr

/-! ## @main is the stretches in a row -/

/-- The first window's operations. -/
def opsP0 : List (HloOp τ sig (Elt F)) := opsA ++ (opsB ++ opsC0)
/-- The second window's operations. -/
def opsP1 : List (HloOp τ sig (Elt F)) := opsC1 ++ (opsDE ++ (opsFG ++ opsH))
/-- @main's operations, the calls in line. -/
def ops : List (HloOp τ sig (Elt F)) := opsP0 ++ opsP1

theorem main_part0_eq (c : Dev nD) : main_part0 (F := F) c = seq opsP0 := by chain_rfl
theorem main_part1_eq (c : Dev nD) : main_part1 (F := F) c = seq opsP1 := by chain_rfl

theorem main_eq (c : Dev nD) : main (F := F) c = seq ops := by
  show (main_part0 (F := F) c >>= fun _ => main_part1 (F := F) c) = seq ops
  rw [ops, seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [ops, opsP0, opsP1]
  exact forall_app (forall_app subA (forall_app subB subC0)) (forall_app subC1 (forall_app subDE (forall_app subFG subH)))

theorem ops_fresh : ∀ op ∈ (ops : List (HloOp τ sig (Elt F))), op.fresh = ∅ := by
  rw [ops, opsP0, opsP1]
  exact List.forall_iff_forall_mem.mp
    (forall_app (forall_app freshA (forall_app freshB freshC0)) (forall_app freshC1 (forall_app freshDE (forall_app freshFG freshH))))

/-! ## What each stretch computes, at the extended reals -/

section Values

variable (V : Valuation τ sig (Elt Ideal))

theorem valA_v1 : after (opsA (F := Ideal)) V (Proc.devRef .tc main_v1) = eSrc (V (Proc.devRef .tc main_arg1)) := by
  after_results_simp <;> rfl

theorem valA_v3 : after (opsA (F := Ideal)) V (Proc.devRef .tc main_v3) = eDst (V (Proc.devRef .tc main_arg1)) := by
  after_results_simp <;> rfl

theorem valA_v4 : after (opsA (F := Ideal)) V (Proc.devRef .tc main_v4) = eW (V (Proc.devRef .tc main_arg2)) := by
  after_results_simp <;> rfl

theorem valA_v35 : after (opsA (F := Ideal)) V (Proc.devRef .tc main_v35)
    = post32 (aggR32 (dense1a (V (Proc.devRef .tc main_arg0)) (V (Proc.devRef .tc main_arg3)) (V (Proc.devRef .tc main_arg4))) (mm1 (V (Proc.devRef .tc main_arg0)) (V (Proc.devRef .tc main_arg5)))
        (V (Proc.devRef .tc main_arg1)) (V (Proc.devRef .tc main_arg2))) (mm1 (V (Proc.devRef .tc main_arg0)) (V (Proc.devRef .tc main_arg6))) (V (Proc.devRef .tc main_arg7)) := by
  after_results_simp <;> rfl

theorem valB_v36 : after (opsB (F := Ideal)) V (Proc.devRef .tc main_v36) = eluR32 (V (Proc.devRef .tc main_v35)) := by
  after_results_simp <;> rfl

/-- Layer 2's pre-activation from h₁, given that the edge list's rows and weights are still where layer 1 left them. -/
theorem valC_v67 (ei : IVec S2x3200000 32) (ea : FVec Ideal S3200000x1 .f32)
    (h1 : V (Proc.devRef .tc main_v1) = eSrc ei) (h3 : V (Proc.devRef .tc main_v3) = eDst ei) (h4 : V (Proc.devRef .tc main_v4) = eW ea) :
    after (opsC1 (F := Ideal)) (after (opsC0 (F := Ideal)) V) (Proc.devRef .tc main_v67)
      = post64 (aggR64 (dense2a (V (Proc.devRef .tc main_v36)) (V (Proc.devRef .tc main_arg8)) (V (Proc.devRef .tc main_arg9))) (mm2 (V (Proc.devRef .tc main_v36)) (V (Proc.devRef .tc main_arg10))) ei ea)
          (mm2 (V (Proc.devRef .tc main_v36)) (V (Proc.devRef .tc main_arg11))) (V (Proc.devRef .tc main_arg12)) := by
  after_results_simp
  rw [h1, h3, h4]
  rfl

theorem valDE_v72 : after (opsDE (F := Ideal)) V (Proc.devRef .tc main_v72)
    = denseF1 (eluR64 (V (Proc.devRef .tc main_v67))) (V (Proc.devRef .tc main_arg13)) (V (Proc.devRef .tc main_arg14)) := by
  after_results_simp <;> rfl

theorem valFG_v77 : after (opsFG (F := Ideal)) V (Proc.devRef .tc main_v77)
    = denseF2 (eluR128 (V (Proc.devRef .tc main_v72))) (V (Proc.devRef .tc main_arg15)) (V (Proc.devRef .tc main_arg16)) := by
  after_results_simp <;> rfl

theorem valH_v78 : after (opsH (F := Ideal)) V (Proc.devRef .tc main_v78) = lsmRef (V (Proc.devRef .tc main_v77)) := by
  after_results_simp <;> rfl

/-- The contents after all of @main, as the stretches in a row. -/
theorem after_ops : after (ops (F := Ideal)) V
    = after opsH (after opsFG (after opsDE (after opsC1 (after opsC0 (after opsB (after opsA V)))))) := by
  rw [ops, opsP0, opsP1]
  simp only [after_app]

/-- The result buffer ends at the reference network of the argument buffers' launch contents. -/
theorem result_eq : after (ops (F := Ideal)) V (Proc.devRef .tc main_v78) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  have h1 : after opsB (after opsA V) (Proc.devRef .tc main_v1) = eSrc (V (Proc.devRef .tc main_arg1)) := by
    rw [frameB _ (by decide), valA_v1]
  have h3 : after opsB (after opsA V) (Proc.devRef .tc main_v3) = eDst (V (Proc.devRef .tc main_arg1)) := by
    rw [frameB _ (by decide), valA_v3]
  have h4 : after opsB (after opsA V) (Proc.devRef .tc main_v4) = eW (V (Proc.devRef .tc main_arg2)) := by
    rw [frameB _ (by decide), valA_v4]
  rw [after_ops, valH_v78, valFG_v77, valDE_v72, valC_v67 _ _ _ h1 h3 h4, valB_v36, valA_v35]
  simp (disch := decide) only [frameA, frameB, frameC0, frameC1, frameDE, frameFG]
  rfl

/-- An argument buffer ends as it began. -/
theorem arg_eq {r : Ref sig .tc} (hr : r ∉ WA ++ (WB ++ (WC0 ++ (WC1 ++ (WDE ++ (WFG ++ WH)))))) :
    after (ops (F := Ideal)) V (Proc.devRef .tc r) = V (Proc.devRef .tc r) := by
  simp only [List.mem_append, not_or] at hr
  obtain ⟨hA, hB, hC0, hC1, hDE, hFG, hH⟩ := hr
  rw [after_ops, frameH _ hH, frameFG _ hFG, frameDE _ hDE, frameC1 _ hC1, frameC0 _ hC0, frameB _ hB, frameA _ hA]

end Values

/-! ## The run -/

/-- On every device, from any memory with zero counters: every weakly fair execution of @main terminates with the
    result buffer at the reference network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v78).trans (result_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide)),
      (h c main_arg11).trans (arg_eq _ (by decide)),
      (h c main_arg12).trans (arg_eq _ (by decide)),
      (h c main_arg13).trans (arg_eq _ (by decide)),
      (h c main_arg14).trans (arg_eq _ (by decide)),
      (h c main_arg15).trans (arg_eq _ (by decide)),
      (h c main_arg16).trans (arg_eq _ (by decide))⟩)
    (run_seq scopedRefs_eq scopedSems_eq defs main (fun _ => ops) main_eq (fun _ => ops_sub) m ρ (fun _ => ops_fresh))

end Cert.ReferenceIdeal.Val

end
-- ==== Proof.RefValue.lean ====
/-
  The reference's result is the specification.

  Stage by stage: a product record with the plain contraction lists is the matrix product Σ_k X(r, k) · W(k, q); a bias
  vector laid out as one row and copied down the rows adds as the vector does; the elu chain
  (compare with 0, keep x where positive, elsewhere 1 · expm1 x) is elu entry by entry; the log-softmax chain
  (row maximum from −∞, subtract it, exponentiate, row sum from 0, logarithm, subtract) is
  (y − m) − log Σ exp (y − m); and the edge aggregation is the same chain of array operations on both sides.
  Composed, the reference's result is the log-softmax of the specification's logits.
-/
import Idealize.ShloMosaic.Lib.StackMember
import Idealize.ShloMosaic.Lib.ValueIdx
import Idealize.ShloMosaic.Lib.IdealHost
import Idealize.ShloMosaic.Lib.Pipeline.Value
import Idealize.ShloMosaic.PureOps.Ideal.Laws
import proofs.«132559_j88553635709227_1_alg».proof.ReferenceIdeal
import proofs.«132559_j88553635709227_1_alg».proof.Proof.Gen.ReferenceIdeal
import proofs.«132559_j88553635709227_1_alg».proof.Proof.Spec
import proofs.«132559_j88553635709227_1_alg».proof.Proof.LibRowOps
import proofs.«132559_j88553635709227_1_alg».proof.Proof.RefOut

noncomputable section

namespace Cert.ReferenceIdeal.Val

open Idealize.ShloMosaic Idealize.ShloMosaic.ValueIdx Idealize.ShloMosaic.StackMember
open Cert.ReferenceIdeal Cert.ReferenceIdeal.Facts₀
open scoped BigOperators

variable [Cert.ReferenceIdeal.Facts]

/-! ## The product -/

/-- A product record carrying the plain lists (contract the left operand's columns with the right operand's rows) is the
    matrix product: entry (a, b) is the sum over c of X(a, c) · W(c, b). -/
theorem dotGeneral_eq_mm {N K C : Nat} (d : DotDims ⟨2, ![N, K]⟩ ⟨2, ![K, C]⟩ ⟨2, ![N, C]⟩)
    (hd : d = DotDims.plain N K C) (X : Spec.Mat N K) (W : Spec.Mat K C) :
    Host.dotGeneral (F := Ideal) (φ₁ := .f32) (φ₂ := .f32) d none X W = Spec.mm X W := by
  subst hd
  funext i
  obtain ⟨a, b, rfl⟩ : ∃ a b, i = ix2 a b := ⟨i 0, i 1, eq_ix2 i⟩
  exact dotGeneral_plain_apply none X W a b

theorem dot_256_32 (X : Spec.Mat 100000 256) (W : Spec.Mat 256 32) :
    Host.dotGeneral (F := Ideal) (φ₁ := .f32) (φ₂ := .f32) dot_S100000x256_S256x32_S100000x32_1_0_0_1_n_n none X W = Spec.mm X W :=
  dotGeneral_eq_mm _ rfl X W

theorem dot_32_64 (X : Spec.Mat 100000 32) (W : Spec.Mat 32 64) :
    Host.dotGeneral (F := Ideal) (φ₁ := .f32) (φ₂ := .f32) dot_S100000x32_S32x64_S100000x64_1_0_0_1_n_n none X W = Spec.mm X W :=
  dotGeneral_eq_mm _ rfl X W

theorem dot_64_128 (X : Spec.Mat 100000 64) (W : Spec.Mat 64 128) :
    Host.dotGeneral (F := Ideal) (φ₁ := .f32) (φ₂ := .f32) dot_S100000x64_S64x128_S100000x128_1_0_0_1_n_n none X W = Spec.mm X W :=
  dotGeneral_eq_mm _ rfl X W

theorem dot_128_10 (X : Spec.Mat 100000 128) (W : Spec.Mat 128 10) :
    Host.dotGeneral (F := Ideal) (φ₁ := .f32) (φ₂ := .f32) dot_S100000x128_S128x10_S100000x10_1_0_0_1_n_n none X W = Spec.mm X W :=
  dotGeneral_eq_mm _ rfl X W

/-! ## The bias -/

/-- A vector laid out as one row and that row copied to every row reads, at (r, q), entry q of the vector. -/
theorem bias_rows {N C : Nat}
    (h1 : (⟨1, ![C]⟩ : Shape).BroadcastsInDim (⟨2, ![1, C]⟩ : Shape) (![1] : Fin 1 → Fin 2))
    (h2 : (⟨2, ![1, C]⟩ : Shape).BroadcastsInDim (⟨2, ![N, C]⟩ : Shape) (![0, 1] : Fin 2 → Fin 2)) (b : Spec.Vc C) :
    broadcastInDim (⟨2, ![N, C]⟩ : Shape) ![0, 1] h2 (broadcastInDim (⟨2, ![1, C]⟩ : Shape) ![1] h1 b)
      = fun i => b (ix1 (i 1)) := by
  funext i
  obtain ⟨r, q, rfl⟩ : ∃ r q, i = ix2 r q := ⟨i 0, i 1, eq_ix2 i⟩
  have hq : q.val < C := q.isLt
  refine (broadcastInDim_apply ![0, 1] h2 _ (ix2 r q) (ix2 (0 : Fin 1) q) ?_).trans
    (broadcastInDim_apply ![1] h1 b (ix2 (0 : Fin 1) q) (ix1 q) ?_)
  · intro c
    match c with
    | ⟨0, _⟩ => rfl
    | ⟨1, _⟩ =>
      show q.val = if C = 1 then 0 else q.val
      split
      · omega
      · rfl
  · intro c
    match c with
    | ⟨0, _⟩ =>
      show q.val = if C = 1 then 0 else q.val
      split
      · omega
      · rfl

/-- Adding the copied row is adding the bias vector to every row. -/
theorem addf_bias {N C : Nat}
    (h1 : (⟨1, ![C]⟩ : Shape).BroadcastsInDim (⟨2, ![1, C]⟩ : Shape) (![1] : Fin 1 → Fin 2))
    (h2 : (⟨2, ![1, C]⟩ : Shape).BroadcastsInDim (⟨2, ![N, C]⟩ : Shape) (![0, 1] : Fin 2 → Fin 2))
    (Y : Spec.Mat N C) (b : Spec.Vc C) :
    addf (F := Ideal) (φ := .f32) Y
        (broadcastInDim (⟨2, ![N, C]⟩ : Shape) ![0, 1] h2 (broadcastInDim (⟨2, ![1, C]⟩ : Shape) ![1] h1 b))
      = Spec.addRow Y b := by
  rw [bias_rows h1 h2 b]
  rfl

/-- The sum of two matrices as the entrywise sum. -/
theorem addf_eq_add {N C : Nat} (A B : Spec.Mat N C) : addf (F := Ideal) (φ := .f32) A B = Spec.add A B := rfl

/-! ## elu -/

/-- The scalar chain: where x > 0 the result is x; elsewhere 1 · (e^x − 1). -/
theorem elu_scalar (x : EReal) :
    Scalar.select (Ideal.cmp .ogt x (Ideal.ofBits .f32 0x00000000#32)) x
        (Ideal.ofBits .f32 0x3F800000#32 *
          (Ideal.exp (Scalar.select (Ideal.cmp .ogt x (Ideal.ofBits .f32 0x00000000#32)) (Ideal.ofBits .f32 0x00000000#32) x) - 1))
      = Spec.elu x := by
  rw [Ideal.ofBits_zero_f32, Ideal.ofBits_one_f32, one_mul]
  unfold Spec.elu Ideal.cmp
  by_cases h : (0 : EReal) < x
  · simp only [h, decide_true, if_true]
    exact select_one _ _
  · simp only [h, decide_false, if_false]
    rw [show BitVec.ofBool false = 0#1 from rfl, select_zero, select_zero]

/-- The array chain, at any shape: compare with the zero splat, keep x where positive, elsewhere the one splat times
    expm1 of (zero where positive, x elsewhere). -/
theorem elu_chain {s : Shape} (h : S_.BroadcastsInDim s (![] : Fin 0 → Fin s.rank)) (x : FVec Ideal s .f32) :
    select (cmpf .ogt x (broadcastInDim s ![] h (constant (F := Ideal) S_ .f32 0x00000000#32))) x
        (mulf (broadcastInDim s ![] h (constant (F := Ideal) S_ .f32 0x3F800000#32))
          (Host.expm1 (select (cmpf .ogt x (broadcastInDim s ![] h (constant (F := Ideal) S_ .f32 0x00000000#32)))
            (broadcastInDim s ![] h (id (constant (F := Ideal) S_ .f32 0x00000000#32))) x)))
      = fun i => Spec.elu (x i) := by
  funext i
  exact elu_scalar (x i)

/-! ## log-softmax -/

/-- The f32 pattern of −∞ is the bottom element. -/
theorem ofBits_neg_inf_f32 : Ideal.ofBits .f32 0xFF800000#32 = ⊥ := by simp [Ideal.ofBits, Ideal.ieee]

/-- A row index with the column k put back is (a, k). -/
theorem lift_row {N C : Nat} (h : (⟨2, ![N, C]⟩ : Shape).Reduces [1] (⟨1, ![N]⟩ : Shape)) (a : Fin N)
    (k : Fin ((⟨2, ![N, C]⟩ : Shape).size 1)) : h.lift (ix1 a) k = ix2 a (⟨k.val, k.isLt⟩ : Fin C) := by
  funext c; apply Fin.ext
  fin_cases c <;> rfl

/-- The reduce with a maximum body over the columns, from −∞, is the row maximum from −∞. -/
theorem rowMax_chain {N C : Nat} (h' : (⟨2, ![N, C]⟩ : Shape).ReducesTo [1] (⟨1, ![N]⟩ : Shape)) (hu : 0 < S_.numel)
    (y : Spec.Mat N C) (a : Fin N) :
    Host.reduce (FloatOps.maximumf (F := Ideal) (φ := .f32)) y (constant (F := Ideal) S_ .f32 0xFF800000#32) h' hu (ix1 a)
      = Spec.rowMax y a := by
  have h : (⟨2, ![N, C]⟩ : Shape).Reduces [1] (⟨1, ![N]⟩ : Shape) := ⟨h'.1, Nat.one_pos, h'.2⟩
  rw [Host.reduce_eq_fold_single (FloatOps.maximumf (F := Ideal) (φ := .f32)) y _ h' h hu]
  have hf : (y ∘ h.lift (ix1 a)) = fun k : Fin C => y (ix2 a k) := funext fun k => congrArg y (lift_row h a k)
  show Finset.fold max (Ideal.ofBits .f32 0xFF800000#32) (y ∘ h.lift (ix1 a)) (Finset.univ : Finset (Fin C)) = _
  rw [hf, ofBits_neg_inf_f32]
  rfl

/-- The sum reduce over the columns, from zero, is the row sum. -/
theorem rowSum_chain {N C : Nat} (h' : (⟨2, ![N, C]⟩ : Shape).ReducesTo [1] (⟨1, ![N]⟩ : Shape)) (hu : 0 < S_.numel)
    (z : Spec.Mat N C) (a : Fin N) :
    Host.reduceAdd (F := Ideal) (φ := .f32) z (constant (F := Ideal) S_ .f32 0x00000000#32) h' hu (ix1 a)
      = ∑ k : Fin C, z (ix2 a k) := by
  have h : (⟨2, ![N, C]⟩ : Shape).Reduces [1] (⟨1, ![N]⟩ : Shape) := ⟨h'.1, Nat.one_pos, h'.2⟩
  show Ideal.hostReduceAdd h' z (Ideal.ofBits .f32 0x00000000#32) (ix1 a) = _
  rw [Ideal.hostReduceAdd_single h' h, Ideal.ofBits_zero_f32, zero_add]
  exact Finset.sum_congr rfl fun k _ => congrArg z (lift_row h a k)

/-- A vector as one column reads, at (r, 0), its entry r. -/
theorem bcast_toCol {α : Type} {N : Nat}
    (h1 : (⟨1, ![N]⟩ : Shape).BroadcastsInDim (⟨2, ![N, 1]⟩ : Shape) (![0] : Fin 1 → Fin 2))
    (v : (⟨1, ![N]⟩ : Shape).Idx → α) :
    broadcastInDim (⟨2, ![N, 1]⟩ : Shape) ![0] h1 v = fun i => v (ix1 (i 0)) := by
  funext i
  obtain ⟨r, q, rfl⟩ : ∃ r q, i = ix2 r q := ⟨i 0, i 1, eq_ix2 i⟩
  have hr : r.val < N := r.isLt
  refine broadcastInDim_apply ![0] h1 v (ix2 r q) (ix1 r) ?_
  intro c
  match c with
  | ⟨0, _⟩ =>
    show r.val = if N = 1 then 0 else r.val
    split
    · omega
    · rfl

/-- A column copied along each row reads, at (r, q), the column's entry r. -/
theorem bcast_colToMat {α : Type} {N C : Nat}
    (h2 : (⟨2, ![N, 1]⟩ : Shape).BroadcastsInDim (⟨2, ![N, C]⟩ : Shape) (![0, 1] : Fin 2 → Fin 2))
    (w : (⟨2, ![N, 1]⟩ : Shape).Idx → α) :
    broadcastInDim (⟨2, ![N, C]⟩ : Shape) ![0, 1] h2 w = fun i => w (ix2 (i 0) (0 : Fin 1)) := by
  funext i
  obtain ⟨r, q, rfl⟩ : ∃ r q, i = ix2 r q := ⟨i 0, i 1, eq_ix2 i⟩
  have hr : r.val < N := r.isLt
  refine broadcastInDim_apply ![0, 1] h2 w (ix2 r q) (ix2 r (0 : Fin 1)) ?_
  intro c
  match c with
  | ⟨0, _⟩ =>
    show r.val = if N = 1 then 0 else r.val
    split
    · omega
    · rfl
  | ⟨1, _⟩ => rfl

/-- The whole chain at any height and width: with m the maximum with −∞ of the row maximum and s = y − m copied along
    rows, the result s − log Σ exp s copied along rows is (y − m) − log Σ exp (y − m). -/
theorem lsm_chain {N C : Nat}
    (h' : (⟨2, ![N, C]⟩ : Shape).ReducesTo [1] (⟨1, ![N]⟩ : Shape)) (hu : 0 < S_.numel)
    (hb0 : S_.BroadcastsInDim (⟨1, ![N]⟩ : Shape) (![] : Fin 0 → Fin 1))
    (h1 : (⟨1, ![N]⟩ : Shape).BroadcastsInDim (⟨2, ![N, 1]⟩ : Shape) (![0] : Fin 1 → Fin 2))
    (h2 : (⟨2, ![N, 1]⟩ : Shape).BroadcastsInDim (⟨2, ![N, C]⟩ : Shape) (![0, 1] : Fin 2 → Fin 2))
    (y : FVec Ideal (⟨2, ![N, C]⟩ : Shape) .f32) (m : FVec Ideal (⟨1, ![N]⟩ : Shape) .f32) (s : FVec Ideal (⟨2, ![N, C]⟩ : Shape) .f32)
    (hm : m = maximumf (broadcastInDim (⟨1, ![N]⟩ : Shape) ![] hb0 (constant (F := Ideal) S_ .f32 0xFF800000#32))
      (Host.reduce (FloatOps.maximumf (F := Ideal) (φ := .f32)) y (constant (F := Ideal) S_ .f32 0xFF800000#32) h' hu))
    (hs : s = subf y (broadcastInDim (⟨2, ![N, C]⟩ : Shape) ![0, 1] h2 (broadcastInDim (⟨2, ![N, 1]⟩ : Shape) ![0] h1 m))) :
    subf s (broadcastInDim (⟨2, ![N, C]⟩ : Shape) ![0, 1] h2 (Host.log (F := Ideal)
        (broadcastInDim (⟨2, ![N, 1]⟩ : Shape) ![0] h1
          (Host.reduceAdd (F := Ideal) (Host.exp (F := Ideal) s) (constant (F := Ideal) S_ .f32 0x00000000#32) h' hu))))
      = Spec.lsmR y := by
  have em : ∀ a : Fin N, m (ix1 a) = Spec.rowMax y a := by
    intro a
    rw [hm]
    show max (Ideal.ofBits .f32 0xFF800000#32) (Host.reduce (FloatOps.maximumf (F := Ideal) (φ := .f32)) y
      (constant (F := Ideal) S_ .f32 0xFF800000#32) h' hu (ix1 a)) = _
    rw [rowMax_chain, ofBits_neg_inf_f32]
    exact max_eq_right bot_le
  have es : ∀ (a : Fin N) (q : Fin C), s (ix2 a q) = y (ix2 a q) - Spec.rowMax y a := by
    intro a q
    rw [hs, bcast_toCol, bcast_colToMat]
    show y (ix2 a q) - m (ix1 a) = _
    rw [em]
  rw [bcast_toCol, bcast_colToMat]
  funext i
  obtain ⟨a, q, rfl⟩ : ∃ a q, i = ix2 a q := ⟨i 0, i 1, eq_ix2 i⟩
  show s (ix2 a q) - Ideal.log (Host.reduceAdd (F := Ideal) (φ := .f32) (Host.exp (F := Ideal) s)
      (constant (F := Ideal) S_ .f32 0x00000000#32) h' hu (ix1 a)) = _
  rw [rowSum_chain, es]
  show _ = (y (ix2 a q) - Spec.rowMax y a) - Ideal.log (∑ k : Fin C, Ideal.exp (y (ix2 a k) - Spec.rowMax y a))
  congr 2
  exact Finset.sum_congr rfl fun k _ => congrArg Ideal.exp (es a k)

/-- The reference's log-softmax is (y − m) − log Σ exp (y − m). -/
theorem lsmRef_eq (y : FVec Ideal S100000x10 .f32) : lsmRef y = Spec.lsmR y :=
  lsm_chain reducesTo_S100000x10_S100000_d1 h_S_ bcast_S_S100000 bcast_S100000_S100000x1_0 bcast_S100000x1_S100000x10_0_1
    y (lsmMax y) (lsmShift y) rfl rfl

/-! ## The aggregation -/

set_option maxHeartbeats 400000 in
/-- The reference's chain from the edge list to the scattered sum is, operation by operation, the specification's. -/
theorem aggR32_eq (a b : FVec Ideal S100000x32 .f32) (ei : IVec S2x3200000 32) (ea : FVec Ideal S3200000x1 .f32) :
    aggR32 a b ei ea = Spec.agg Spec.aggFacts32 a b ei ea := rfl

set_option maxHeartbeats 400000 in
theorem aggR64_eq (a b : FVec Ideal S100000x64 .f32) (ei : IVec S2x3200000 32) (ea : FVec Ideal S3200000x1 .f32) :
    aggR64 a b ei ea = Spec.agg Spec.aggFacts64 a b ei ea := rfl

/-! ## The stages as the specification's functions -/

theorem mm1_eq (x : FVec Ideal S100000x256 .f32) (W : FVec Ideal S256x32 .f32) : mm1 x W = Spec.mm x W :=
  dot_256_32 x W

theorem mm2_eq (x : FVec Ideal S100000x32 .f32) (W : FVec Ideal S32x64 .f32) : mm2 x W = Spec.mm x W :=
  dot_32_64 x W

theorem dense1a_eq (x : FVec Ideal S100000x256 .f32) (W : FVec Ideal S256x32 .f32) (b : FVec Ideal S32 .f32) :
    dense1a x W b = Spec.addRow (Spec.mm x W) b := by
  unfold dense1a
  rw [dot_256_32]
  exact addf_bias bcast_S32_S1x32_1 bcast_S1x32_S100000x32_0_1 (Spec.mm x W) b

theorem dense2a_eq (x : FVec Ideal S100000x32 .f32) (W : FVec Ideal S32x64 .f32) (b : FVec Ideal S64 .f32) :
    dense2a x W b = Spec.addRow (Spec.mm x W) b := by
  unfold dense2a
  rw [dot_32_64]
  exact addf_bias bcast_S64_S1x64_1 bcast_S1x64_S100000x64_0_1 (Spec.mm x W) b

theorem denseF1_eq (x : FVec Ideal S100000x64 .f32) (W : FVec Ideal S64x128 .f32) (b : FVec Ideal S128 .f32) :
    denseF1 x W b = Spec.addRow (Spec.mm x W) b := by
  unfold denseF1
  rw [dot_64_128]
  exact addf_bias bcast_S128_S1x128_1 bcast_S1x128_S100000x128_0_1 (Spec.mm x W) b

theorem denseF2_eq (x : FVec Ideal S100000x128 .f32) (W : FVec Ideal S128x10 .f32) (b : FVec Ideal S10 .f32) :
    denseF2 x W b = Spec.addRow (Spec.mm x W) b := by
  unfold denseF2
  rw [dot_128_10]
  exact addf_bias bcast_S10_S1x10_1 bcast_S1x10_S100000x10_0_1 (Spec.mm x W) b

theorem post32_eq (g c : FVec Ideal S100000x32 .f32) (b : FVec Ideal S32 .f32) :
    post32 g c b = Spec.addRow (Spec.add g c) b :=
  addf_bias bcast_S32_S1x32_1 bcast_S1x32_S100000x32_0_1 (Spec.add g c) b

theorem post64_eq (g c : FVec Ideal S100000x64 .f32) (b : FVec Ideal S64 .f32) :
    post64 g c b = Spec.addRow (Spec.add g c) b :=
  addf_bias bcast_S64_S1x64_1 bcast_S1x64_S100000x64_0_1 (Spec.add g c) b

theorem eluR32_eq (x : FVec Ideal S100000x32 .f32) : eluR32 x = Spec.eluM x := elu_chain bcast_S_S100000x32 x

theorem eluR64_eq (x : FVec Ideal S100000x64 .f32) : eluR64 x = Spec.eluM x := elu_chain bcast_S_S100000x64 x

theorem eluR128_eq (x : FVec Ideal S100000x128 .f32) : eluR128 x = Spec.eluM x := elu_chain bcast_S_S100000x128 x

/-- Layer 1 is the specification's convolution layer at 32 columns. -/
theorem h1_eq (x : FVec Ideal S100000x256 .f32) (ei : IVec S2x3200000 32) (ea : FVec Ideal S3200000x1 .f32)
    (W1a : FVec Ideal S256x32 .f32) (b1a : FVec Ideal S32 .f32) (W1b W1c : FVec Ideal S256x32 .f32) (b1c : FVec Ideal S32 .f32) :
    h1 x ei ea W1a b1a W1b W1c b1c = Spec.conv Spec.aggFacts32 x ei ea W1a b1a W1b W1c b1c := by
  unfold h1 Spec.conv
  rw [eluR32_eq, post32_eq, aggR32_eq, dense1a_eq, mm1_eq, mm1_eq]

/-- Layer 2 is the specification's convolution layer at 64 columns. -/
theorem h2_eq (h : FVec Ideal S100000x32 .f32) (ei : IVec S2x3200000 32) (ea : FVec Ideal S3200000x1 .f32)
    (W2a : FVec Ideal S32x64 .f32) (b2a : FVec Ideal S64 .f32) (W2b W2c : FVec Ideal S32x64 .f32) (b2c : FVec Ideal S64 .f32) :
    h2 h ei ea W2a b2a W2b W2c b2c = Spec.conv Spec.aggFacts64 h ei ea W2a b2a W2b W2c b2c := by
  unfold h2 Spec.conv
  rw [eluR64_eq, post64_eq, aggR64_eq, dense2a_eq, mm2_eq, mm2_eq]

/-- The head: a dense layer with elu, then a dense layer. -/
theorem logitsR_eq (h : FVec Ideal S100000x64 .f32) (Wf1 : FVec Ideal S64x128 .f32) (bf1 : FVec Ideal S128 .f32)
    (Wf2 : FVec Ideal S128x10 .f32) (bf2 : FVec Ideal S10 .f32) :
    logitsR h Wf1 bf1 Wf2 bf2 = Spec.addRow (Spec.mm (Spec.eluM (Spec.addRow (Spec.mm h Wf1) bf1)) Wf2) bf2 := by
  unfold logitsR
  rw [denseF2_eq, eluR128_eq, denseF1_eq]

/-! ## The reference's result -/

/-- The reference computes the specification's logits and the log-softmax (y − m) − log Σ exp (y − m) of them. -/
theorem out_eq (x : FVec Ideal S100000x256 .f32) (ei : IVec S2x3200000 32) (ea : FVec Ideal S3200000x1 .f32)
    (W1a : FVec Ideal S256x32 .f32) (b1a : FVec Ideal S32 .f32) (W1b W1c : FVec Ideal S256x32 .f32) (b1c : FVec Ideal S32 .f32)
    (W2a : FVec Ideal S32x64 .f32) (b2a : FVec Ideal S64 .f32) (W2b W2c : FVec Ideal S32x64 .f32) (b2c : FVec Ideal S64 .f32)
    (Wf1 : FVec Ideal S64x128 .f32) (bf1 : FVec Ideal S128 .f32) (Wf2 : FVec Ideal S128x10 .f32) (bf2 : FVec Ideal S10 .f32) :
    out x ei ea W1a b1a W1b W1c b1c W2a b2a W2b W2c b2c Wf1 bf1 Wf2 bf2
      = Spec.lsmR (Spec.logits x ei ea W1a b1a W1b W1c b1c W2a b2a W2b W2c b2c Wf1 bf1 Wf2 bf2) := by
  unfold out Spec.logits
  rw [lsmRef_eq, logitsR_eq, h2_eq, h1_eq]

end Cert.ReferenceIdeal.Val

end
-- ==== Proof.SpecReal.lean ====
/-
  Two facts about the network of Spec.lean on the extended reals.

  (1) On a real-valued row the two spellings of log-softmax agree: with m the row's maximum (a real, since the
      row is non-empty and real) and L = log Σ exp (y − m) (a real, since the sum of C ≥ 1 positive reals is a
      positive real), y − (m + L) = (y − m) − L is an identity of real numbers.
  (2) Real-valuedness passes from the inputs to the logits: a finite sum of products of reals is real, a sum of
      two reals is real, elu of a real is real, and every entry of the edge aggregation is zero plus a finite sum
      of products w_e · (a(·, c) − b(·, c)) of entries of real-valued arrays.
-/
import proofs.«132559_j88553635709227_1_alg».proof.Proof.Spec
import Mathlib.Data.EReal.Operations
import Mathlib.Data.Finset.Fold
import Mathlib.Analysis.SpecialFunctions.Log.Basic

noncomputable section

namespace Cert.Spec

open Idealize.ShloMosaic Idealize.ShloMosaic.ValueIdx
open scoped BigOperators

/-! ## Real-valued extended reals: closure under the field operations -/

/-- Neither infinity. -/
def Re (x : EReal) : Prop := x ≠ ⊤ ∧ x ≠ ⊥

/-- Neither infinity exactly when the coercion of a real. -/
theorem re_iff (x : EReal) : Re x ↔ ∃ r : ℝ, x = (r : EReal) := by
  constructor
  · rintro ⟨h1, h2⟩
    exact ⟨x.toReal, (EReal.coe_toReal h1 h2).symm⟩
  · rintro ⟨r, rfl⟩
    exact ⟨EReal.coe_ne_top r, EReal.coe_ne_bot r⟩

theorem re_coe (r : ℝ) : Re (r : EReal) := ⟨EReal.coe_ne_top r, EReal.coe_ne_bot r⟩

theorem re_zero : Re (0 : EReal) := re_coe 0

theorem re_one : Re (1 : EReal) := re_coe 1

theorem re_add {x y : EReal} (hx : Re x) (hy : Re y) : Re (x + y) := by
  obtain ⟨a, rfl⟩ := (re_iff x).1 hx
  obtain ⟨b, rfl⟩ := (re_iff y).1 hy
  rw [← EReal.coe_add]
  exact re_coe _

theorem re_sub {x y : EReal} (hx : Re x) (hy : Re y) : Re (x - y) := by
  obtain ⟨a, rfl⟩ := (re_iff x).1 hx
  obtain ⟨b, rfl⟩ := (re_iff y).1 hy
  rw [← EReal.coe_sub]
  exact re_coe _

theorem re_mul {x y : EReal} (hx : Re x) (hy : Re y) : Re (x * y) := by
  obtain ⟨a, rfl⟩ := (re_iff x).1 hx
  obtain ⟨b, rfl⟩ := (re_iff y).1 hy
  rw [← EReal.coe_mul]
  exact re_coe _

/-- A finite sum of reals is real. -/
theorem re_sum {ι : Type*} (s : Finset ι) (f : ι → EReal) (h : ∀ i ∈ s, Re (f i)) : Re (∑ i ∈ s, f i) := by
  classical
  revert h
  refine Finset.induction_on s ?_ ?_
  · intro _
    rw [Finset.sum_empty]
    exact re_zero
  · intro a t ha ih h
    rw [Finset.sum_insert ha]
    exact re_add (h a (Finset.mem_insert_self a t)) (ih fun i hi => h i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

theorem re_exp {x : EReal} (hx : Re x) : Re (Ideal.exp x) := by
  obtain ⟨a, rfl⟩ := (re_iff x).1 hx
  rw [Ideal.exp_coe]
  exact re_coe _

/-- elu of a real is a real: the real itself, or e^x − 1. -/
theorem re_elu {x : EReal} (hx : Re x) : Re (elu x) := by
  unfold elu
  split_ifs
  · exact hx
  · exact re_sub (re_exp hx) re_one

/-! ## The two spellings of log-softmax on a real row -/

/-- The maximum of a non-empty real row is real and bounds every entry. -/
theorem rowMax_re {N C : Nat} (hC : 0 < C) (Y : Mat N C) (hY : IsReal Y) (a : Fin N) : Re (rowMax Y a) := by
  have hle : ∀ k : Fin C, Y (ix2 a k) ≤ rowMax Y a := fun k =>
    ((Finset.fold_max_le (rowMax Y a)).1 (le_refl (rowMax Y a))).2 k (Finset.mem_univ k)
  have hbot : rowMax Y a ≠ ⊥ := by
    intro h0
    have h1 := hle ⟨0, hC⟩
    rw [h0, le_bot_iff] at h1
    exact (hY _).2 h1
  refine ⟨?_, hbot⟩
  intro htop
  rcases (Finset.le_fold_max (rowMax Y a)).1 (le_refl (rowMax Y a)) with h | ⟨k, _, h⟩
  · exact hbot (le_bot_iff.1 h)
  · rw [htop, top_le_iff] at h
    exact (hY _).1 h

theorem lsmK_eq_lsmR_of_real {N C : Nat} (hC : 0 < C) (Y : Mat N C) (hY : IsReal Y) : lsmK Y = lsmR Y := by
  funext i
  obtain ⟨p, q, rfl⟩ : ∃ p q, i = ix2 p q := ⟨i 0, i 1, eq_ix2 i⟩
  show Y (ix2 p q) - (rowMax Y p + Ideal.log (rowSumExp Y p)) = (Y (ix2 p q) - rowMax Y p) - Ideal.log (rowSumExp Y p)
  obtain ⟨μ, hμ⟩ := (re_iff _).1 (rowMax_re hC Y hY p)
  have hy : ∀ k : Fin C, ∃ r : ℝ, Y (ix2 p k) = (r : EReal) := fun k => (re_iff _).1 (hY _)
  choose y hyk using hy
  -- the sum of the exponentials is the coercion of a positive real
  have hS : rowSumExp Y p = ((∑ k : Fin C, Real.exp (y k - μ) : ℝ) : EReal) := by
    unfold rowSumExp
    rw [coe_sum]
    refine Finset.sum_congr rfl fun k _ => ?_
    rw [hyk k, hμ, ← EReal.coe_sub, Ideal.exp_coe]
  have hpos : 0 < ∑ k : Fin C, Real.exp (y k - μ) :=
    Finset.sum_pos (fun k _ => Real.exp_pos _) ⟨⟨0, hC⟩, Finset.mem_univ _⟩
  rw [hS, Ideal.log_coe, if_neg (not_le.2 hpos), hyk q, hμ]
  rw [← EReal.coe_add, ← EReal.coe_sub, ← EReal.coe_sub, ← EReal.coe_sub]
  exact congrArg _ (by ring)

/-! ## Real-valuedness through the stages of the network -/

theorem isReal_mm {N K C : Nat} (X : Mat N K) (W : Mat K C) (hX : IsReal X) (hW : IsReal W) : IsReal (mm X W) := by
  intro i
  show Re (∑ k : Fin K, X (ix2 (i 0) k) * W (ix2 k (i 1)))
  exact re_sum _ _ fun k _ => re_mul (hX _) (hW _)

theorem isReal_add {N C : Nat} (A B : Mat N C) (hA : IsReal A) (hB : IsReal B) : IsReal (add A B) := by
  intro i
  show Re (A i + B i)
  exact re_add (hA i) (hB i)

theorem isReal_addRow {N C : Nat} (Y : Mat N C) (b : Vc C) (hY : IsReal Y) (hb : IsReal b) : IsReal (addRow Y b) := by
  intro i
  show Re (Y i + b (ix1 (i 1)))
  exact re_add (hY i) (hb _)

theorem isReal_eluM {N C : Nat} (Y : Mat N C) (hY : IsReal Y) : IsReal (eluM Y) := by
  intro i
  show Re (elu (Y i))
  exact re_elu (hY i)

/-- Reading a real-valued array through a re-indexing (a broadcast, a change of shape) gives real values. -/
theorem isReal_broadcastInDim {s t : Shape} (dims : Fin s.rank → Fin t.rank) (h : s.BroadcastsInDim t dims)
    (x : s.Idx → EReal) (hx : IsReal x) : IsReal (broadcastInDim t dims h x) := fun _ => hx _

theorem isReal_shapeCast {s t : Shape} (x : s.Idx → EReal) (h : s.ShapeCasts t) (hx : IsReal x) :
    IsReal (shapeCast t x h) := fun _ => hx _

/-- A message w_e · (a(src e, c) − b(dst e, c)) is a product of entries of real arrays. -/
theorem isReal_msg {C : Nat} (h : AggFacts C) (a b : Mat 100000 C) (ei : IVec S2E 32) (ea : Mat 3200000 1)
    (ha : IsReal a) (hb : IsReal b) (hea : IsReal ea) : IsReal (msg h a b ei ea) := by
  intro i
  obtain ⟨e, c, rfl⟩ : ∃ e c, i = ix2 e c := ⟨i 0, i 1, eq_ix2 i⟩
  unfold msg
  show Re (_ * (_ - _))
  refine re_mul ?_ (re_sub ?_ ?_)
  · exact isReal_broadcastInDim _ _ _ (isReal_broadcastInDim _ _ _ (isReal_shapeCast _ _ hea)) _
  · rw [Cert.Lib.RowOps.gath2_apply (N := 100000) (by norm_num)]
    exact ha _
  · rw [Cert.Lib.RowOps.gath2_apply (N := 100000) (by norm_num)]
    exact hb _

/-- The zero constant is real-valued. -/
theorem isReal_zero (s : Shape) : IsReal (constant (F := Ideal) s .f32 0x00000000#32) := by
  intro i
  show Re (Ideal.ofBits .f32 0x00000000#32)
  rw [Ideal.ofBits_zero_f32]
  exact re_zero

/-- A row scatter-add of real rows into a real array is real: each entry is the operand's plus a finite sum of
    update entries. -/
theorem isReal_scat2 {N D E w : Nat} (wf) (x : Mat N D) (idx : IVec (⟨2, ![E, 1]⟩ : Shape) w) (upd : Mat E D)
    (hx : IsReal x) (hu : IsReal upd) :
    IsReal (Host.scatterAdd (F := Ideal) (φ := .f32) (Cert.Lib.RowOps.scat2 N D E wf) x idx upd) := by
  intro i
  obtain ⟨n, c, rfl⟩ : ∃ n c, i = ix2 n c := ⟨i 0, i 1, eq_ix2 i⟩
  show Re (Ideal.hostScatterAdd (Cert.Lib.RowOps.scat2 N D E wf) x idx upd (ix2 n c))
  rw [Cert.Lib.RowOps.scat2_apply]
  exact re_add (hx _) (re_sum _ _ fun e _ => hu _)

/-- An entry of the aggregation is zero plus a finite sum of messages. -/
theorem isReal_agg {C : Nat} (h : AggFacts C) (a b : Mat 100000 C) (ei : IVec S2E 32) (ea : Mat 3200000 1)
    (ha : IsReal a) (hb : IsReal b) (hea : IsReal ea) : IsReal (agg h a b ei ea) := by
  unfold agg
  exact isReal_scat2 _ _ _ _ (isReal_broadcastInDim _ _ _ (isReal_zero S0)) (isReal_msg h a b ei ea ha hb hea)

theorem isReal_conv {K C : Nat} (h : AggFacts C) (X : Mat 100000 K) (ei : IVec S2E 32) (ea : Mat 3200000 1)
    (Wa : Mat K C) (ba : Vc C) (Wb Wc : Mat K C) (bc : Vc C)
    (hX : IsReal X) (hea : IsReal ea) (hWa : IsReal Wa) (hba : IsReal ba) (hWb : IsReal Wb) (hWc : IsReal Wc)
    (hbc : IsReal bc) : IsReal (conv h X ei ea Wa ba Wb Wc bc) :=
  isReal_eluM _ (isReal_addRow _ _ (isReal_add _ _
    (isReal_agg h _ _ ei ea (isReal_addRow _ _ (isReal_mm X Wa hX hWa) hba) (isReal_mm X Wb hX hWb) hea)
    (isReal_mm X Wc hX hWc)) hbc)

theorem logits_real (x : Mat 100000 256) (ei : IVec S2E 32) (ea : Mat 3200000 1)
    (W1a : Mat 256 32) (b1a : Vc 32) (W1b W1c : Mat 256 32) (b1c : Vc 32)
    (W2a : Mat 32 64) (b2a : Vc 64) (W2b W2c : Mat 32 64) (b2c : Vc 64)
    (Wf1 : Mat 64 128) (bf1 : Vc 128) (Wf2 : Mat 128 10) (bf2 : Vc 10)
    (hx : IsReal x) (hea : IsReal ea) (hW1a : IsReal W1a) (hb1a : IsReal b1a) (hW1b : IsReal W1b) (hW1c : IsReal W1c) (hb1c : IsReal b1c)
    (hW2a : IsReal W2a) (hb2a : IsReal b2a) (hW2b : IsReal W2b) (hW2c : IsReal W2c) (hb2c : IsReal b2c)
    (hWf1 : IsReal Wf1) (hbf1 : IsReal bf1) (hWf2 : IsReal Wf2) (hbf2 : IsReal bf2) :
    IsReal (logits x ei ea W1a b1a W1b W1c b1c W2a b2a W2b W2c b2c Wf1 bf1 Wf2 bf2) := by
  have h1 := isReal_conv aggFacts32 x ei ea W1a b1a W1b W1c b1c hx hea hW1a hb1a hW1b hW1c hb1c
  have h2 := isReal_conv aggFacts64 _ ei ea W2a b2a W2b W2c b2c h1 hea hW2a hb2a hW2b hW2c hb2c
  exact isReal_addRow _ _ (isReal_mm _ Wf2 (isReal_eluM _ (isReal_addRow _ _ (isReal_mm _ Wf1 h2 hWf1) hbf1)) hWf2) hbf2

end Cert.Spec

end
-- ==== Proof.Finite.lean ====
/-
  From the precondition to real-valued inputs.

  The precondition is one bit: the conjunction, over the sixteen float arrays among the arguments, of
  "every entry x has |x| < +∞". On the extended reals |x| = max x (−x), and max x (−x) < ⊤ excludes both x = ⊤ and
  x = ⊥; so where the bit is 1 every entry of every float argument is a real number.
-/
import proofs.«132559_j88553635709227_1_alg».proof.Pre_finite_inputs
import proofs.«132559_j88553635709227_1_alg».proof.Proof.Gen.Pre_finite_inputs
import proofs.«132559_j88553635709227_1_alg».proof.Proof.Spec
import Idealize.ShloMosaic.Lib.ReduceAll

noncomputable section

namespace Cert.Fin

open Idealize.ShloMosaic Idealize.ShloMosaic.ValueIdx Cert.Pre_finite_inputs

/-- The rank-0 shape has one index. -/
instance : Subsingleton (⟨0, ![]⟩ : Shape).Idx := ⟨fun a b => funext fun d => d.elim0⟩

/-- The pattern 0x7F800000 is +∞. -/
theorem ofBits_inf : Ideal.ofBits .f32 0x7F800000#32 = ⊤ := by simp [Ideal.ofBits, Ideal.ieee]

/-- An extended real whose absolute value is below +∞ is neither infinity. -/
theorem real_of_abs_lt_top (x : EReal) (h : Ideal.cmp .olt (max x (-x)) ⊤ = 1#1) : x ≠ ⊤ ∧ x ≠ ⊥ := by
  have hlt : max x (-x) < ⊤ := by
    by_contra hc
    simp [Ideal.cmp, hc] at h
  constructor
  · rintro rfl; simp at hlt
  · rintro rfl; simp at hlt

/-- "all (|x| < +∞)" being 1 says the array is real-valued. -/
theorem isReal_of_all {s : Shape} {axes : List (Fin s.rank)} (x : FVec Ideal s .f32)
    (hb : (⟨0, ![]⟩ : Shape).BroadcastsInDim s (![] : Fin 0 → Fin s.rank))
    (h' : s.ReducesTo axes (⟨0, ![]⟩ : Shape)) (hu : 0 < (⟨0, ![]⟩ : Shape).numel)
    (e : Host.reduce IntOp.andi (cmpf .olt (Host.absf x) (broadcastInDim s ![] hb (constant (F := Ideal) (⟨0, ![]⟩ : Shape) .f32 0x7F800000#32)))
      (constantI (⟨0, ![]⟩ : Shape) 1 1#1) h' hu ix0 = 1#1) :
    Cert.Spec.IsReal x := by
  intro i
  have hi := Host.reduce_andi_all _ _ h' hu ix0 e i
  have hi' : Ideal.cmp .olt (max (x i) (-(x i))) (Ideal.ofBits .f32 0x7F800000#32) = 1#1 := hi
  rw [ofBits_inf] at hi'
  exact real_of_abs_lt_top _ hi'

variable [Cert.Pre_finite_inputs.Facts]

/-- Where the precondition's bit is 1, each of the sixteen float arguments is real-valued. -/
theorem real_inputs (a0 : FVec Ideal S100000x256 .f32) (a1 : IVec S2x3200000 32) (a2 : FVec Ideal S3200000x1 .f32)
    (a3 : FVec Ideal S256x32 .f32) (a4 : FVec Ideal S32 .f32) (a5 : FVec Ideal S256x32 .f32) (a6 : FVec Ideal S256x32 .f32)
    (a7 : FVec Ideal S32 .f32) (a8 : FVec Ideal S32x64 .f32) (a9 : FVec Ideal S64 .f32) (a10 : FVec Ideal S32x64 .f32)
    (a11 : FVec Ideal S32x64 .f32) (a12 : FVec Ideal S64 .f32) (a13 : FVec Ideal S64x128 .f32) (a14 : FVec Ideal S128 .f32)
    (a15 : FVec Ideal S128x10 .f32) (a16 : FVec Ideal S10 .f32)
    (H : fn (F := Ideal) a0 a1 a2 a3 a4 a5 a6 a7 a8 a9 a10 a11 a12 a13 a14 a15 a16 = fun _ => 1#1) :
    Cert.Spec.IsReal a0 ∧ Cert.Spec.IsReal a2 ∧ Cert.Spec.IsReal a3 ∧ Cert.Spec.IsReal a4 ∧ Cert.Spec.IsReal a5
      ∧ Cert.Spec.IsReal a6 ∧ Cert.Spec.IsReal a7 ∧ Cert.Spec.IsReal a8 ∧ Cert.Spec.IsReal a9 ∧ Cert.Spec.IsReal a10
      ∧ Cert.Spec.IsReal a11 ∧ Cert.Spec.IsReal a12 ∧ Cert.Spec.IsReal a13 ∧ Cert.Spec.IsReal a14 ∧ Cert.Spec.IsReal a15
      ∧ Cert.Spec.IsReal a16 := by
  have h := congrFun H ix0
  dsimp only [fn, fn_part1, fn_part2, fn_part3, fn_part4] at h
  simp only [andi, IntOp.andi_eq_one] at h
  obtain ⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩ := h
  exact ⟨isReal_of_all _ _ _ _ h0, isReal_of_all _ _ _ _ h2, isReal_of_all _ _ _ _ h3, isReal_of_all _ _ _ _ h4,
    isReal_of_all _ _ _ _ h5, isReal_of_all _ _ _ _ h6, isReal_of_all _ _ _ _ h7, isReal_of_all _ _ _ _ h8,
    isReal_of_all _ _ _ _ h9, isReal_of_all _ _ _ _ h10, isReal_of_all _ _ _ _ h11, isReal_of_all _ _ _ _ h12,
    isReal_of_all _ _ _ _ h13, isReal_of_all _ _ _ _ h14, isReal_of_all _ _ _ _ h15, isReal_of_all _ _ _ _ h16⟩

end Cert.Fin

end
-- ==== Proof.lean ====
/-
  The certificate of a two-layer graph convolution network with a dense head and log-softmax, computed by three
  fused kernels over row blocks of 5000 nodes with the edge gather and segment sum between them, against the same
  network written with whole-array operations.

  Frames. The two kernel programs terminate without fault and leave their arguments unchanged by the frame
  certificate of their three regions and host stretches; the reference by its run, operation by operation.

  Values, at the extended reals. The kernel program's result is lsmK (logits args) and the reference's
  lsmR (logits args), one function `logits` of the argument arrays (Proof/Spec.lean): the products, bias sums, edge
  aggregations and elu agree operation by operation (a matrix product into a zero accumulator and a host product
  are one sum; a change of float format is the identity; e^x − 1 is the reference's expm1; a bias added after a sum
  re-associates). The last step differs: y − (m + log Σ exp (y − m)) against (y − m) − log Σ exp (y − m). These agree
  on real rows and differ at infinite entries, so the precondition is used: every float argument is real-valued
  (Proof/Finite.lean), every stage of `logits` keeps arrays real-valued (Proof/SpecReal.lean), hence the two forms agree.
-/
import proofs.«132559_j88553635709227_1_alg».proof.Defs
import proofs.«132559_j88553635709227_1_alg».proof.Proof.KernelFrame
import proofs.«132559_j88553635709227_1_alg».proof.Proof.KRun
import proofs.«132559_j88553635709227_1_alg».proof.Proof.KValue
import proofs.«132559_j88553635709227_1_alg».proof.Proof.RefRun
import proofs.«132559_j88553635709227_1_alg».proof.Proof.RefValue
import proofs.«132559_j88553635709227_1_alg».proof.Proof.SpecReal
import proofs.«132559_j88553635709227_1_alg».proof.Proof.Finite
import proofs.«132559_j88553635709227_1_alg».proof.Proof.Gen.Pre_finite_inputs
import proofs.«132559_j88553635709227_1_alg».proof.Proof.Gen.ReferenceIdeal

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Val.run m ρ)

/-- Both runs end at log-softmax of one array of logits, in two forms that agree on real rows. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Spec.lsmK (Cert.Spec.logits
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))), ?_, ?_⟩
  · exact (θ_run Cert.KernelIdeal.defs _ _).mono
      (fun _ h c => ⟨(h c).1.trans (Cert.KernelIdeal.Val.value m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Val.run m' ρ')
    obtain ⟨e0, e1, e2, e3, e4, e5, e6, e7, e8, e9, e10, e11, e12, e13, e14, e15, e16⟩ := hagree c
    obtain ⟨r0, r2, r3, r4, r5, r6, r7, r8, r9, r10, r11, r12, r13, r14, r15, r16⟩ :=
      Cert.Fin.real_inputs _ _ _ _ _ _ _ _ _ _ _ _ _ _ _ _ _ (hpre c)
    rw [Cert.ReferenceIdeal.Val.out_eq, e0, e1, e2, e3, e4, e5, e6, e7, e8, e9, e10, e11, e12, e13, e14, e15, e16]
    exact (Cert.Spec.lsmK_eq_lsmR_of_real (by decide) _
      (Cert.Spec.logits_real _ _ _ _ _ _ _ _ _ _ _ _ _ _ _ _ _ r0 r2 r3 r4 r5 r6 r7 r8 r9 r10 r11 r12 r13 r14 r15 r16)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
